-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x12288 : Shape := ⟨2, ![1024, 12288]⟩
abbrev S1024x64 : Shape := ⟨2, ![1024, 64]⟩
abbrev S_ : Shape := ⟨0, ![]⟩

class Facts : Prop where
  bcast_S_S1024x12288 : S_.BroadcastsInDim S1024x12288 (![] : Fin 0 → Fin S1024x12288.rank)
  reducesTo_S1024x12288_S_d0_1 : S1024x12288.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S1024x12288 .f32) (main_arg1 : FVec F S1024x12288 .f32) (main_arg2 : FVec F S1024x12288 .f32) (main_arg3 : FVec F S1024x64 .f32) (main_arg4 : FVec F S1024x64 .f32) : IVec S_ 1 :=
  let main_v0 : FVec F S1024x12288 .f32 := Host.absf main_arg0
  let main_cst : FVec F S_ .f32 := constant S_ .f32 0x7F800000#32
  let main_v1 : FVec F S1024x12288 .f32 := broadcastInDim S1024x12288 ![] bcast_S_S1024x12288 main_cst
  let main_v2 : IVec S1024x12288 1 := cmpf .olt main_v0 main_v1
  let main_c : IVec S_ 1 := constantI S_ 1 1#1
  let main_v3 : IVec S_ 1 := (fun x v => Host.reduce IntOp.andi x v reducesTo_S1024x12288_S_d0_1 h_S_) main_v2 main_c
  let main_v4 : FVec F S1024x12288 .f32 := Host.absf main_arg1
  let main_cst_0 : FVec F S_ .f32 := constant S_ .f32 0x7F800000#32
  let main_v5 : FVec F S1024x12288 .f32 := broadcastInDim S1024x12288 ![] bcast_S_S1024x12288 main_cst_0
  let main_v6 : IVec S1024x12288 1 := cmpf .olt main_v4 main_v5
  let main_c_1 : IVec S_ 1 := constantI S_ 1 1#1
  let main_v7 : IVec S_ 1 := (fun x v => Host.reduce IntOp.andi x v reducesTo_S1024x12288_S_d0_1 h_S_) main_v6 main_c_1
  let main_v8 : IVec S_ 1 := andi main_v3 main_v7
  let main_v9 : FVec F S1024x12288 .f32 := Host.absf main_arg2
  let main_cst_2 : FVec F S_ .f32 := constant S_ .f32 0x7F800000#32
  let main_v10 : FVec F S1024x12288 .f32 := broadcastInDim S1024x12288 ![] bcast_S_S1024x12288 main_cst_2
  let main_v11 : IVec S1024x12288 1 := cmpf .olt main_v9 main_v10
  let main_c_3 : IVec S_ 1 := constantI S_ 1 1#1
  let main_v12 : IVec S_ 1 := (fun x v => Host.reduce IntOp.andi x v reducesTo_S1024x12288_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S1024x12288 : Shape := ⟨2, ![1024, 12288]⟩
abbrev S1024x64 : Shape := ⟨2, ![1024, 64]⟩
abbrev S1024 : Shape := ⟨1, ![1024]⟩
abbrev S128x4096 : Shape := ⟨2, ![128, 4096]⟩
abbrev S128 : Shape := ⟨1, ![128]⟩
abbrev S_ : Shape := ⟨0, ![]⟩
abbrev S128x64 : Shape := ⟨2, ![128, 64]⟩
abbrev S128x1 : Shape := ⟨2, ![128, 1]⟩
abbrev S1x128x64 : Shape := ⟨3, ![1, 128, 64]⟩
abbrev S128x1x64 : Shape := ⟨3, ![128, 1, 64]⟩
abbrev S128x128x64 : Shape := ⟨3, ![128, 128, 64]⟩
abbrev S128x128 : Shape := ⟨2, ![128, 128]⟩

abbrev nBuf : Space → Nat
  | .hbm => 63
  | .vmem => 22
  | .smem => 0
  | _ => 0

abbrev bufTy : (tb : Table) → Fin (tcTables nBuf tb) → BufTy
  | .hbm, ⟨0, _⟩ => ⟨S1024x12288, .f32⟩
  | .hbm, ⟨1, _⟩ => ⟨S1024x12288, .f32⟩
  | .hbm, ⟨2, _⟩ => ⟨S1024x12288, .f32⟩
  | .hbm, ⟨3, _⟩ => ⟨S1024x64, .f32⟩
  | .hbm, ⟨4, _⟩ => ⟨S1024x64, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x64, .f32⟩
  | .hbm, ⟨11, _⟩ => ⟨S1024x64, .f32⟩
  | .hbm, ⟨12, _⟩ => ⟨S_, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S_, .f32⟩
  | .hbm, ⟨21, _⟩ => ⟨S1024x64, .f32⟩
  | .hbm, ⟨22, _⟩ => ⟨S1024x64, .f32⟩
  | .hbm, ⟨23, _⟩ => ⟨S_, .f32⟩
  | .hbm, ⟨24, _⟩ => ⟨S1024, .f32⟩
  | .hbm, ⟨25, _⟩ => ⟨S1024x64, .f32⟩
  | .hbm, ⟨26, _⟩ => ⟨S1024x64, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128, .f32⟩
  | .local _ .vmem, ⟨5, _⟩ => ⟨S128, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x64, .f32⟩
  | .local _ .vmem, ⟨19, _⟩ => ⟨S128x64, .f32⟩
  | .local _ .vmem, ⟨20, _⟩ => ⟨S128x1, .f32⟩
  | .local _ .vmem, ⟨21, _⟩ => ⟨S128x1, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_cst_9 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v67 : BitVec 1 := Scalar.cmpi .eq arg1 c7_i32
  let v68 : BitVec 32 := Scalar.extui v67
  let c0_i32_33 : BitVec 32 := 0#32
  let v69 : BitVec 1 := Scalar.cmpi .ne v68 c0_i32_33
  v69

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S128_S128_0 : ∀ a, (![0] : Fin 1 → Nat) a + S128.size a ≤ S128.size a
  h_S128 : 0 < S128.numel
  inb_S128x4096_S128x4096_0_0 : ∀ a, (![0, 0] : Fin 2 → Nat) a + S128x4096.size a ≤ S128x4096.size a
  h_S128x4096 : 0 < S128x4096.numel
  shapeCasts_S128_S128 : S128.ShapeCasts S128
  reduces_S128x4096_S128 : S128x4096.Reduces [1] S128
  reducesTo_S1024_S_d0 : S1024.ReducesTo [0] S_
  h_S_ : 0 < S_.numel
  bcast_S_S1024x64 : S_.BroadcastsInDim S1024x64 (![] : Fin 0 → Fin S1024x64.rank)
  reducesTo_S1024x64_S1024_d1 : S1024x64.ReducesTo [1] S1024
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x64_S1x128x64 : S128x64.ShapeCasts S1x128x64
  shapeCasts_S128x64_S128x1x64 : S128x64.ShapeCasts S128x1x64
  broadcasts_S128x1x64_S128x128x64 : S128x1x64.Broadcasts S128x128x64
  broadcasts_S1x128x64_S128x128x64 : S1x128x64.Broadcasts S128x128x64
  reduces_S128x128x64_S128x64 : S128x128x64.Reduces [1] S128x64
  reduces_S128x128x64_S128x128 : S128x128x64.Reduces [2] S128x128
  reduces_S128x128_S128 : S128x128.Reduces [1] S128
  shapeCasts_S128_S128x1 : S128.ShapeCasts S128x1
  broadcasts_S128x1_S128x128 : S128x1.Broadcasts S128x128
  shapeCasts_S128x1_S128 : S128x1.ShapeCasts S128
  reducesTo_S1024x64_S_d0_1 : S1024x64.ReducesTo [0, 1] S_
  bcast_S_S1024 : S_.BroadcastsInDim S1024 (![] : Fin 0 → Fin S1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S1024x12288.size a
  hwx0_0 : ∀ i : grid0.Coords, EltTy.bits .f32 = 32 ∨ (Rect.block (s := S1024x12288) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S1024x12288.size a
  hwx0_1 : ∀ i : grid0.Coords, EltTy.bits .f32 = 32 ∨ (Rect.block (s := S1024x12288) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S1024.size a
  hwx0_2 : ∀ i : grid0.Coords, EltTy.bits .f32 = 32 ∨ (Rect.block (s := S1024) S128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S1024x64.size a
  hwx1_0 : ∀ i : grid1.Coords, EltTy.bits .f32 = 32 ∨ (Rect.block (s := S1024x64) S128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S1024x64.size a
  hwx1_1 : ∀ i : grid1.Coords, EltTy.bits .f32 = 32 ∨ (Rect.block (s := S1024x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S1024x64.size a
  hwx1_2 : ∀ i : grid1.Coords, EltTy.bits .f32 = 32 ∨ (Rect.block (s := S1024x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S1024x64.size a
  hwx1_3 : ∀ i : grid1.Coords, EltTy.bits .f32 = 32 ∨ (Rect.block (s := S1024x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S1024.size a
  hwx1_4 : ∀ i : grid1.Coords, EltTy.bits .f32 = 32 ∨ (Rect.block (s := S1024) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S1024.size a
  hwx1_5 : ∀ i : grid1.Coords, EltTy.bits .f32 = 32 ∨ (Rect.block (s := S1024) S128.size (cc1_transform_5 i) (hinb1_5 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S128x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S128x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_2) S128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14_3) S128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun i => !(k1_cond2 i == 1#1) | 3 => fun i => !(k1_cond2 i == 1#1) | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S1024x12288 : Shape := ⟨2, ![1024, 12288]⟩
abbrev S1024x64 : Shape := ⟨2, ![1024, 64]⟩
abbrev S_ : Shape := ⟨0, ![]⟩
abbrev S1024 : Shape := ⟨1, ![1024]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1024x1024 : Shape := ⟨2, ![1024, 1024]⟩
abbrev S1024x1 : Shape := ⟨2, ![1024, 1]⟩

abbrev nBuf : Space → Nat
  | .hbm => 110
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S1024x12288, .f32⟩
  | .hbm, ⟨2, _⟩ => ⟨S1024x12288, .f32⟩
  | .hbm, ⟨3, _⟩ => ⟨S1024x64, .f32⟩
  | .hbm, ⟨4, _⟩ => ⟨S1024x64, .f32⟩
  | .hbm, ⟨5, _⟩ => ⟨S_, .f32⟩
  | .hbm, ⟨6, _⟩ => ⟨S1024x12288, .f32⟩
  | .hbm, ⟨7, _⟩ => ⟨S1024x12288, .f32⟩
  | .hbm, ⟨8, _⟩ => ⟨S1024x12288, .f32⟩
  | .hbm, ⟨9, _⟩ => ⟨S1024x12288, .f32⟩
  | .hbm, ⟨10, _⟩ => ⟨S_, .f32⟩
  | .hbm, ⟨11, _⟩ => ⟨S1024x12288, .f32⟩
  | .hbm, ⟨12, _⟩ => ⟨S1024x12288, .f32⟩
  | .hbm, ⟨13, _⟩ => ⟨S_, .f32⟩
  | .hbm, ⟨14, _⟩ => ⟨S1024x12288, .f32⟩
  | .hbm, ⟨15, _⟩ => ⟨S1024x12288, .f32⟩
  | .hbm, ⟨16, _⟩ => ⟨S_, .f32⟩
  | .hbm, ⟨17, _⟩ => ⟨S1024x12288, .f32⟩
  | .hbm, ⟨18, _⟩ => ⟨S1024x12288, .f32⟩
  | .hbm, ⟨19, _⟩ => ⟨S1024x12288, .f32⟩
  | .hbm, ⟨20, _⟩ => ⟨S1024x12288, .f32⟩
  | .hbm, ⟨21, _⟩ => ⟨S1024x12288, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x64, .f32⟩
  | .hbm, ⟨29, _⟩ => ⟨S1024x64, .f32⟩
  | .hbm, ⟨30, _⟩ => ⟨S_, .f32⟩
  | .hbm, ⟨31, _⟩ => ⟨S1024x64, .f32⟩
  | .hbm, ⟨32, _⟩ => ⟨S1024x64, .f32⟩
  | .hbm, ⟨33, _⟩ => ⟨S1024x64, .f32⟩
  | .hbm, ⟨34, _⟩ => ⟨S1024x64, .f32⟩
  | .hbm, ⟨35, _⟩ => ⟨S_, .f32⟩
  | .hbm, ⟨36, _⟩ => ⟨S1024x64, .f32⟩
  | .hbm, ⟨37, _⟩ => ⟨S1024x64, .f32⟩
  | .hbm, ⟨38, _⟩ => ⟨S_, .f32⟩
  | .hbm, ⟨39, _⟩ => ⟨S1024x64, .f32⟩
  | .hbm, ⟨40, _⟩ => ⟨S1024x64, .f32⟩
  | .hbm, ⟨41, _⟩ => ⟨S_, .f32⟩
  | .hbm, ⟨42, _⟩ => ⟨S1024, .f32⟩
  | .hbm, ⟨43, _⟩ => ⟨S1024x1x64, .f32⟩
  | .hbm, ⟨44, _⟩ => ⟨S1x1024x64, .f32⟩
  | .hbm, ⟨45, _⟩ => ⟨S1024x1x64, .f32⟩
  | .hbm, ⟨46, _⟩ => ⟨S1x1024x64, .f32⟩
  | .hbm, ⟨47, _⟩ => ⟨S_, .f32⟩
  | .hbm, ⟨48, _⟩ => ⟨S1x1024x64, .f32⟩
  | .hbm, ⟨49, _⟩ => ⟨S1x1024x64, .f32⟩
  | .hbm, ⟨50, _⟩ => ⟨S1024x1024x64, .f32⟩
  | .hbm, ⟨51, _⟩ => ⟨S1024x1024x64, .f32⟩
  | .hbm, ⟨52, _⟩ => ⟨S1024x1024x64, .f32⟩
  | .hbm, ⟨53, _⟩ => ⟨S1024x1024x64, .f32⟩
  | .hbm, ⟨54, _⟩ => ⟨S1024x1024x64, .f32⟩
  | .hbm, ⟨55, _⟩ => ⟨S_, .f32⟩
  | .hbm, ⟨56, _⟩ => ⟨S1024x1024x64, .f32⟩
  | .hbm, ⟨57, _⟩ => ⟨S1024x1024x64, .f32⟩
  | .hbm, ⟨58, _⟩ => ⟨S_, .f32⟩
  | .hbm, ⟨59, _⟩ => ⟨S1024x1024x64, .f32⟩
  | .hbm, ⟨60, _⟩ => ⟨S1024x1024x64, .f32⟩
  | .hbm, ⟨61, _⟩ => ⟨S_, .f32⟩
  | .hbm, ⟨62, _⟩ => ⟨S1024x64, .f32⟩
  | .hbm, ⟨63, _⟩ => ⟨S1024x1x64, .f32⟩
  | .hbm, ⟨64, _⟩ => ⟨S1024x1024x64, .f32⟩
  | .hbm, ⟨65, _⟩ => ⟨S1024x1024x64, .f32⟩
  | .hbm, ⟨66, _⟩ => ⟨S1024x1024x64, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1024x1x64, .f32⟩
  | .hbm, ⟨71, _⟩ => ⟨S1024x1x64, .f32⟩
  | .hbm, ⟨72, _⟩ => ⟨S1024x64, .f32⟩
  | .hbm, ⟨73, _⟩ => ⟨S_, .f32⟩
  | .hbm, ⟨74, _⟩ => ⟨S1024x64, .f32⟩
  | .hbm, ⟨75, _⟩ => ⟨S1024x64, .f32⟩
  | .hbm, ⟨76, _⟩ => ⟨S_, .f32⟩
  | .hbm, ⟨77, _⟩ => ⟨S1024, .f32⟩
  | .hbm, ⟨78, _⟩ => ⟨S_, .f32⟩
  | .hbm, ⟨79, _⟩ => ⟨S1024x1024, .f32⟩
  | .hbm, ⟨80, _⟩ => ⟨S_, .f32⟩
  | .hbm, ⟨81, _⟩ => ⟨S1024, .f32⟩
  | .hbm, ⟨82, _⟩ => ⟨S1024x1, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S1024x1, .f32⟩
  | .hbm, ⟨90, _⟩ => ⟨S1024x1, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S1024, .f32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S1024, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_cst_9 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_19 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_20 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_21 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_22 : Ref sig .tc := ⟨.hbm, 105, rfl⟩
abbrev main_v77 : Ref sig .tc := ⟨.hbm, 106, rfl⟩
abbrev main_cst_23 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]

class Facts₀ : Prop where
  bcast_S_S1024x12288 : S_.BroadcastsInDim S1024x12288 (![] : Fin 0 → Fin S1024x12288.rank)
  reducesTo_S1024x12288_S1024_d1 : S1024x12288.ReducesTo [1] S1024
  h_S_ : 0 < S_.numel
  reducesTo_S1024_S_d0 : S1024.ReducesTo [0] S_
  bcast_S_S1024x64 : S_.BroadcastsInDim S1024x64 (![] : Fin 0 → Fin S1024x64.rank)
  reducesTo_S1024x64_S1024_d1 : S1024x64.ReducesTo [1] S1024
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S_S1x1024x64 : S_.BroadcastsInDim S1x1024x64 (![] : Fin 0 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  bcast_S_S1024x1024x64 : S_.BroadcastsInDim S1024x1024x64 (![] : Fin 0 → Fin S1024x1024x64.rank)
  reducesTo_S1024x1024x64_S1024x64_d1 : S1024x1024x64.ReducesTo [1] S1024x64
  reducesTo_S1024x1024x64_S_d0_1_2 : S1024x1024x64.ReducesTo [0, 1, 2] S_
  bcast_S_S1024x1x64 : S_.BroadcastsInDim S1024x1x64 (![] : Fin 0 → Fin S1024x1x64.rank)
  shapeCasts_S1024x1x64_S1024x64 : S1024x1x64.ShapeCasts S1024x64
  reducesTo_S1024x1024x64_S1024x1024_d2 : S1024x1024x64.ReducesTo [2] S1024x1024
  reducesTo_S1024x1024_S1024_d1 : S1024x1024.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S_d0_1 : S1024x1024.ReducesTo [0, 1] S_
  bcast_S_S1024x1 : S_.BroadcastsInDim S1024x1 (![] : Fin 0 → Fin S1024x1.rank)
  shapeCasts_S1024x1_S1024 : S1024x1.ShapeCasts S1024
  bcast_S_S1024 : S_.BroadcastsInDim S1024 (![] : Fin 0 → Fin S1024.rank)

variable [Facts₀]

class Facts : Prop extends Facts₀ where

variable [Facts]
-- ==== Proof.K.Pure.lean ====
/-
  The per-point arithmetic of the two pipelined kernels, as pure functions, and what their carried buffers hold
  after each grid point, by recursion on the point.

  Region 0 (grid 8 × 3, row block i, pixel block p): the output block of 128 row sums is zeroed at p = 0 and
  then has this block's lane sums added: after point t it holds  acc(t) = upd(x_t, y_t, acc(t-1))  with
  acc(-1) := 0 at the start of each row block.

  Region 1 (grid 8 × 8, query block i, key block j): four scratch buffers carry the running maxima and the
  rescaled running sums of the online log-sum-exp over j; at j = 0 they are reset to (-∞, 0, -∞, 0), every point
  applies one step, and at j = 7 the four outputs are copied out of them.
-/
import proofs.«153124_j71159018160768_1_alg».proof.Proof.Gen.Kernel.Skeleton
import proofs.«153124_j71159018160768_1_alg».proof.Proof.Gen.Kernel.Launch
import proofs.«153124_j71159018160768_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, decided over the grids -/

/-- Region 0's reset test (pixel block 0), from the grid coordinates. -/
abbrev cond0 (i : grid0.Coords) : Prop :=
  (Scalar.cmpi .ne (Scalar.extui (Scalar.cmpi .eq (BitVec.ofNat 32 (i 1).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)

/-- Region 1's reset test (key block 0). -/
abbrev cond1a (i : grid1.Coords) : Prop :=
  (Scalar.cmpi .ne (Scalar.extui (Scalar.cmpi .eq (BitVec.ofNat 32 (i 1).val) 0#32)) 0#32) = 1#1
theorem hcond1a : ∀ t : Fin cfg1.N, cond1a (grid1.coords t) ↔ t.val % 8 = 0 :=
  (by decide +kernel : ∀ t : Fin grid1.N, cond1a (grid1.coords t) ↔ t.val % 8 = 0)
/-- Region 1's copy-out test (key block 7, the last). -/
abbrev cond1b (i : grid1.Coords) : Prop := k1_cond2 i = 1#1
theorem hcond1b : ∀ t : Fin cfg1.N, cond1b (grid1.coords t) ↔ t.val % 8 = 7 :=
  (by decide +kernel : ∀ t : Fin grid1.N, cond1b (grid1.coords t) ↔ t.val % 8 = 7)

/-! ## Where region 1's output windows are idle -/

theorem live1_0 : ∀ t : Fin cfg1.N, cfg1.idle 0 (grid1.coords t) = false := by decide +kernel
theorem live1_1 : ∀ t : Fin cfg1.N, cfg1.idle 1 (grid1.coords t) = false := by decide +kernel
theorem idle1_out : ∀ (w : Fin cfg1.W), 2 ≤ w.val → ∀ t : Fin cfg1.N, ¬ t.val % 8 = 7 → cfg1.idle w (grid1.coords t) = true := by decide +kernel
theorem live1_out : ∀ (w : Fin cfg1.W), 2 ≤ w.val → ∀ t : Fin cfg1.N, t.val % 8 = 7 → cfg1.idle w (grid1.coords t) = false := by decide +kernel
theorem noflush1_out : ∀ (w : Fin cfg1.W), 2 ≤ w.val → ∀ t : Fin cfg1.N, ¬ t.val % 8 = 7 → (cfg1.win w).flush t = false := by decide +kernel
theorem live0 : ∀ (w : Fin cfg0.W) (t : Fin cfg0.N), cfg0.idle w (grid0.coords t) = false := by decide +kernel

/-! ## The staging memrefs at a point, as the pipeline passes them -/

abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)

abbrev ms1_0 (t : Fin cfg1.N) : Memref sig .tc .vmem S128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128 .f32 := win1_5.stage (cfg1.slots t 5)
abbrev hs1_5 (t : Fin cfg1.N) : (ms1_5 t).IsWhole := hstage1_5 ((cfg1.slots t 5).cast nbuf1_5)
/-- Region 1's four scratch operands: whole scoped buffers of the kernel's own. -/
abbrev sc1_0 : Memref sig .tc .vmem S128x64 .f32 := Memref.whole cc1_scratch0
abbrev sc1_1 : Memref sig .tc .vmem S128x64 .f32 := Memref.whole cc1_scratch1
abbrev sc1_2 : Memref sig .tc .vmem S128x1 .f32 := Memref.whole cc1_scratch2
abbrev sc1_3 : Memref sig .tc .vmem S128x1 .f32 := Memref.whole cc1_scratch3

/-! ## One point's arithmetic -/

/-- Region 0, one point: the accumulator `a` plus the lane sums of  t·log(x+ε) + (1-t)·log(1-x+ε)  over this block. -/
def upd0 (x y : Vec F S128x4096 .f32) (a : Vec F S128 .f32) : Vec F S128 .f32 := k0_pay2 x y a
/-- Region 0's accumulator at the start of a row block: zeros. -/
def zero0 : Vec F S128 .f32 := k0_pay1

/-- Region 1's carried state: running maxima and rescaled sums per (i, d), and per i. -/
structure St (F : FTy → Type) [FloatOps F] where
  m1 : Vec F S128x64 .f32
  t1 : Vec F S128x64 .f32
  m2 : Vec F S128x1 .f32
  t2 : Vec F S128x1 .f32

/-- The state a row of key blocks starts from: (-∞, 0, -∞, 0). -/
def init1 : St F := ⟨k1_pay9, k1_pay10, k1_pay11, k1_pay12⟩

/-- One online log-sum-exp step with query block `zm` and key block `zl`. -/
def step1 (zm zl : Vec F S128x64 .f32) (s : St F) : St F :=
  ⟨k1_pay2 (k1_pay14 zm zl s.m1),
   k1_pay1 (k1_pay15 zm zl s.m1 s.m1 s.t1) (k1_pay16 zm zl s.m1),
   k1_pay6 (k1_pay13 zm zl) s.m2,
   k1_pay5 (k1_pay13 zm zl) s.m2 s.m2 s.t2⟩

section Regions
variable (V : (c : Dev nD) → (b : Ref sig .tc) → Buf (Elt F) ((c : Thread nD τ).loc b))

/-! ## The windows' blocks, read off the arrays as a region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's input blocks at a point, at their literal type. -/
abbrev tg0 (c : Dev nD) (t : Fin cfg0.N) : Vec F S128x4096 .f32 := iblk0 V c 0 t
abbrev xm0 (c : Dev nD) (t : Fin cfg0.N) : Vec F S128x4096 .f32 := iblk0 V c 1 t
/-- Region 1's input blocks at a point, at their literal type. -/
abbrev zm1 (c : Dev nD) (t : Fin cfg1.N) : Vec F S128x64 .f32 := iblk1 V c 0 t
abbrev zl1 (c : Dev nD) (t : Fin cfg1.N) : Vec F S128x64 .f32 := iblk1 V c 1 t

/-! ## What the carried buffers hold after each point -/

/-- Region 0's output block after point `n`. -/
def acc0 (c : Dev nD) : (n : ℕ) → n < cfg0.N → Vec F S128 .f32
  | 0, hn => upd0 (tg0 V c ⟨0, hn⟩) (xm0 V c ⟨0, hn⟩) zero0
  | n + 1, hn =>
    if (n + 1) % 3 = 0 then upd0 (tg0 V c ⟨n + 1, hn⟩) (xm0 V c ⟨n + 1, hn⟩) zero0
    else upd0 (tg0 V c ⟨n + 1, hn⟩) (xm0 V c ⟨n + 1, hn⟩) (acc0 c n (Nat.lt_of_succ_lt hn))

theorem acc0_first (c : Dev nD) (t : Fin cfg0.N) (h : t.val % 3 = 0) :
    acc0 V c t.val t.isLt = upd0 (tg0 V c t) (xm0 V c t) zero0 := by
  obtain ⟨n, hn⟩ := t
  cases n with
  | zero => rfl
  | succ n => exact (if_pos h).trans rfl

theorem acc0_next (c : Dev nD) (t : Fin cfg0.N) (h : ¬ t.val % 3 = 0) :
    acc0 V c t.val t.isLt = upd0 (tg0 V c t) (xm0 V c t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- Region 1's scratch state after point `n`. -/
def st1 (c : Dev nD) : (n : ℕ) → n < cfg1.N → St F
  | 0, hn => step1 (zm1 V c ⟨0, hn⟩) (zl1 V c ⟨0, hn⟩) init1
  | n + 1, hn =>
    if (n + 1) % 8 = 0 then step1 (zm1 V c ⟨n + 1, hn⟩) (zl1 V c ⟨n + 1, hn⟩) init1
    else step1 (zm1 V c ⟨n + 1, hn⟩) (zl1 V c ⟨n + 1, hn⟩) (st1 c n (Nat.lt_of_succ_lt hn))

theorem st1_first (c : Dev nD) (t : Fin cfg1.N) (h : t.val % 8 = 0) :
    st1 V c t.val t.isLt = step1 (zm1 V c t) (zl1 V c t) init1 := by
  obtain ⟨n, hn⟩ := t
  cases n with
  | zero => rfl
  | succ n => exact (if_pos h).trans rfl

theorem st1_next (c : Dev nD) (t : Fin cfg1.N) (h : ¬ t.val % 8 = 0) :
    st1 V c t.val t.isLt = step1 (zm1 V c t) (zl1 V c t) (st1 V c (t.val - 1) (Nat.lt_of_le_of_lt (Nat.sub_le _ _) t.isLt)) := by
  obtain ⟨n, hn⟩ := t
  cases n with
  | zero => exact absurd (Nat.zero_mod _) h
  | succ n => exact (if_neg h).trans rfl

/-- What region 1 copies out at the last key block: the two per-(i, d) buffers as they are, the two per-i columns as vectors. -/
def out1_2 (s : St F) : Vec F S128x64 .f32 := s.m1
def out1_3 (s : St F) : Vec F S128x64 .f32 := s.t1
def out1_4 (s : St F) : Vec F S128 .f32 := k1_pay7 s.m2
def out1_5 (s : St F) : Vec F S128 .f32 := k1_pay8 s.t2

end Regions

end Cert.Kernel.Hand

end
-- ==== Proof.K.Body0.lean ====
/-
  Region 0's kernel body as a triple, in its two cases: at pixel block 0 the output block is zeroed first, so it
  ends at  upd0 x y 0  whatever it held; at a later pixel block it ends at  upd0 x y a  from the accumulator a
  the block before left. The input blocks are read and left as they were.
-/
import proofs.«153124_j71159018160768_1_alg».proof.Proof.K.Pure
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The one-axis offset the body's accesses use is the zero offset. -/
theorem hz1 : (![0] : Fin 1 → Nat) = fun _ => 0 := funext fun a => by fin_cases a; rfl
/-- The two-axis one likewise. -/
theorem hz2 : (![0, 0] : Fin 2 → Nat) = fun _ => 0 := funext fun a => by fin_cases a <;> rfl

/-- The whole-block rectangle of the output buffer, as the body's accesses spell it. -/
abbrev r128 : Rect S128 := Rect.unit (s := S128) ![0] S128.size inb_S128_S128_0

/-- A store through it covers the buffer, whatever was stored before. -/
theorem cover128 (p : Vec F S128 .f32) (L : List (View.Piece (Elt F) S128 .f32)) (y : S128.Idx) :
    ∃ pc ∈ ((⟨r128, p⟩ : View.Piece (Elt F) S128 .f32) :: L), y ∈ pc.1.set :=
  ⟨⟨r128, p⟩, List.mem_cons_self .., View.mem_set_unit_zero (S := S128) hz1 inb_S128_S128_0 y⟩

set_option maxHeartbeats 1000000 in
/-- Pixel block 0: reset, then accumulate. -/
theorem sound_k0_first (c : Dev nD) (E : Set ℕ) (i : grid0.Coords)
    (arg2 : Memref sig .tc .vmem S128x4096 .f32) (harg2 : arg2.IsWhole) (arg3 : Memref sig .tc .vmem S128x4096 .f32) (harg3 : arg3.IsWhole)
    (arg4 : Memref sig .tc .vmem S128 .f32) (harg4 : arg4.IsWhole) (hc : cond0 i)
    (x y : Vec F S128x4096 .f32) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y
            ∗ owns (c : Thread nD τ) arg4 fullShare (upd0 x y zero0)) -∗ K ⟨⟩))
      ⊢ wp frame (wpE (defs₀ (F := F)) Variants.none c none) E (cc0__log_px_kernel i arg2 harg2 arg3 harg3 arg4 harg4) K := by
  simp only [cc0__log_px_kernel_eq_skeleton]; unfold cc0__log_px_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  -- the buffer was stored twice through the whole-block rectangle: it reads as the later payload, whose
  -- accumulator operand was loaded after the first store and so is the zero block
  sl_unfold_words
  rw [View.read_writes_eq_canon _ _ _ (cover128 _ _)]
  rw [View.canon_cons_unit_zero (S := S128) hz1, View.readCov_unit_zero (S := S128) _ hz1]
  unfold upd0 zero0
  simp only [View.readAt_eq_ld, harg2.read_unread, harg3.read_unread, View.ld_unit_zero (S := S128x4096) hz2]

set_option maxHeartbeats 1000000 in
/-- A later pixel block: accumulate onto what the block before left. -/
theorem sound_k0_next (c : Dev nD) (E : Set ℕ) (i : grid0.Coords)
    (arg2 : Memref sig .tc .vmem S128x4096 .f32) (harg2 : arg2.IsWhole) (arg3 : Memref sig .tc .vmem S128x4096 .f32) (harg3 : arg3.IsWhole)
    (arg4 : Memref sig .tc .vmem S128 .f32) (harg4 : arg4.IsWhole) (hc : ¬ cond0 i)
    (x y : Vec F S128x4096 .f32) (a : Vec F S128 .f32) (K : PUnit → sProp 𝕄) :
    iprop(owns (c : Thread nD τ) arg2 fullShare x ∗ owns (c : Thread nD τ) arg3 fullShare y ∗ owns (c : Thread nD τ) arg4 fullShare a
        ∗ (iprop(owns (c : Thread nD τ) arg2 fullShare x ∗ owns (c : Thread nD τ) arg3 fullShare y
            ∗ owns (c : Thread nD τ) arg4 fullShare (upd0 x y a)) -∗ K ⟨⟩))
      ⊢ wp frame (wpE (defs₀ (F := F)) Variants.none c none) E (cc0__log_px_kernel i arg2 harg2 arg3 harg3 arg4 harg4) K := by
  simp only [cc0__log_px_kernel_eq_skeleton]; unfold cc0__log_px_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  -- one store through the whole-block rectangle: the buffer reads as its payload, whose loads read the contents
  sl_unfold_words
  rw [View.read_writes_eq_canon _ _ _ (cover128 _ _)]
  rw [View.canon_unit_zero (S := S128) hz1]
  unfold upd0
  simp only [View.readAt_eq_ld, harg2.read_unread, harg3.read_unread, harg4.read_unread,
    View.ld_unit_zero (S := S128x4096) hz2, View.ld_unit_zero (S := S128) hz1]

end Cert.Kernel.Hand

end
-- ==== Proof.K.Dat0.lean ====
/-
  Region 0's proof data: the arrays as the region finds them; after the body at point t the two input buffers hold
  their blocks and the output buffer the accumulated row sums  acc0 t ; the invariant between points is the plain
  one (no scratch is carried); nothing is owed. And the body obligation at every point, by the two cases of the
  kernel's triple: a point with pixel block 0 finds the output buffer fresh (first point, or just written back),
  a later one finds what the point before left.
-/
import proofs.«153124_j71159018160768_1_alg».proof.Proof.K.Body0
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## What the body finds in each current buffer -/

/-- An input's current buffer holds its block at every point: it is fetched there, or its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At pixel block 0 the output's current buffer is fresh: the first point, or the point before wrote it back. -/
theorem before0_2_first (c : Dev nD) (t : Fin cfg0.N) (h : t.val % 3 = 0) (d) : (dat0 V c).before 2 t d = d := by
  have hN : t.val < 24 := lt_of_lt_of_eq t.isLt (show cfg0.N = 24 from N_0)
  refine Dat.before_out_reset _ 2 rfl t ?_ d
  by_cases h0 : t.val = 0
  · exact .inl h0
  · exact .inr ⟨h0, (flush0_2 _).mpr (by dsimp only; omega)⟩

/-- At a later pixel block it holds what the point before left: not written back between, the window live and uncut. -/
theorem before0_2_next (c : Dev nD) (t : Fin cfg0.N) (h : ¬ t.val % 3 = 0) (d) :
    (dat0 V c).before 2 t d = acc0 V c (t.val - 1) (Nat.lt_of_le_of_lt (Nat.sub_le _ _) t.isLt) := by
  have hN : t.val < 24 := lt_of_lt_of_eq t.isLt (show cfg0.N = 24 from N_0)
  rw [Dat.before_out_kept _ 2 rfl t (by omega) (Bool.eq_false_iff.mpr fun h' => by have := (flush0_2 _).mp h'; dsimp only at this; omega)
    (fun _ => rfl) (fun _ _ => rfl)]
  dsimp only [dat0]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point's pixel block says which case of the
    kernel's triple applies and what the output's buffer holds; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 3 = 0
  · rw [acc0_first V c t h0]
    simp only [before0_2_first V c t h0]
    iintro ⟨HΦ, Ho, ⟨%d0, H0⟩, ⟨%d1, H1⟩, ⟨%d2, H2⟩⟩
    iapply (sound_k0_first c Set.univ (grid0.coords t) (ms0_0 t) (hs0_0 t) (ms0_1 t) (hs0_1 t) (ms0_2 t) (hs0_2 t)
      ((hcond0 t).mpr h0) (tg0 V c t) (xm0 V c t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_next V c t h0]
    simp only [before0_2_next V c t h0]
    iintro ⟨HΦ, Ho, ⟨%d0, H0⟩, ⟨%d1, H1⟩, ⟨%d2, H2⟩⟩
    iapply (sound_k0_next c Set.univ (grid0.coords t) (ms0_0 t) (hs0_0 t) (ms0_1 t) (hs0_1 t) (ms0_2 t) (hs0_2 t)
      (fun h => h0 ((hcond0 t).mp h)) (tg0 V c t) (xm0 V c t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation at every point of region 0. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Body1.lean ====
/-
  Region 1's kernel body as a triple, in its three cases over the key-block coordinate j:
  j = 0 resets the four scratch buffers to (-∞, 0, -∞, 0) and applies one online step;
  0 < j < 7 applies one step to what the block before left;
  j = 7 applies one step and copies the four scratch buffers out into the four output blocks.
  The input blocks are read and left as they were; at j < 7 the output blocks are not touched.

  Each case runs the body's loads and stores in order. Every access is of a whole buffer, so what a buffer
  holds after the run is the payload of the last store into it, and a load after a store reads that store's
  payload; with the loads read back, the four stored payloads are the four components of one online step.
-/
import proofs.«153124_j71159018160768_1_alg».proof.Proof.K.Pure
import Idealize.ShloMosaic.Lib.Pipeline.Value
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-2 and of a rank-1 whole-buffer access, as constant functions. -/
private theorem hz2 : (![0, 0] : Fin 2 → Nat) = fun _ => 0 := funext fun a => by fin_cases a <;> rfl
private theorem hz1 : (![0] : Fin 1 → Nat) = fun _ => 0 := funext fun a => by fin_cases a <;> rfl

/-- A list of stores whose last one (the head) is of the whole buffer covers every index. -/
private theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 4000000 in
/-- Key block 0: reset and step; the outputs untouched. -/
theorem sound_k1_first (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128 .f32) (harg6 : arg6.IsWhole) (arg7 : Memref sig .tc .vmem S128 .f32) (harg7 : arg7.IsWhole)
    (arg8 : Memref sig .tc .vmem S128x64 .f32) (harg8 : arg8.IsWhole) (arg9 : Memref sig .tc .vmem S128x64 .f32) (harg9 : arg9.IsWhole) (arg10 : Memref sig .tc .vmem S128x1 .f32) (harg10 : arg10.IsWhole) (arg11 : Memref sig .tc .vmem S128x1 .f32) (harg11 : arg11.IsWhole)
    (ha : cond1a i) (hb : ¬ cond1b i)
    (zm zl o2 o3 : Vec F S128x64 .f32) (o4 o5 : Vec F S128 .f32) (K : PUnit → sProp 𝕄) :
    iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
            ∗ owns (c : Thread nD τ) arg8 fullShare (step1 zm zl init1).m1 ∗ owns (c : Thread nD τ) arg9 fullShare (step1 zm zl init1).t1 ∗ owns (c : Thread nD τ) arg10 fullShare (step1 zm zl init1).m2 ∗ owns (c : Thread nD τ) arg11 fullShare (step1 zm zl init1).t2) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3
  sl_exec (disch := first | exact ha | exact hb)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H9]
  · iexists _; isplitr
    swap; · iexact H9
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H10]
  · iexists _; isplitr
    swap; · iexact H10
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  iexists _; isplitr
  swap; · iexact H11
  ipureintro
  sl_unfold_words
  rw [View.read_writes_eq_canon _ _ _ (cover_head hz2 _ _ _)]
  rw [View.canon_cons_unit_zero hz2]
  simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
  rfl

set_option maxHeartbeats 4000000 in
/-- A middle key block: step; the outputs untouched. -/
theorem sound_k1_mid (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128 .f32) (harg6 : arg6.IsWhole) (arg7 : Memref sig .tc .vmem S128 .f32) (harg7 : arg7.IsWhole)
    (arg8 : Memref sig .tc .vmem S128x64 .f32) (harg8 : arg8.IsWhole) (arg9 : Memref sig .tc .vmem S128x64 .f32) (harg9 : arg9.IsWhole) (arg10 : Memref sig .tc .vmem S128x1 .f32) (harg10 : arg10.IsWhole) (arg11 : Memref sig .tc .vmem S128x1 .f32) (harg11 : arg11.IsWhole)
    (ha : ¬ cond1a i) (hb : ¬ cond1b i)
    (zm zl o2 o3 : Vec F S128x64 .f32) (o4 o5 : Vec F S128 .f32) (s : St F) (K : PUnit → sProp 𝕄) :
    iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
        ∗ owns (c : Thread nD τ) arg8 fullShare s.m1 ∗ owns (c : Thread nD τ) arg9 fullShare s.t1 ∗ owns (c : Thread nD τ) arg10 fullShare s.m2 ∗ owns (c : Thread nD τ) arg11 fullShare s.t2
        ∗ (iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
            ∗ owns (c : Thread nD τ) arg8 fullShare (step1 zm zl s).m1 ∗ owns (c : Thread nD τ) arg9 fullShare (step1 zm zl s).t1 ∗ owns (c : Thread nD τ) arg10 fullShare (step1 zm zl s).m2 ∗ owns (c : Thread nD τ) arg11 fullShare (step1 zm zl s).t2) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3
  obtain rfl := harg8.eq_unread hf8; obtain rfl := harg9.eq_unread hf9
  obtain rfl := harg10.eq_unread hf10; obtain rfl := harg11.eq_unread hf11
  sl_exec (disch := first | exact ha | exact hb)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H9]
  · iexists _; isplitr
    swap; · iexact H9
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H10]
  · iexists _; isplitr
    swap; · iexact H10
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  iexists _; isplitr
  swap; · iexact H11
  ipureintro
  sl_unfold_words
  rw [View.read_writes_eq_canon _ _ _ (cover_head hz2 _ _ _)]
  rw [View.canon_cons_unit_zero hz2]
  simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
  rfl

set_option maxHeartbeats 4000000 in
/-- The last key block: step, then copy out. -/
theorem sound_k1_last (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128 .f32) (harg6 : arg6.IsWhole) (arg7 : Memref sig .tc .vmem S128 .f32) (harg7 : arg7.IsWhole)
    (arg8 : Memref sig .tc .vmem S128x64 .f32) (harg8 : arg8.IsWhole) (arg9 : Memref sig .tc .vmem S128x64 .f32) (harg9 : arg9.IsWhole) (arg10 : Memref sig .tc .vmem S128x1 .f32) (harg10 : arg10.IsWhole) (arg11 : Memref sig .tc .vmem S128x1 .f32) (harg11 : arg11.IsWhole)
    (ha : ¬ cond1a i) (hb : cond1b i)
    (zm zl : Vec F S128x64 .f32) (s : St F) (K : PUnit → sProp 𝕄) :
    iprop(owns (c : Thread nD τ) arg2 fullShare zm ∗ owns (c : Thread nD τ) arg3 fullShare zl ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s.m1 ∗ owns (c : Thread nD τ) arg9 fullShare s.t1 ∗ owns (c : Thread nD τ) arg10 fullShare s.m2 ∗ owns (c : Thread nD τ) arg11 fullShare s.t2
        ∗ (iprop(owns (c : Thread nD τ) arg2 fullShare zm ∗ owns (c : Thread nD τ) arg3 fullShare zl
            ∗ owns (c : Thread nD τ) arg4 fullShare (out1_2 (step1 zm zl s)) ∗ owns (c : Thread nD τ) arg5 fullShare (out1_3 (step1 zm zl s)) ∗ owns (c : Thread nD τ) arg6 fullShare (out1_4 (step1 zm zl s)) ∗ owns (c : Thread nD τ) arg7 fullShare (out1_5 (step1 zm zl s))
            ∗ owns (c : Thread nD τ) arg8 fullShare (step1 zm zl s).m1 ∗ owns (c : Thread nD τ) arg9 fullShare (step1 zm zl s).t1 ∗ owns (c : Thread nD τ) arg10 fullShare (step1 zm zl s).m2 ∗ owns (c : Thread nD τ) arg11 fullShare (step1 zm zl s).t2) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3
  obtain rfl := harg8.eq_unread hf8; obtain rfl := harg9.eq_unread hf9
  obtain rfl := harg10.eq_unread hf10; obtain rfl := harg11.eq_unread hf11
  sl_exec (disch := first | exact ha | exact hb)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H5]
  · iexists _; isplitr
    swap; · iexact H5
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H6]
  · iexists _; isplitr
    swap; · iexact H6
    ipureintro
    sl_unfold_words
    rw [View.read_writes_eq_canon _ _ _ (cover_head hz1 _ _ _)]
    rw [View.canon_cons_unit_zero hz1]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H7]
  · iexists _; isplitr
    swap; · iexact H7
    ipureintro
    sl_unfold_words
    rw [View.read_writes_eq_canon _ _ _ (cover_head hz1 _ _ _)]
    rw [View.canon_cons_unit_zero hz1]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H8]
  · iexists _; isplitr
    swap; · iexact H8
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H9]
  · iexists _; isplitr
    swap; · iexact H9
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H10]
  · iexists _; isplitr
    swap; · iexact H10
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  iexists _; isplitr
  swap; · iexact H11
  ipureintro
  sl_unfold_words
  rw [View.read_writes_eq_canon _ _ _ (cover_head hz2 _ _ _)]
  rw [View.canon_cons_unit_zero hz2]
  simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
  rfl

end Cert.Kernel.Hand

end
-- ==== Proof.K.Dat1.lean ====
/-
  Region 1's proof data. The four scratch buffers are carried from one key block to the next within a query block,
  so the invariant between points names them: before a point with key block 0 (and after the last point) every
  scoped buffer is at anything; before any other point the four scratch buffers hold the state  st1 (t-1)  the
  point before left. After the body the two input buffers hold their blocks; the four output buffers are written
  only at key block 7, from the state  st1 t , and are idle (handed back as found) elsewhere.
-/
import proofs.«153124_j71159018160768_1_alg».proof.Proof.K.Body1
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The plain invariant with the scoped buffers listed: region 0's six staging buffers and the four scratch buffers, each
    at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) sc1_0 fullShare d) ∗ (∃ d, owns (c : Thread nD τ) sc1_1 fullShare d)
          ∗ (∃ d, owns (c : Thread nD τ) sc1_2 fullShare d) ∗ (∃ d, owns (c : Thread nD τ) sc1_3 fullShare d)) ∗ (∃ r, prngReg c r)) := by
  unfold Pipeline.ΦA; rw [scopedRest1_eq]; simp only [sc1_0, sc1_1, sc1_2, sc1_3, owns_whole]; try rfl

/-- The invariant before position `n`. -/
def Phi1 (c : Dev nD) : (n : ℕ) → n ≤ cfg1.N → sProp 𝕄
  | 0, _ => Pipeline.ΦA spec1 c
  | n + 1, hn =>
    if (n + 1) % 8 = 0 then Pipeline.ΦA spec1 c
    else iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) sc1_0 fullShare (st1 V c n hn).m1 ∗ owns (c : Thread nD τ) sc1_1 fullShare (st1 V c n hn).t1
          ∗ owns (c : Thread nD τ) sc1_2 fullShare (st1 V c n hn).m2 ∗ owns (c : Thread nD τ) sc1_3 fullShare (st1 V c n hn).t2) ∗ (∃ r, prngReg c r))

/-- Before a point with key block 0, and after the last point: the plain invariant. -/
theorem Phi1_res (c : Dev nD) (n : ℕ) (h : n ≤ cfg1.N) (hz : n % 8 = 0) : Phi1 V c n h = Pipeline.ΦA spec1 c := by
  cases n with
  | zero => rfl
  | succ n => exact if_pos hz

/-- Before a point with a later key block: the scratch buffers at what the point before left. -/
theorem Phi1_pos (c : Dev nD) (n : ℕ) (h : n ≤ cfg1.N) (hz : ¬ n % 8 = 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) sc1_0 fullShare (st1 V c (n - 1) (by omega)).m1 ∗ owns (c : Thread nD τ) sc1_1 fullShare (st1 V c (n - 1) (by omega)).t1
          ∗ owns (c : Thread nD τ) sc1_2 fullShare (st1 V c (n - 1) (by omega)).m2 ∗ owns (c : Thread nD τ) sc1_3 fullShare (st1 V c (n - 1) (by omega)).t2) ∗ (∃ r, prngReg c r)) := by
  cases n with
  | zero => exact absurd (Nat.zero_mod _) hz
  | succ n => exact if_neg hz

/-- After a point that is not at the last key block: the scratch buffers at what it left. -/
theorem Phi1_succ (c : Dev nD) (n : ℕ) (hn : n < cfg1.N) (hz : ¬ (n + 1) % 8 = 0) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) sc1_0 fullShare (st1 V c n hn).m1 ∗ owns (c : Thread nD τ) sc1_1 fullShare (st1 V c n hn).t1
          ∗ owns (c : Thread nD τ) sc1_2 fullShare (st1 V c n hn).m2 ∗ owns (c : Thread nD τ) sc1_3 fullShare (st1 V c n hn).t2) ∗ (∃ r, prngReg c r)) :=
  if_neg hz

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (st1 V c t.val t.isLt)
    | ⟨3, _⟩ => out1_3 (st1 V c t.val t.isLt)
    | ⟨4, _⟩ => out1_4 (st1 V c t.val t.isLt)
    | ⟨5, _⟩ => out1_5 (st1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (st1 V c t.val t.isLt) := by dsimp only [dat1]
theorem after1_3 (c : Dev nD) (t : Fin cfg1.N) : (dat1 V c).after 3 t = out1_3 (st1 V c t.val t.isLt) := by dsimp only [dat1]
theorem after1_4 (c : Dev nD) (t : Fin cfg1.N) : (dat1 V c).after 4 t = out1_4 (st1 V c t.val t.isLt) := by dsimp only [dat1]
theorem after1_5 (c : Dev nD) (t : Fin cfg1.N) : (dat1 V c).after 5 t = out1_5 (st1 V c t.val t.isLt) := by dsimp only [dat1]

/-- Before the first point the invariant is the plain one. -/
theorem Phi1_first (c : Dev nD) : (dat1 V c).Φ 0 = Pipeline.ΦA spec1 c := rfl
/-- After the last point (64 ≡ 0 mod 8) likewise. -/
theorem Phi1_last (c : Dev nD) : (dat1 V c).Φ (Fin.last cfg1.N) = Pipeline.ΦA spec1 c := by
  rw [show (dat1 V c).Φ (Fin.last cfg1.N) = Phi1 V c (Fin.last cfg1.N).val (Nat.le_of_lt_succ (Fin.last cfg1.N).isLt) from rfl]
  exact Phi1_res V c _ _ (by rw [Fin.val_last, show cfg1.N = 64 from N_1])

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point, by the key block: at key block 0 the invariant hands the scratch buffers at anything and takes
    them back at the first step's state; at a later key block it hands them at what the point before left and takes them
    back one step on; at the last key block the outputs leave at the copies of that state and the scratch contents are
    forgotten. The inputs' buffers hold their blocks throughout; an idle output is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_castSucc V c t]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h7 : ¬ t.val % 8 = 7 := by omega
    rw [Dat.leavesExact_idle (dat1 V c) 2 t (idle1_out 2 (by decide) t h7) (noflush1_out 2 (by decide) t h7),
      Dat.leavesExact_idle (dat1 V c) 3 t (idle1_out 3 (by decide) t h7) (noflush1_out 3 (by decide) t h7),
      Dat.leavesExact_idle (dat1 V c) 4 t (idle1_out 4 (by decide) t h7) (noflush1_out 4 (by decide) t h7),
      Dat.leavesExact_idle (dat1 V c) 5 t (idle1_out 5 (by decide) t h7) (noflush1_out 5 (by decide) t h7)]
    rw [Phi1_res V c _ _ h0, PhiA1_eq, Phi1_succ V c _ _ (by omega), st1_first V c t h0]
    iintro ⟨⟨⟨G0, G1, G2, G3, G4, G5, S0, S1, S2, S3⟩, Hg⟩, Ho, ⟨%d0, H0⟩, ⟨%d1, H1⟩, ⟨%d2, H2⟩, ⟨%d3, H3⟩, ⟨%d4, H4⟩, ⟨%d5, H5⟩⟩
    iapply (sound_k1_first c Set.univ (grid1.coords t) _ _ _ _ _ _ _ _ _ _ _ _ _ _ _ _ _ _ _ _ ((hcond1a t).mpr h0) (fun h => h7 ((hcond1b t).mp h)) (zm1 V c t) (zl1 V c t) _ _ _ _ _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iintro ⟨H0, H1, H2, H3, H4, H5, S0, S1, S2, S3⟩
    isplitl [G0 G1 G2 G3 G4 G5 S0 S1 S2 S3 Hg]
    · isplitr [Hg]
      swap; · iexact Hg
      isplitl [G0]; · iexact G0
      isplitl [G1]; · iexact G1
      isplitl [G2]; · iexact G2
      isplitl [G3]; · iexact G3
      isplitl [G4]; · iexact G4
      isplitl [G5]; · iexact G5
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexists _; iexact H2
    isplitl [H3]; · iexists _; iexact H3
    isplitl [H4]; · iexists _; iexact H4
    iexists _; iexact H5
  · by_cases h7 : t.val % 8 = 7
    · rw [show (dat1 V c).leavesExact 2 t = owns (c : Thread nD τ) (ms1_2 t) fullShare ((dat1 V c).after 2 t) from by
        unfold Dat.leavesExact; rw [live1_out 2 (by decide) t h7], after1_2]
      rw [show (dat1 V c).leavesExact 3 t = owns (c : Thread nD τ) (ms1_3 t) fullShare ((dat1 V c).after 3 t) from by
        unfold Dat.leavesExact; rw [live1_out 3 (by decide) t h7], after1_3]
      rw [show (dat1 V c).leavesExact 4 t = owns (c : Thread nD τ) (ms1_4 t) fullShare ((dat1 V c).after 4 t) from by
        unfold Dat.leavesExact; rw [live1_out 4 (by decide) t h7], after1_4]
      rw [show (dat1 V c).leavesExact 5 t = owns (c : Thread nD τ) (ms1_5 t) fullShare ((dat1 V c).after 5 t) from by
        unfold Dat.leavesExact; rw [live1_out 5 (by decide) t h7], after1_5]
      rw [Phi1_pos V c _ _ h0, Phi1_res V c (t.val + 1) _ (by omega), PhiA1_eq, st1_next V c t h0]
      iintro ⟨⟨⟨G0, G1, G2, G3, G4, G5, S0, S1, S2, S3⟩, Hg⟩, Ho, ⟨%d0, H0⟩, ⟨%d1, H1⟩, ⟨%d2, H2⟩, ⟨%d3, H3⟩, ⟨%d4, H4⟩, ⟨%d5, H5⟩⟩
      iapply (sound_k1_last c Set.univ (grid1.coords t) _ _ _ _ _ _ _ _ _ _ _ _ _ _ _ _ _ _ _ _ (fun h => h0 ((hcond1a t).mp h)) ((hcond1b t).mpr h7) (zm1 V c t) (zl1 V c t) _ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [S0]; · iexact S0
      isplitl [S1]; · iexact S1
      isplitl [S2]; · iexact S2
      isplitl [S3]; · iexact S3
      iintro ⟨H0, H1, H2, H3, H4, H5, S0, S1, S2, S3⟩
      isplitl [G0 G1 G2 G3 G4 G5 S0 S1 S2 S3 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [S0]; · iexists _; iexact S0
        isplitl [S1]; · iexists _; iexact S1
        isplitl [S2]; · iexists _; iexact S2
        iexists _; iexact S3
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 2 t (idle1_out 2 (by decide) t h7) (noflush1_out 2 (by decide) t h7),
        Dat.leavesExact_idle (dat1 V c) 3 t (idle1_out 3 (by decide) t h7) (noflush1_out 3 (by decide) t h7),
        Dat.leavesExact_idle (dat1 V c) 4 t (idle1_out 4 (by decide) t h7) (noflush1_out 4 (by decide) t h7),
        Dat.leavesExact_idle (dat1 V c) 5 t (idle1_out 5 (by decide) t h7) (noflush1_out 5 (by decide) t h7)]
      rw [Phi1_pos V c _ _ h0, Phi1_succ V c _ _ (by omega), st1_next V c t h0]
      iintro ⟨⟨⟨G0, G1, G2, G3, G4, G5, S0, S1, S2, S3⟩, Hg⟩, Ho, ⟨%d0, H0⟩, ⟨%d1, H1⟩, ⟨%d2, H2⟩, ⟨%d3, H3⟩, ⟨%d4, H4⟩, ⟨%d5, H5⟩⟩
      iapply (sound_k1_mid c Set.univ (grid1.coords t) _ _ _ _ _ _ _ _ _ _ _ _ _ _ _ _ _ _ _ _ (fun h => h0 ((hcond1a t).mp h)) (fun h => h7 ((hcond1b t).mp h)) (zm1 V c t) (zl1 V c t) _ _ _ _ _ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [G0 G1 G2 G3 G4 G5 S0 S1 S2 S3 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The body obligation at every point of region 1. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The run of @main: region 0, nineteen host operations, region 1, thirty-four host operations. Between items core c
  holds every unscoped buffer at a valuation folded through @main — W0 the launch memory; W1 with region 0's
  arrays at what its pipeline leaves; W2 after the first host stretch; W3 with region 1's arrays at what its
  pipeline leaves; W4 after the second host stretch — beside the generator register and the core owing nothing.
  Every weakly fair execution terminates with every unscoped buffer at W4; the arguments are never written, so
  W4 at an argument walks back to the launch memory.
-/
import proofs.«153124_j71159018160768_1_alg».proof.Proof.K.Dat0
import proofs.«153124_j71159018160768_1_alg».proof.Proof.K.Dat1
import proofs.«153124_j71159018160768_1_alg».proof.Proof.Gen.Kernel.Regions
import Idealize.ShloMosaic.Lib.Pipeline.RegionsLoop
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references: what region 0's proof data take. -/
abbrev Ve0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx0 : (c : Dev nD) → (b : Ref sig .tc) → Buf (Elt F) ((c : Thread nD τ).loc b) := fun c b => W1 m c b
theorem hF0 (c : Dev nD) (w : Fin cfg0.W) : (dat0 (Ve0 m) c).arrAt w cfg0.N = Vx0 m c (Pipeline.arrRef spec0 w) :=
  (W1_arr m c w).symm
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)

/-- After the first host stretch: region 1's entry. -/
abbrev W2 : Dev nD → Valuation τ sig (Elt F) := fun c => StableHlo.after hostOps1 (W1 m c)
abbrev Ve1 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (Ve1 m) c).arrAt w cfg1.N
theorem W3_arr (c : Dev nD) (w : Fin cfg1.W) :
    W3 m c (Proc.devRef .tc (Pipeline.arrRef spec1 w)) = (dat1 (Ve1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vx1 : (c : Dev nD) → (b : Ref sig .tc) → Buf (Elt F) ((c : Thread nD τ).loc b) := fun c b => W3 m c b
theorem hF1 (c : Dev nD) (w : Fin cfg1.W) : (dat1 (Ve1 m) c).arrAt w cfg1.N = Vx1 m c (Pipeline.arrRef spec1 w) :=
  (W3_arr m c w).symm
theorem hrest1 (c : Dev nD) : ∀ b, b ∉ Finset.univ.image (Pipeline.arrRef spec1) → Vx1 m c b = Ve1 m c b :=
  fun b hb => W3_of_ne m c b fun w e => hb (Finset.mem_image.mpr ⟨w, Finset.mem_univ _, e⟩)
/-- After the second host stretch: the end. -/
abbrev W4 : Dev nD → Valuation τ sig (Elt F) := fun c => StableHlo.after hostOps2 (W3 m c)

/-! ## No item writes an argument -/

/-- Region 0 stages two arguments as input windows: an input's array ends as entered. -/
theorem W1_arg0 (c : Dev nD) : W1 m c (Proc.devRef .tc main_arg0) = W0 m c (Proc.devRef .tc main_arg0) :=
  (W1_arr m c 0).trans (((dat0 (Ve0 m) c).arrAt_in 0 rfl _).trans (A_eq0 (Ve0 m) c 0))
theorem W1_arg1 (c : Dev nD) : W1 m c (Proc.devRef .tc main_arg1) = W0 m c (Proc.devRef .tc main_arg1) :=
  (W1_arr m c 1).trans (((dat0 (Ve0 m) c).arrAt_in 1 rfl _).trans (A_eq0 (Ve0 m) c 1))
theorem W1_arg2 (c : Dev nD) : W1 m c (Proc.devRef .tc main_arg2) = W0 m c (Proc.devRef .tc main_arg2) :=
  W1_of_ne m c main_arg2 (by decide)
theorem W1_arg3 (c : Dev nD) : W1 m c (Proc.devRef .tc main_arg3) = W0 m c (Proc.devRef .tc main_arg3) :=
  W1_of_ne m c main_arg3 (by decide)
theorem W1_arg4 (c : Dev nD) : W1 m c (Proc.devRef .tc main_arg4) = W0 m c (Proc.devRef .tc main_arg4) :=
  W1_of_ne m c main_arg4 (by decide)
/-- Region 1 stages two arguments as input windows. -/
theorem W3_arg3 (c : Dev nD) : W3 m c (Proc.devRef .tc main_arg3) = W2 m c (Proc.devRef .tc main_arg3) :=
  (W3_arr m c 0).trans (((dat1 (Ve1 m) c).arrAt_in 0 rfl _).trans (A_eq1 (Ve1 m) c 0))
theorem W3_arg4 (c : Dev nD) : W3 m c (Proc.devRef .tc main_arg4) = W2 m c (Proc.devRef .tc main_arg4) :=
  (W3_arr m c 1).trans (((dat1 (Ve1 m) c).arrAt_in 1 rfl _).trans (A_eq1 (Ve1 m) c 1))

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_arg0 m c
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_arg1 m c
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_arg2 m c
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_arg3 m c
    _ = W1 m c (Proc.devRef .tc main_arg3) := StableHlo.after_of_writes_sub hostOps1 _ hostOps1_writes (by decide)
    _ = W0 m c (Proc.devRef .tc main_arg3) := W1_arg3 m c
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_arg4 m c
    _ = W1 m c (Proc.devRef .tc main_arg4) := StableHlo.after_of_writes_sub hostOps1 _ hostOps1_writes (by decide)
    _ = W0 m c (Proc.devRef .tc main_arg4) := W1_arg4 m c
    _ = m ((c : Thread nD τ).loc main_arg4) := rfl

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at W0, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its invariant before the first
    point and after the last is the plain one (the scratch buffers at anything). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (Ve1 m) c).Φ (Fin.last cfg1.N) from rfl, Phi1_last]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer of every core at the valuation W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Hand

end
-- ==== Proof.KI.Pure.lean ====
/-
  The per-point arithmetic of the two pipelined kernels, as pure functions, and what their carried buffers hold
  after each grid point, by recursion on the point.

  Region 0 (grid 8 × 3, row block i, pixel block p): the output block of 128 row sums is zeroed at p = 0 and
  then has this block's lane sums added: after point t it holds  acc(t) = upd(x_t, y_t, acc(t-1))  with
  acc(-1) := 0 at the start of each row block.

  Region 1 (grid 8 × 8, query block i, key block j): four scratch buffers carry the running maxima and the
  rescaled running sums of the online log-sum-exp over j; at j = 0 they are reset to (-∞, 0, -∞, 0), every point
  applies one step, and at j = 7 the four outputs are copied out of them.
-/
import proofs.«153124_j71159018160768_1_alg».proof.Proof.Gen.KernelIdeal.Skeleton
import proofs.«153124_j71159018160768_1_alg».proof.Proof.Gen.KernelIdeal.Launch
import proofs.«153124_j71159018160768_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, decided over the grids -/

/-- Region 0's reset test (pixel block 0), from the grid coordinates. -/
abbrev cond0 (i : grid0.Coords) : Prop :=
  (Scalar.cmpi .ne (Scalar.extui (Scalar.cmpi .eq (BitVec.ofNat 32 (i 1).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)

/-- Region 1's reset test (key block 0). -/
abbrev cond1a (i : grid1.Coords) : Prop :=
  (Scalar.cmpi .ne (Scalar.extui (Scalar.cmpi .eq (BitVec.ofNat 32 (i 1).val) 0#32)) 0#32) = 1#1
theorem hcond1a : ∀ t : Fin cfg1.N, cond1a (grid1.coords t) ↔ t.val % 8 = 0 :=
  (by decide +kernel : ∀ t : Fin grid1.N, cond1a (grid1.coords t) ↔ t.val % 8 = 0)
/-- Region 1's copy-out test (key block 7, the last). -/
abbrev cond1b (i : grid1.Coords) : Prop := k1_cond2 i = 1#1
theorem hcond1b : ∀ t : Fin cfg1.N, cond1b (grid1.coords t) ↔ t.val % 8 = 7 :=
  (by decide +kernel : ∀ t : Fin grid1.N, cond1b (grid1.coords t) ↔ t.val % 8 = 7)

/-! ## Where region 1's output windows are idle -/

theorem live1_0 : ∀ t : Fin cfg1.N, cfg1.idle 0 (grid1.coords t) = false := by decide +kernel
theorem live1_1 : ∀ t : Fin cfg1.N, cfg1.idle 1 (grid1.coords t) = false := by decide +kernel
theorem idle1_out : ∀ (w : Fin cfg1.W), 2 ≤ w.val → ∀ t : Fin cfg1.N, ¬ t.val % 8 = 7 → cfg1.idle w (grid1.coords t) = true := by decide +kernel
theorem live1_out : ∀ (w : Fin cfg1.W), 2 ≤ w.val → ∀ t : Fin cfg1.N, t.val % 8 = 7 → cfg1.idle w (grid1.coords t) = false := by decide +kernel
theorem noflush1_out : ∀ (w : Fin cfg1.W), 2 ≤ w.val → ∀ t : Fin cfg1.N, ¬ t.val % 8 = 7 → (cfg1.win w).flush t = false := by decide +kernel
theorem live0 : ∀ (w : Fin cfg0.W) (t : Fin cfg0.N), cfg0.idle w (grid0.coords t) = false := by decide +kernel

/-! ## The staging memrefs at a point, as the pipeline passes them -/

abbrev ms0_0 (t : Fin cfg0.N) : Memref sig .tc .vmem S128x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)

abbrev ms1_0 (t : Fin cfg1.N) : Memref sig .tc .vmem S128x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128 .f32 := win1_5.stage (cfg1.slots t 5)
abbrev hs1_5 (t : Fin cfg1.N) : (ms1_5 t).IsWhole := hstage1_5 ((cfg1.slots t 5).cast nbuf1_5)
/-- Region 1's four scratch operands: whole scoped buffers of the kernel's own. -/
abbrev sc1_0 : Memref sig .tc .vmem S128x64 .f32 := Memref.whole cc1_scratch0
abbrev sc1_1 : Memref sig .tc .vmem S128x64 .f32 := Memref.whole cc1_scratch1
abbrev sc1_2 : Memref sig .tc .vmem S128x1 .f32 := Memref.whole cc1_scratch2
abbrev sc1_3 : Memref sig .tc .vmem S128x1 .f32 := Memref.whole cc1_scratch3

/-! ## One point's arithmetic -/

/-- Region 0, one point: the accumulator `a` plus the lane sums of  t·log(x+ε) + (1-t)·log(1-x+ε)  over this block. -/
def upd0 (x y : Vec F S128x4096 .f32) (a : Vec F S128 .f32) : Vec F S128 .f32 := k0_pay2 x y a
/-- Region 0's accumulator at the start of a row block: zeros. -/
def zero0 : Vec F S128 .f32 := k0_pay1

/-- Region 1's carried state: running maxima and rescaled sums per (i, d), and per i. -/
structure St (F : FTy → Type) [FloatOps F] where
  m1 : Vec F S128x64 .f32
  t1 : Vec F S128x64 .f32
  m2 : Vec F S128x1 .f32
  t2 : Vec F S128x1 .f32

/-- The state a row of key blocks starts from: (-∞, 0, -∞, 0). -/
def init1 : St F := ⟨k1_pay9, k1_pay10, k1_pay11, k1_pay12⟩

/-- One online log-sum-exp step with query block `zm` and key block `zl`. -/
def step1 (zm zl : Vec F S128x64 .f32) (s : St F) : St F :=
  ⟨k1_pay2 (k1_pay14 zm zl s.m1),
   k1_pay1 (k1_pay15 zm zl s.m1 s.m1 s.t1) (k1_pay16 zm zl s.m1),
   k1_pay6 (k1_pay13 zm zl) s.m2,
   k1_pay5 (k1_pay13 zm zl) s.m2 s.m2 s.t2⟩

section Regions
variable (V : (c : Dev nD) → (b : Ref sig .tc) → Buf (Elt F) ((c : Thread nD τ).loc b))

/-! ## The windows' blocks, read off the arrays as a region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 0's input blocks at a point, at their literal type. -/
abbrev tg0 (c : Dev nD) (t : Fin cfg0.N) : Vec F S128x4096 .f32 := iblk0 V c 0 t
abbrev xm0 (c : Dev nD) (t : Fin cfg0.N) : Vec F S128x4096 .f32 := iblk0 V c 1 t
/-- Region 1's input blocks at a point, at their literal type. -/
abbrev zm1 (c : Dev nD) (t : Fin cfg1.N) : Vec F S128x64 .f32 := iblk1 V c 0 t
abbrev zl1 (c : Dev nD) (t : Fin cfg1.N) : Vec F S128x64 .f32 := iblk1 V c 1 t

/-! ## What the carried buffers hold after each point -/

/-- Region 0's output block after point `n`. -/
def acc0 (c : Dev nD) : (n : ℕ) → n < cfg0.N → Vec F S128 .f32
  | 0, hn => upd0 (tg0 V c ⟨0, hn⟩) (xm0 V c ⟨0, hn⟩) zero0
  | n + 1, hn =>
    if (n + 1) % 3 = 0 then upd0 (tg0 V c ⟨n + 1, hn⟩) (xm0 V c ⟨n + 1, hn⟩) zero0
    else upd0 (tg0 V c ⟨n + 1, hn⟩) (xm0 V c ⟨n + 1, hn⟩) (acc0 c n (Nat.lt_of_succ_lt hn))

theorem acc0_first (c : Dev nD) (t : Fin cfg0.N) (h : t.val % 3 = 0) :
    acc0 V c t.val t.isLt = upd0 (tg0 V c t) (xm0 V c t) zero0 := by
  obtain ⟨n, hn⟩ := t
  cases n with
  | zero => rfl
  | succ n => exact (if_pos h).trans rfl

theorem acc0_next (c : Dev nD) (t : Fin cfg0.N) (h : ¬ t.val % 3 = 0) :
    acc0 V c t.val t.isLt = upd0 (tg0 V c t) (xm0 V c t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-- Region 1's scratch state after point `n`. -/
def st1 (c : Dev nD) : (n : ℕ) → n < cfg1.N → St F
  | 0, hn => step1 (zm1 V c ⟨0, hn⟩) (zl1 V c ⟨0, hn⟩) init1
  | n + 1, hn =>
    if (n + 1) % 8 = 0 then step1 (zm1 V c ⟨n + 1, hn⟩) (zl1 V c ⟨n + 1, hn⟩) init1
    else step1 (zm1 V c ⟨n + 1, hn⟩) (zl1 V c ⟨n + 1, hn⟩) (st1 c n (Nat.lt_of_succ_lt hn))

theorem st1_first (c : Dev nD) (t : Fin cfg1.N) (h : t.val % 8 = 0) :
    st1 V c t.val t.isLt = step1 (zm1 V c t) (zl1 V c t) init1 := by
  obtain ⟨n, hn⟩ := t
  cases n with
  | zero => rfl
  | succ n => exact (if_pos h).trans rfl

theorem st1_next (c : Dev nD) (t : Fin cfg1.N) (h : ¬ t.val % 8 = 0) :
    st1 V c t.val t.isLt = step1 (zm1 V c t) (zl1 V c t) (st1 V c (t.val - 1) (Nat.lt_of_le_of_lt (Nat.sub_le _ _) t.isLt)) := by
  obtain ⟨n, hn⟩ := t
  cases n with
  | zero => exact absurd (Nat.zero_mod _) h
  | succ n => exact (if_neg h).trans rfl

/-- What region 1 copies out at the last key block: the two per-(i, d) buffers as they are, the two per-i columns as vectors. -/
def out1_2 (s : St F) : Vec F S128x64 .f32 := s.m1
def out1_3 (s : St F) : Vec F S128x64 .f32 := s.t1
def out1_4 (s : St F) : Vec F S128 .f32 := k1_pay7 s.m2
def out1_5 (s : St F) : Vec F S128 .f32 := k1_pay8 s.t2

end Regions

end Cert.KernelIdeal.Hand

end
-- ==== Proof.KI.Body0.lean ====
/-
  Region 0's kernel body as a triple, in its two cases: at pixel block 0 the output block is zeroed first, so it
  ends at  upd0 x y 0  whatever it held; at a later pixel block it ends at  upd0 x y a  from the accumulator a
  the block before left. The input blocks are read and left as they were.
-/
import proofs.«153124_j71159018160768_1_alg».proof.Proof.KI.Pure
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The one-axis offset the body's accesses use is the zero offset. -/
theorem hz1 : (![0] : Fin 1 → Nat) = fun _ => 0 := funext fun a => by fin_cases a; rfl
/-- The two-axis one likewise. -/
theorem hz2 : (![0, 0] : Fin 2 → Nat) = fun _ => 0 := funext fun a => by fin_cases a <;> rfl

/-- The whole-block rectangle of the output buffer, as the body's accesses spell it. -/
abbrev r128 : Rect S128 := Rect.unit (s := S128) ![0] S128.size inb_S128_S128_0

/-- A store through it covers the buffer, whatever was stored before. -/
theorem cover128 (p : Vec F S128 .f32) (L : List (View.Piece (Elt F) S128 .f32)) (y : S128.Idx) :
    ∃ pc ∈ ((⟨r128, p⟩ : View.Piece (Elt F) S128 .f32) :: L), y ∈ pc.1.set :=
  ⟨⟨r128, p⟩, List.mem_cons_self .., View.mem_set_unit_zero (S := S128) hz1 inb_S128_S128_0 y⟩

set_option maxHeartbeats 1000000 in
/-- Pixel block 0: reset, then accumulate. -/
theorem sound_k0_first (c : Dev nD) (E : Set ℕ) (i : grid0.Coords)
    (arg2 : Memref sig .tc .vmem S128x4096 .f32) (harg2 : arg2.IsWhole) (arg3 : Memref sig .tc .vmem S128x4096 .f32) (harg3 : arg3.IsWhole)
    (arg4 : Memref sig .tc .vmem S128 .f32) (harg4 : arg4.IsWhole) (hc : cond0 i)
    (x y : Vec F S128x4096 .f32) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y
            ∗ owns (c : Thread nD τ) arg4 fullShare (upd0 x y zero0)) -∗ K ⟨⟩))
      ⊢ wp frame (wpE (defs₀ (F := F)) Variants.none c none) E (cc0__log_px_kernel i arg2 harg2 arg3 harg3 arg4 harg4) K := by
  simp only [cc0__log_px_kernel_eq_skeleton]; unfold cc0__log_px_kernel_skel
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  -- the buffer was stored twice through the whole-block rectangle: it reads as the later payload, whose
  -- accumulator operand was loaded after the first store and so is the zero block
  sl_unfold_words
  rw [View.read_writes_eq_canon _ _ _ (cover128 _ _)]
  rw [View.canon_cons_unit_zero (S := S128) hz1, View.readCov_unit_zero (S := S128) _ hz1]
  unfold upd0 zero0
  simp only [View.readAt_eq_ld, harg2.read_unread, harg3.read_unread, View.ld_unit_zero (S := S128x4096) hz2]

set_option maxHeartbeats 1000000 in
/-- A later pixel block: accumulate onto what the block before left. -/
theorem sound_k0_next (c : Dev nD) (E : Set ℕ) (i : grid0.Coords)
    (arg2 : Memref sig .tc .vmem S128x4096 .f32) (harg2 : arg2.IsWhole) (arg3 : Memref sig .tc .vmem S128x4096 .f32) (harg3 : arg3.IsWhole)
    (arg4 : Memref sig .tc .vmem S128 .f32) (harg4 : arg4.IsWhole) (hc : ¬ cond0 i)
    (x y : Vec F S128x4096 .f32) (a : Vec F S128 .f32) (K : PUnit → sProp 𝕄) :
    iprop(owns (c : Thread nD τ) arg2 fullShare x ∗ owns (c : Thread nD τ) arg3 fullShare y ∗ owns (c : Thread nD τ) arg4 fullShare a
        ∗ (iprop(owns (c : Thread nD τ) arg2 fullShare x ∗ owns (c : Thread nD τ) arg3 fullShare y
            ∗ owns (c : Thread nD τ) arg4 fullShare (upd0 x y a)) -∗ K ⟨⟩))
      ⊢ wp frame (wpE (defs₀ (F := F)) Variants.none c none) E (cc0__log_px_kernel i arg2 harg2 arg3 harg3 arg4 harg4) K := by
  simp only [cc0__log_px_kernel_eq_skeleton]; unfold cc0__log_px_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  -- one store through the whole-block rectangle: the buffer reads as its payload, whose loads read the contents
  sl_unfold_words
  rw [View.read_writes_eq_canon _ _ _ (cover128 _ _)]
  rw [View.canon_unit_zero (S := S128) hz1]
  unfold upd0
  simp only [View.readAt_eq_ld, harg2.read_unread, harg3.read_unread, harg4.read_unread,
    View.ld_unit_zero (S := S128x4096) hz2, View.ld_unit_zero (S := S128) hz1]

end Cert.KernelIdeal.Hand

end
-- ==== Proof.KI.Dat0.lean ====
/-
  Region 0's proof data: the arrays as the region finds them; after the body at point t the two input buffers hold
  their blocks and the output buffer the accumulated row sums  acc0 t ; the invariant between points is the plain
  one (no scratch is carried); nothing is owed. And the body obligation at every point, by the two cases of the
  kernel's triple: a point with pixel block 0 finds the output buffer fresh (first point, or just written back),
  a later one finds what the point before left.
-/
import proofs.«153124_j71159018160768_1_alg».proof.Proof.KI.Body0
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## What the body finds in each current buffer -/

/-- An input's current buffer holds its block at every point: it is fetched there, or its block index has not moved. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- At pixel block 0 the output's current buffer is fresh: the first point, or the point before wrote it back. -/
theorem before0_2_first (c : Dev nD) (t : Fin cfg0.N) (h : t.val % 3 = 0) (d) : (dat0 V c).before 2 t d = d := by
  have hN : t.val < 24 := lt_of_lt_of_eq t.isLt (show cfg0.N = 24 from N_0)
  refine Dat.before_out_reset _ 2 rfl t ?_ d
  by_cases h0 : t.val = 0
  · exact .inl h0
  · exact .inr ⟨h0, (flush0_2 _).mpr (by dsimp only; omega)⟩

/-- At a later pixel block it holds what the point before left: not written back between, the window live and uncut. -/
theorem before0_2_next (c : Dev nD) (t : Fin cfg0.N) (h : ¬ t.val % 3 = 0) (d) :
    (dat0 V c).before 2 t d = acc0 V c (t.val - 1) (Nat.lt_of_le_of_lt (Nat.sub_le _ _) t.isLt) := by
  have hN : t.val < 24 := lt_of_lt_of_eq t.isLt (show cfg0.N = 24 from N_0)
  rw [Dat.before_out_kept _ 2 rfl t (by omega) (Bool.eq_false_iff.mpr fun h' => by have := (flush0_2 _).mp h'; dsimp only at this; omega)
    (fun _ => rfl) (fun _ _ => rfl)]
  dsimp only [dat0]

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' buffers hold their blocks; the point's pixel block says which case of the
    kernel's triple applies and what the output's buffer holds; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  by_cases h0 : t.val % 3 = 0
  · rw [acc0_first V c t h0]
    simp only [before0_2_first V c t h0]
    iintro ⟨HΦ, Ho, ⟨%d0, H0⟩, ⟨%d1, H1⟩, ⟨%d2, H2⟩⟩
    iapply (sound_k0_first c Set.univ (grid0.coords t) (ms0_0 t) (hs0_0 t) (ms0_1 t) (hs0_1 t) (ms0_2 t) (hs0_2 t)
      ((hcond0 t).mpr h0) (tg0 V c t) (xm0 V c t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc0_next V c t h0]
    simp only [before0_2_next V c t h0]
    iintro ⟨HΦ, Ho, ⟨%d0, H0⟩, ⟨%d1, H1⟩, ⟨%d2, H2⟩⟩
    iapply (sound_k0_next c Set.univ (grid0.coords t) (ms0_0 t) (hs0_0 t) (ms0_1 t) (hs0_1 t) (ms0_2 t) (hs0_2 t)
      (fun h => h0 ((hcond0 t).mp h)) (tg0 V c t) (xm0 V c t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation at every point of region 0. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Body1.lean ====
/-
  Region 1's kernel body as a triple, in its three cases over the key-block coordinate j:
  j = 0 resets the four scratch buffers to (-∞, 0, -∞, 0) and applies one online step;
  0 < j < 7 applies one step to what the block before left;
  j = 7 applies one step and copies the four scratch buffers out into the four output blocks.
  The input blocks are read and left as they were; at j < 7 the output blocks are not touched.

  Each case runs the body's loads and stores in order. Every access is of a whole buffer, so what a buffer
  holds after the run is the payload of the last store into it, and a load after a store reads that store's
  payload; with the loads read back, the four stored payloads are the four components of one online step.
-/
import proofs.«153124_j71159018160768_1_alg».proof.Proof.KI.Pure
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 and of a rank-1 whole-buffer access, as constant functions. -/
private theorem hz2 : (![0, 0] : Fin 2 → Nat) = fun _ => 0 := funext fun a => by fin_cases a <;> rfl
private theorem hz1 : (![0] : Fin 1 → Nat) = fun _ => 0 := funext fun a => by fin_cases a <;> rfl

/-- A list of stores whose last one (the head) is of the whole buffer covers every index. -/
private theorem cover_head {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

set_option maxHeartbeats 4000000 in
/-- Key block 0: reset and step; the outputs untouched. -/
theorem sound_k1_first (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128 .f32) (harg6 : arg6.IsWhole) (arg7 : Memref sig .tc .vmem S128 .f32) (harg7 : arg7.IsWhole)
    (arg8 : Memref sig .tc .vmem S128x64 .f32) (harg8 : arg8.IsWhole) (arg9 : Memref sig .tc .vmem S128x64 .f32) (harg9 : arg9.IsWhole) (arg10 : Memref sig .tc .vmem S128x1 .f32) (harg10 : arg10.IsWhole) (arg11 : Memref sig .tc .vmem S128x1 .f32) (harg11 : arg11.IsWhole)
    (ha : cond1a i) (hb : ¬ cond1b i)
    (zm zl o2 o3 : Vec F S128x64 .f32) (o4 o5 : Vec F S128 .f32) (K : PUnit → sProp 𝕄) :
    iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
            ∗ owns (c : Thread nD τ) arg8 fullShare (step1 zm zl init1).m1 ∗ owns (c : Thread nD τ) arg9 fullShare (step1 zm zl init1).t1 ∗ owns (c : Thread nD τ) arg10 fullShare (step1 zm zl init1).m2 ∗ owns (c : Thread nD τ) arg11 fullShare (step1 zm zl init1).t2) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := harg2.eq_unread hf2; obtain rfl := harg3.eq_unread hf3
  sl_exec (disch := first | exact ha | exact hb)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H9]
  · iexists _; isplitr
    swap; · iexact H9
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H10]
  · iexists _; isplitr
    swap; · iexact H10
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  iexists _; isplitr
  swap; · iexact H11
  ipureintro
  sl_unfold_words
  rw [View.read_writes_eq_canon _ _ _ (cover_head hz2 _ _ _)]
  rw [View.canon_cons_unit_zero hz2]
  simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
  rfl

set_option maxHeartbeats 4000000 in
/-- A middle key block: step; the outputs untouched. -/
theorem sound_k1_mid (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128 .f32) (harg6 : arg6.IsWhole) (arg7 : Memref sig .tc .vmem S128 .f32) (harg7 : arg7.IsWhole)
    (arg8 : Memref sig .tc .vmem S128x64 .f32) (harg8 : arg8.IsWhole) (arg9 : Memref sig .tc .vmem S128x64 .f32) (harg9 : arg9.IsWhole) (arg10 : Memref sig .tc .vmem S128x1 .f32) (harg10 : arg10.IsWhole) (arg11 : Memref sig .tc .vmem S128x1 .f32) (harg11 : arg11.IsWhole)
    (ha : ¬ cond1a i) (hb : ¬ cond1b i)
    (zm zl o2 o3 : Vec F S128x64 .f32) (o4 o5 : Vec F S128 .f32) (s : St F) (K : PUnit → sProp 𝕄) :
    iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
        ∗ owns (c : Thread nD τ) arg8 fullShare s.m1 ∗ owns (c : Thread nD τ) arg9 fullShare s.t1 ∗ owns (c : Thread nD τ) arg10 fullShare s.m2 ∗ owns (c : Thread nD τ) arg11 fullShare s.t2
        ∗ (iprop(owns (c : Thread nD τ) arg2 fullShare zm ∗ owns (c : Thread nD τ) arg3 fullShare zl ∗ owns (c : Thread nD τ) arg4 fullShare o2 ∗ owns (c : Thread nD τ) arg5 fullShare o3 ∗ owns (c : Thread nD τ) arg6 fullShare o4 ∗ owns (c : Thread nD τ) arg7 fullShare o5
            ∗ owns (c : Thread nD τ) arg8 fullShare (step1 zm zl s).m1 ∗ owns (c : Thread nD τ) arg9 fullShare (step1 zm zl s).t1 ∗ owns (c : Thread nD τ) arg10 fullShare (step1 zm zl s).m2 ∗ owns (c : Thread nD τ) arg11 fullShare (step1 zm zl s).t2) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3
  obtain rfl := harg8.eq_unread hf8; obtain rfl := harg9.eq_unread hf9
  obtain rfl := harg10.eq_unread hf10; obtain rfl := harg11.eq_unread hf11
  sl_exec (disch := first | exact ha | exact hb)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H9]
  · iexists _; isplitr
    swap; · iexact H9
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H10]
  · iexists _; isplitr
    swap; · iexact H10
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  iexists _; isplitr
  swap; · iexact H11
  ipureintro
  sl_unfold_words
  rw [View.read_writes_eq_canon _ _ _ (cover_head hz2 _ _ _)]
  rw [View.canon_cons_unit_zero hz2]
  simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
  rfl

set_option maxHeartbeats 4000000 in
/-- The last key block: step, then copy out. -/
theorem sound_k1_last (c : Dev nD) (E : Set ℕ) (i : grid1.Coords)
    (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x64 .f32) (harg5 : arg5.IsWhole) (arg6 : Memref sig .tc .vmem S128 .f32) (harg6 : arg6.IsWhole) (arg7 : Memref sig .tc .vmem S128 .f32) (harg7 : arg7.IsWhole)
    (arg8 : Memref sig .tc .vmem S128x64 .f32) (harg8 : arg8.IsWhole) (arg9 : Memref sig .tc .vmem S128x64 .f32) (harg9 : arg9.IsWhole) (arg10 : Memref sig .tc .vmem S128x1 .f32) (harg10 : arg10.IsWhole) (arg11 : Memref sig .tc .vmem S128x1 .f32) (harg11 : arg11.IsWhole)
    (ha : ¬ cond1a i) (hb : cond1b i)
    (zm zl : Vec F S128x64 .f32) (s : St F) (K : PUnit → sProp 𝕄) :
    iprop(owns (c : Thread nD τ) arg2 fullShare zm ∗ owns (c : Thread nD τ) arg3 fullShare zl ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s.m1 ∗ owns (c : Thread nD τ) arg9 fullShare s.t1 ∗ owns (c : Thread nD τ) arg10 fullShare s.m2 ∗ owns (c : Thread nD τ) arg11 fullShare s.t2
        ∗ (iprop(owns (c : Thread nD τ) arg2 fullShare zm ∗ owns (c : Thread nD τ) arg3 fullShare zl
            ∗ owns (c : Thread nD τ) arg4 fullShare (out1_2 (step1 zm zl s)) ∗ owns (c : Thread nD τ) arg5 fullShare (out1_3 (step1 zm zl s)) ∗ owns (c : Thread nD τ) arg6 fullShare (out1_4 (step1 zm zl s)) ∗ owns (c : Thread nD τ) arg7 fullShare (out1_5 (step1 zm zl s))
            ∗ owns (c : Thread nD τ) arg8 fullShare (step1 zm zl s).m1 ∗ owns (c : Thread nD τ) arg9 fullShare (step1 zm zl s).t1 ∗ owns (c : Thread nD τ) arg10 fullShare (step1 zm zl s).m2 ∗ owns (c : Thread nD τ) arg11 fullShare (step1 zm zl s).t2) -∗ K ⟨⟩))
      ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11) K := by
  simp only [cc1__pairwise_kernel_eq_skeleton]; unfold cc1__pairwise_kernel_skel
  unfold owns
  iintro ⟨⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%f10, %hf10, H10⟩, ⟨%f11, %hf11, H11⟩, Hk⟩
  obtain rfl := harg2.eq_unread hf2; obtain rfl := harg3.eq_unread hf3
  obtain rfl := harg8.eq_unread hf8; obtain rfl := harg9.eq_unread hf9
  obtain rfl := harg10.eq_unread hf10; obtain rfl := harg11.eq_unread hf11
  sl_exec (disch := first | exact ha | exact hb)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H5]
  · iexists _; isplitr
    swap; · iexact H5
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H6]
  · iexists _; isplitr
    swap; · iexact H6
    ipureintro
    sl_unfold_words
    rw [View.read_writes_eq_canon _ _ _ (cover_head hz1 _ _ _)]
    rw [View.canon_cons_unit_zero hz1]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H7]
  · iexists _; isplitr
    swap; · iexact H7
    ipureintro
    sl_unfold_words
    rw [View.read_writes_eq_canon _ _ _ (cover_head hz1 _ _ _)]
    rw [View.canon_cons_unit_zero hz1]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H8]
  · iexists _; isplitr
    swap; · iexact H8
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H9]
  · iexists _; isplitr
    swap; · iexact H9
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  isplitl [H10]
  · iexists _; isplitr
    swap; · iexact H10
    ipureintro
    sl_unfold_words
    rw [View.read_writes_eq_canon _ _ _ (cover_head hz2 _ _ _)]
    rw [View.canon_cons_unit_zero hz2]
    simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
    rfl
  iexists _; isplitr
  swap; · iexact H11
  ipureintro
  sl_unfold_words
  rw [View.read_writes_eq_canon _ _ _ (cover_head hz2 _ _ _)]
  rw [View.canon_cons_unit_zero hz2]
  simp only [View.readAt_eq_ld, harg2.read_unread, harg3.read_unread, harg8.read_unread, harg9.read_unread, harg10.read_unread, harg11.read_unread,
      View.ld_unit_zero (S := S128x64) hz2, View.ld_unit_zero (S := S128x1) hz2, View.readCov_unit_zero (S := S128x64) _ hz2, View.readCov_unit_zero (S := S128x1) _ hz2]
  rfl

end Cert.KernelIdeal.Hand

end
-- ==== Proof.KI.Dat1.lean ====
/-
  Region 1's proof data. The four scratch buffers are carried from one key block to the next within a query block,
  so the invariant between points names them: before a point with key block 0 (and after the last point) every
  scoped buffer is at anything; before any other point the four scratch buffers hold the state  st1 (t-1)  the
  point before left. After the body the two input buffers hold their blocks; the four output buffers are written
  only at key block 7, from the state  st1 t , and are idle (handed back as found) elsewhere.
-/
import proofs.«153124_j71159018160768_1_alg».proof.Proof.KI.Body1
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The plain invariant with the scoped buffers listed: region 0's six staging buffers and the four scratch buffers, each
    at some contents, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) sc1_0 fullShare d) ∗ (∃ d, owns (c : Thread nD τ) sc1_1 fullShare d)
          ∗ (∃ d, owns (c : Thread nD τ) sc1_2 fullShare d) ∗ (∃ d, owns (c : Thread nD τ) sc1_3 fullShare d)) ∗ (∃ r, prngReg c r)) := by
  unfold Pipeline.ΦA; rw [scopedRest1_eq]; simp only [sc1_0, sc1_1, sc1_2, sc1_3, owns_whole]; try rfl

/-- The invariant before position `n`. -/
def Phi1 (c : Dev nD) : (n : ℕ) → n ≤ cfg1.N → sProp 𝕄
  | 0, _ => Pipeline.ΦA spec1 c
  | n + 1, hn =>
    if (n + 1) % 8 = 0 then Pipeline.ΦA spec1 c
    else iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) sc1_0 fullShare (st1 V c n hn).m1 ∗ owns (c : Thread nD τ) sc1_1 fullShare (st1 V c n hn).t1
          ∗ owns (c : Thread nD τ) sc1_2 fullShare (st1 V c n hn).m2 ∗ owns (c : Thread nD τ) sc1_3 fullShare (st1 V c n hn).t2) ∗ (∃ r, prngReg c r))

/-- Before a point with key block 0, and after the last point: the plain invariant. -/
theorem Phi1_res (c : Dev nD) (n : ℕ) (h : n ≤ cfg1.N) (hz : n % 8 = 0) : Phi1 V c n h = Pipeline.ΦA spec1 c := by
  cases n with
  | zero => rfl
  | succ n => exact if_pos hz

/-- Before a point with a later key block: the scratch buffers at what the point before left. -/
theorem Phi1_pos (c : Dev nD) (n : ℕ) (h : n ≤ cfg1.N) (hz : ¬ n % 8 = 0) :
    Phi1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) sc1_0 fullShare (st1 V c (n - 1) (by omega)).m1 ∗ owns (c : Thread nD τ) sc1_1 fullShare (st1 V c (n - 1) (by omega)).t1
          ∗ owns (c : Thread nD τ) sc1_2 fullShare (st1 V c (n - 1) (by omega)).m2 ∗ owns (c : Thread nD τ) sc1_3 fullShare (st1 V c (n - 1) (by omega)).t2) ∗ (∃ r, prngReg c r)) := by
  cases n with
  | zero => exact absurd (Nat.zero_mod _) hz
  | succ n => exact if_neg hz

/-- After a point that is not at the last key block: the scratch buffers at what it left. -/
theorem Phi1_succ (c : Dev nD) (n : ℕ) (hn : n < cfg1.N) (hz : ¬ (n + 1) % 8 = 0) :
    Phi1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ owns (c : Thread nD τ) sc1_0 fullShare (st1 V c n hn).m1 ∗ owns (c : Thread nD τ) sc1_1 fullShare (st1 V c n hn).t1
          ∗ owns (c : Thread nD τ) sc1_2 fullShare (st1 V c n hn).m2 ∗ owns (c : Thread nD τ) sc1_3 fullShare (st1 V c n hn).t2) ∗ (∃ r, prngReg c r)) :=
  if_neg hz

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (st1 V c t.val t.isLt)
    | ⟨3, _⟩ => out1_3 (st1 V c t.val t.isLt)
    | ⟨4, _⟩ => out1_4 (st1 V c t.val t.isLt)
    | ⟨5, _⟩ => out1_5 (st1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (st1 V c t.val t.isLt) := by dsimp only [dat1]
theorem after1_3 (c : Dev nD) (t : Fin cfg1.N) : (dat1 V c).after 3 t = out1_3 (st1 V c t.val t.isLt) := by dsimp only [dat1]
theorem after1_4 (c : Dev nD) (t : Fin cfg1.N) : (dat1 V c).after 4 t = out1_4 (st1 V c t.val t.isLt) := by dsimp only [dat1]
theorem after1_5 (c : Dev nD) (t : Fin cfg1.N) : (dat1 V c).after 5 t = out1_5 (st1 V c t.val t.isLt) := by dsimp only [dat1]

/-- Before the first point the invariant is the plain one. -/
theorem Phi1_first (c : Dev nD) : (dat1 V c).Φ 0 = Pipeline.ΦA spec1 c := rfl
/-- After the last point (64 ≡ 0 mod 8) likewise. -/
theorem Phi1_last (c : Dev nD) : (dat1 V c).Φ (Fin.last cfg1.N) = Pipeline.ΦA spec1 c := by
  rw [show (dat1 V c).Φ (Fin.last cfg1.N) = Phi1 V c (Fin.last cfg1.N).val (Nat.le_of_lt_succ (Fin.last cfg1.N).isLt) from rfl]
  exact Phi1_res V c _ _ (by rw [Fin.val_last, show cfg1.N = 64 from N_1])

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point, by the key block: at key block 0 the invariant hands the scratch buffers at anything and takes
    them back at the first step's state; at a later key block it hands them at what the point before left and takes them
    back one step on; at the last key block the outputs leave at the copies of that state and the scratch contents are
    forgotten. The inputs' buffers hold their blocks throughout; an idle output is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_castSucc V c t]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 8 = 0
  · have h7 : ¬ t.val % 8 = 7 := by omega
    rw [Dat.leavesExact_idle (dat1 V c) 2 t (idle1_out 2 (by decide) t h7) (noflush1_out 2 (by decide) t h7),
      Dat.leavesExact_idle (dat1 V c) 3 t (idle1_out 3 (by decide) t h7) (noflush1_out 3 (by decide) t h7),
      Dat.leavesExact_idle (dat1 V c) 4 t (idle1_out 4 (by decide) t h7) (noflush1_out 4 (by decide) t h7),
      Dat.leavesExact_idle (dat1 V c) 5 t (idle1_out 5 (by decide) t h7) (noflush1_out 5 (by decide) t h7)]
    rw [Phi1_res V c _ _ h0, PhiA1_eq, Phi1_succ V c _ _ (by omega), st1_first V c t h0]
    iintro ⟨⟨⟨G0, G1, G2, G3, G4, G5, S0, S1, S2, S3⟩, Hg⟩, Ho, ⟨%d0, H0⟩, ⟨%d1, H1⟩, ⟨%d2, H2⟩, ⟨%d3, H3⟩, ⟨%d4, H4⟩, ⟨%d5, H5⟩⟩
    iapply (sound_k1_first c Set.univ (grid1.coords t) _ _ _ _ _ _ _ _ _ _ _ _ _ _ _ _ _ _ _ _ ((hcond1a t).mpr h0) (fun h => h7 ((hcond1b t).mp h)) (zm1 V c t) (zl1 V c t) _ _ _ _ _)
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [S3]; · iexact S3
    iintro ⟨H0, H1, H2, H3, H4, H5, S0, S1, S2, S3⟩
    isplitl [G0 G1 G2 G3 G4 G5 S0 S1 S2 S3 Hg]
    · isplitr [Hg]
      swap; · iexact Hg
      isplitl [G0]; · iexact G0
      isplitl [G1]; · iexact G1
      isplitl [G2]; · iexact G2
      isplitl [G3]; · iexact G3
      isplitl [G4]; · iexact G4
      isplitl [G5]; · iexact G5
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexists _; iexact H2
    isplitl [H3]; · iexists _; iexact H3
    isplitl [H4]; · iexists _; iexact H4
    iexists _; iexact H5
  · by_cases h7 : t.val % 8 = 7
    · rw [show (dat1 V c).leavesExact 2 t = owns (c : Thread nD τ) (ms1_2 t) fullShare ((dat1 V c).after 2 t) from by
        unfold Dat.leavesExact; rw [live1_out 2 (by decide) t h7], after1_2]
      rw [show (dat1 V c).leavesExact 3 t = owns (c : Thread nD τ) (ms1_3 t) fullShare ((dat1 V c).after 3 t) from by
        unfold Dat.leavesExact; rw [live1_out 3 (by decide) t h7], after1_3]
      rw [show (dat1 V c).leavesExact 4 t = owns (c : Thread nD τ) (ms1_4 t) fullShare ((dat1 V c).after 4 t) from by
        unfold Dat.leavesExact; rw [live1_out 4 (by decide) t h7], after1_4]
      rw [show (dat1 V c).leavesExact 5 t = owns (c : Thread nD τ) (ms1_5 t) fullShare ((dat1 V c).after 5 t) from by
        unfold Dat.leavesExact; rw [live1_out 5 (by decide) t h7], after1_5]
      rw [Phi1_pos V c _ _ h0, Phi1_res V c (t.val + 1) _ (by omega), PhiA1_eq, st1_next V c t h0]
      iintro ⟨⟨⟨G0, G1, G2, G3, G4, G5, S0, S1, S2, S3⟩, Hg⟩, Ho, ⟨%d0, H0⟩, ⟨%d1, H1⟩, ⟨%d2, H2⟩, ⟨%d3, H3⟩, ⟨%d4, H4⟩, ⟨%d5, H5⟩⟩
      iapply (sound_k1_last c Set.univ (grid1.coords t) _ _ _ _ _ _ _ _ _ _ _ _ _ _ _ _ _ _ _ _ (fun h => h0 ((hcond1a t).mp h)) ((hcond1b t).mpr h7) (zm1 V c t) (zl1 V c t) _ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [S0]; · iexact S0
      isplitl [S1]; · iexact S1
      isplitl [S2]; · iexact S2
      isplitl [S3]; · iexact S3
      iintro ⟨H0, H1, H2, H3, H4, H5, S0, S1, S2, S3⟩
      isplitl [G0 G1 G2 G3 G4 G5 S0 S1 S2 S3 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [S0]; · iexists _; iexact S0
        isplitl [S1]; · iexists _; iexact S1
        isplitl [S2]; · iexists _; iexact S2
        iexists _; iexact S3
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 2 t (idle1_out 2 (by decide) t h7) (noflush1_out 2 (by decide) t h7),
        Dat.leavesExact_idle (dat1 V c) 3 t (idle1_out 3 (by decide) t h7) (noflush1_out 3 (by decide) t h7),
        Dat.leavesExact_idle (dat1 V c) 4 t (idle1_out 4 (by decide) t h7) (noflush1_out 4 (by decide) t h7),
        Dat.leavesExact_idle (dat1 V c) 5 t (idle1_out 5 (by decide) t h7) (noflush1_out 5 (by decide) t h7)]
      rw [Phi1_pos V c _ _ h0, Phi1_succ V c _ _ (by omega), st1_next V c t h0]
      iintro ⟨⟨⟨G0, G1, G2, G3, G4, G5, S0, S1, S2, S3⟩, Hg⟩, Ho, ⟨%d0, H0⟩, ⟨%d1, H1⟩, ⟨%d2, H2⟩, ⟨%d3, H3⟩, ⟨%d4, H4⟩, ⟨%d5, H5⟩⟩
      iapply (sound_k1_mid c Set.univ (grid1.coords t) _ _ _ _ _ _ _ _ _ _ _ _ _ _ _ _ _ _ _ _ (fun h => h0 ((hcond1a t).mp h)) (fun h => h7 ((hcond1b t).mp h)) (zm1 V c t) (zl1 V c t) _ _ _ _ _ _)
      isplitl [H0]; · iexact H0
      isplitl [H1]; · iexact H1
      isplitl [H2]; · iexact H2
      isplitl [H3]; · iexact H3
      isplitl [H4]; · iexact H4
      isplitl [H5]; · iexact H5
      isplitl [S0]; · iexact S0
      isplitl [S1]; · iexact S1
      isplitl [S2]; · iexact S2
      isplitl [S3]; · iexact S3
      iintro ⟨H0, H1, H2, H3, H4, H5, S0, S1, S2, S3⟩
      isplitl [G0 G1 G2 G3 G4 G5 S0 S1 S2 S3 Hg]
      · isplitr [Hg]
        swap; · iexact Hg
        isplitl [G0]; · iexact G0
        isplitl [G1]; · iexact G1
        isplitl [G2]; · iexact G2
        isplitl [G3]; · iexact G3
        isplitl [G4]; · iexact G4
        isplitl [G5]; · iexact G5
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The body obligation at every point of region 1. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The run of @main: region 0, nineteen host operations, region 1, thirty-four host operations. Between items core c
  holds every unscoped buffer at a valuation folded through @main — W0 the launch memory; W1 with region 0's
  arrays at what its pipeline leaves; W2 after the first host stretch; W3 with region 1's arrays at what its
  pipeline leaves; W4 after the second host stretch — beside the generator register and the core owing nothing.
  Every weakly fair execution terminates with every unscoped buffer at W4; the arguments are never written, so
  W4 at an argument walks back to the launch memory.
-/
import proofs.«153124_j71159018160768_1_alg».proof.Proof.KI.Dat0
import proofs.«153124_j71159018160768_1_alg».proof.Proof.KI.Dat1
import proofs.«153124_j71159018160768_1_alg».proof.Proof.Gen.KernelIdeal.Regions
import Idealize.ShloMosaic.Lib.Pipeline.RegionsLoop
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references: what region 0's proof data take. -/
abbrev Ve0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx0 : (c : Dev nD) → (b : Ref sig .tc) → Buf (Elt F) ((c : Thread nD τ).loc b) := fun c b => W1 m c b
theorem hF0 (c : Dev nD) (w : Fin cfg0.W) : (dat0 (Ve0 m) c).arrAt w cfg0.N = Vx0 m c (Pipeline.arrRef spec0 w) :=
  (W1_arr m c w).symm
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)

/-- After the first host stretch: region 1's entry. -/
abbrev W2 : Dev nD → Valuation τ sig (Elt F) := fun c => StableHlo.after hostOps1 (W1 m c)
abbrev Ve1 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (Ve1 m) c).arrAt w cfg1.N
theorem W3_arr (c : Dev nD) (w : Fin cfg1.W) :
    W3 m c (Proc.devRef .tc (Pipeline.arrRef spec1 w)) = (dat1 (Ve1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vx1 : (c : Dev nD) → (b : Ref sig .tc) → Buf (Elt F) ((c : Thread nD τ).loc b) := fun c b => W3 m c b
theorem hF1 (c : Dev nD) (w : Fin cfg1.W) : (dat1 (Ve1 m) c).arrAt w cfg1.N = Vx1 m c (Pipeline.arrRef spec1 w) :=
  (W3_arr m c w).symm
theorem hrest1 (c : Dev nD) : ∀ b, b ∉ Finset.univ.image (Pipeline.arrRef spec1) → Vx1 m c b = Ve1 m c b :=
  fun b hb => W3_of_ne m c b fun w e => hb (Finset.mem_image.mpr ⟨w, Finset.mem_univ _, e⟩)
/-- After the second host stretch: the end. -/
abbrev W4 : Dev nD → Valuation τ sig (Elt F) := fun c => StableHlo.after hostOps2 (W3 m c)

/-! ## No item writes an argument -/

/-- Region 0 stages two arguments as input windows: an input's array ends as entered. -/
theorem W1_arg0 (c : Dev nD) : W1 m c (Proc.devRef .tc main_arg0) = W0 m c (Proc.devRef .tc main_arg0) :=
  (W1_arr m c 0).trans (((dat0 (Ve0 m) c).arrAt_in 0 rfl _).trans (A_eq0 (Ve0 m) c 0))
theorem W1_arg1 (c : Dev nD) : W1 m c (Proc.devRef .tc main_arg1) = W0 m c (Proc.devRef .tc main_arg1) :=
  (W1_arr m c 1).trans (((dat0 (Ve0 m) c).arrAt_in 1 rfl _).trans (A_eq0 (Ve0 m) c 1))
theorem W1_arg2 (c : Dev nD) : W1 m c (Proc.devRef .tc main_arg2) = W0 m c (Proc.devRef .tc main_arg2) :=
  W1_of_ne m c main_arg2 (by decide)
theorem W1_arg3 (c : Dev nD) : W1 m c (Proc.devRef .tc main_arg3) = W0 m c (Proc.devRef .tc main_arg3) :=
  W1_of_ne m c main_arg3 (by decide)
theorem W1_arg4 (c : Dev nD) : W1 m c (Proc.devRef .tc main_arg4) = W0 m c (Proc.devRef .tc main_arg4) :=
  W1_of_ne m c main_arg4 (by decide)
/-- Region 1 stages two arguments as input windows. -/
theorem W3_arg3 (c : Dev nD) : W3 m c (Proc.devRef .tc main_arg3) = W2 m c (Proc.devRef .tc main_arg3) :=
  (W3_arr m c 0).trans (((dat1 (Ve1 m) c).arrAt_in 0 rfl _).trans (A_eq1 (Ve1 m) c 0))
theorem W3_arg4 (c : Dev nD) : W3 m c (Proc.devRef .tc main_arg4) = W2 m c (Proc.devRef .tc main_arg4) :=
  (W3_arr m c 1).trans (((dat1 (Ve1 m) c).arrAt_in 1 rfl _).trans (A_eq1 (Ve1 m) c 1))

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_arg0 m c
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_arg1 m c
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_arg2 m c
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_arg3 m c
    _ = W1 m c (Proc.devRef .tc main_arg3) := StableHlo.after_of_writes_sub hostOps1 _ hostOps1_writes (by decide)
    _ = W0 m c (Proc.devRef .tc main_arg3) := W1_arg3 m c
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_arg4 m c
    _ = W1 m c (Proc.devRef .tc main_arg4) := StableHlo.after_of_writes_sub hostOps1 _ hostOps1_writes (by decide)
    _ = W0 m c (Proc.devRef .tc main_arg4) := W1_arg4 m c
    _ = m ((c : Thread nD τ).loc main_arg4) := rfl

/-! ## The proof data family and the thread state -/

abbrev adm : (p : Fin 2) → (pcfgs (F := F) p).Adm := fun p => (cfgs p).toPCfg_adm
/-- Each pipeline's proof data at its region's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at W0, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. Its invariant before the first
    point and after the last is the plain one (the scratch buffers at anything). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (Ve1 m) c).Φ (Fin.last cfg1.N) from rfl, Phi1_last]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds every unscoped buffer of every core at the valuation W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Hand

end
-- ==== Proof.Alg.lean ====
/-
  Both programs' results as scalar formulas over the extended reals, and the law that joins them.

  Inputs: target tg, x_mean xm : 1024 × 12288;  z_mean zm, z_log_var zl : 1024 × 64.
  Write  ℓ(i,j,d)  for the Gaussian log-likelihood of zm[i,d] under log-variance zl[j,d].

  The reference takes  m₁[i,d] = max_j ℓ(i,j,d),  Σ₁ = Σ_{i,j,d} exp(ℓ − m₁),  and likewise m₂[i], Σ₂ over
  S(i,j) = Σ_d ℓ(i,j,d), all at once.  The kernel sweeps j in 8 blocks of 128 keeping a running maximum M and a
  rescaled running sum T (T ← T·exp(M − M') + Σ_block exp(· − M')), spells ℓ with the constant ½·log 2π folded,
  and sums the Bernoulli term over three pixel blocks of 4096.  Over the reals these agree:
  exp(a−b)·exp(b−c) = exp(a−c), the folded constant's word is the other's with the exponent one lower, and the
  rest is regrouping of finite sums.
-/
import Idealize.ShloMosaic.PureOps.Ideal
import Idealize.ShloMosaic.PureOps.Ideal.Laws

noncomputable section

namespace Cert.Alg

open Idealize.ShloMosaic

/-! ## The literals, as their words -/
abbrev cZero : EReal := Ideal.ofBits .f32 0x00000000#32
abbrev cNegInf : EReal := Ideal.ofBits .f32 0xFF800000#32
abbrev cTol : EReal := Ideal.ofBits .f32 0x33D6BF95#32
abbrev cOne : EReal := Ideal.ofBits .f32 0x3F800000#32
abbrev cHalf : EReal := Ideal.ofBits .f32 0x3F000000#32
abbrev cNegHalf : EReal := Ideal.ofBits .f32 0xBF000000#32
abbrev cHalfLog2Pi : EReal := Ideal.ofBits .f32 0x3F6B3F8E#32
abbrev cLog2Pi : EReal := Ideal.ofBits .f32 0x3FEB3F8E#32
abbrev cLogNM : EReal := Ideal.ofBits .f32 0x41A3899D#32
abbrev c64 : EReal := Ideal.ofBits .f32 0x42800000#32
abbrev c6 : EReal := Ideal.ofBits .f32 0x40C00000#32
abbrev c1024 : EReal := Ideal.ofBits .f32 0x44800000#32

/-! ## The pointwise terms -/

/-- The Bernoulli log-likelihood term  t·log(x+ε) + (1−t)·log(1−x+ε). -/
def bern (t x : EReal) : EReal := t * Ideal.log (x + cTol) + (cOne - t) * Ideal.log ((cOne - x) + cTol)

/-- The Gaussian term as the reference (and the kernel's host code) spells it:  −½·((lv + μ²/(e^lv+ε)) + log 2π). -/
def llR (mu lv : EReal) : EReal := cNegHalf * ((lv + Ideal.div (mu * mu) (Ideal.exp lv + cTol)) + cLog2Pi)

/-- The same as the kernel body spells it:  (−½·lv − ½log 2π) − (½·μ²)·(1/(e^lv+ε)). -/
def llK (mu lv : EReal) : EReal :=
  (cNegHalf * lv - cHalfLog2Pi) - (cHalf * (mu * mu)) * Ideal.div cOne (Ideal.exp lv + cTol)

/-! ## One step of the online log-sum-exp, on one row of a key block -/

/-- The new running maximum. -/
def stepM {n : ℕ} (M : EReal) (row : Fin n → EReal) : EReal := max M ((Finset.univ : Finset (Fin n)).fold max cNegInf row)
/-- The new rescaled running sum. -/
def stepT {n : ℕ} (M T : EReal) (row : Fin n → EReal) : EReal :=
  T * Ideal.exp (M - stepM M row) + ∑ r : Fin n, Ideal.exp (row r - stepM M row)

/-- The running (maximum, sum) after the first `k` key blocks, from (−∞, 0). -/
def onl {n : ℕ} (rows : ℕ → Fin n → EReal) : ℕ → EReal × EReal
  | 0 => (cNegInf, cZero)
  | k + 1 => (stepM (onl rows k).1 (rows k), stepT (onl rows k).1 (onl rows k).2 (rows k))

/-- Key index of row `r` of key block `k`. -/
def jidx (k : ℕ) (r : Fin 128) : Fin 1024 := ⟨(128 * k + r.val) % 1024, Nat.mod_lt _ (by decide)⟩
/-- Pixel index of lane `q` of pixel block `p`. -/
def pidx (p : ℕ) (q : Fin 4096) : Fin 12288 := ⟨(4096 * p + q.val) % 12288, Nat.mod_lt _ (by decide)⟩

section
variable (tg xm : Fin 1024 → Fin 12288 → EReal) (zm zl : Fin 1024 → Fin 64 → EReal)

/-! ## What is common to both: log p(z) per row, and the last lines -/

/-- log p(z)[i] = 0 + Σ_d ℓ(i,i,d), the host's sum with its initial value. -/
def lpz (i : Fin 1024) : EReal := cZero + ∑ d : Fin 64, llR (zm i d) (zl i d)

/-- The last lines of both programs:  −mean_i( log_px − (lpz − lqz) − 6·(lqz − lqp) − (lqp − lpz) ). -/
def tail (lpx : EReal) (lpz lqz lqp : Fin 1024 → EReal) : EReal :=
  - Ideal.div (cZero + ∑ i : Fin 1024, (((lpx - (lpz i - lqz i)) - c6 * (lqz i - lqp i)) - (lqp i - lpz i))) c1024

/-! ## The kernel's program -/

/-- One pixel block's lane sum of row `i`. -/
def blkSum (i : Fin 1024) (p : ℕ) : EReal := ∑ q : Fin 4096, bern (tg i (pidx p q)) (xm i (pidx p q))
/-- Row `i`'s sum as the first kernel accumulates it: zero, then the three blocks in order. -/
def rowSumK (i : Fin 1024) : EReal := ((cZero + blkSum tg xm i 0) + blkSum tg xm i 1) + blkSum tg xm i 2
def lpxK : EReal := Ideal.div (cZero + ∑ i : Fin 1024, rowSumK tg xm i) c1024

/-- Per (i, d): the rows the online sweep sees, block by block. -/
def rows1 (i : Fin 1024) (d : Fin 64) : ℕ → Fin 128 → EReal := fun k r => llK (zm i d) (zl (jidx k r) d)
/-- Per i: the same with the sum over d taken first (the kernel's lane sum: no initial value). -/
def rows2 (i : Fin 1024) : ℕ → Fin 128 → EReal := fun k r => ∑ d : Fin 64, llK (zm i d) (zl (jidx k r) d)
def m1K (i : Fin 1024) (d : Fin 64) : EReal := (onl (rows1 zm zl i d) 8).1
def t1K (i : Fin 1024) (d : Fin 64) : EReal := (onl (rows1 zm zl i d) 8).2
def m2K (i : Fin 1024) : EReal := (onl (rows2 zm zl i) 8).1
def t2K (i : Fin 1024) : EReal := (onl (rows2 zm zl i) 8).2
def lqzK (i : Fin 1024) : EReal := (Ideal.log (cZero + ∑ i' : Fin 1024, t2K zm zl i') + m2K zm zl i) - cLogNM
def lqpK (i : Fin 1024) : EReal :=
  c64 * (Ideal.log (cZero + ∑ i' : Fin 1024, ∑ d : Fin 64, t1K zm zl i' d) - cLogNM) + (cZero + ∑ d : Fin 64, m1K zm zl i d)
/-- The kernel program's result. -/
def KerOut : EReal := tail (lpxK tg xm) (lpz zm zl) (lqzK zm zl) (lqpK zm zl)

/-! ## The reference -/

def lpxR : EReal := Ideal.div (cZero + ∑ i : Fin 1024, (cZero + ∑ q : Fin 12288, bern (tg i q) (xm i q))) c1024
def m1R (i : Fin 1024) (d : Fin 64) : EReal := (Finset.univ : Finset (Fin 1024)).fold max cNegInf (fun j => llR (zm i d) (zl j d))
def sum1R : EReal := cZero + ∑ i : Fin 1024, ∑ j : Fin 1024, ∑ d : Fin 64, Ideal.exp (llR (zm i d) (zl j d) - m1R zm zl i d)
def lqpR (i : Fin 1024) : EReal := cZero + ∑ d : Fin 64, ((Ideal.log (sum1R zm zl) + m1R zm zl i d) - cLogNM)
/-- S(i,j): the host's sum over d with its initial value. -/
def sR (i j : Fin 1024) : EReal := cZero + ∑ d : Fin 64, llR (zm i d) (zl j d)
def m2R (i : Fin 1024) : EReal := (Finset.univ : Finset (Fin 1024)).fold max cNegInf (fun j => sR zm zl i j)
def sum2R : EReal := cZero + ∑ i : Fin 1024, ∑ j : Fin 1024, Ideal.exp (sR zm zl i j - m2R zm zl i)
def lqzR (i : Fin 1024) : EReal := (Ideal.log (sum2R zm zl) + m2R zm zl i) - cLogNM
/-- The reference's result. -/
def RefOut : EReal := tail (lpxR tg xm) (lpz zm zl) (lqzR zm zl) (lqpR zm zl)

/- THE LAW joining the two results (for real z_mean and z_log_var they are one extended real) is
   `Cert.Alg.KerOut_eq_RefOut`, stated and proved in the module AlgProof. -/

end

end Cert.Alg

end
-- ==== Proof.KI.Pay.lean ====
/-
  The two kernels' per-point arithmetic read at an index, at the extended reals: region 0's update adds a row's
  lane sum of the Bernoulli term; region 1's step is, per (row, lane), the scalar online step  stepM / stepT  on
  the row of Gaussian terms against the 128 keys of the block, and per row the same on the lane sums.
-/
import proofs.«153124_j71159018160768_1_alg».proof.Proof.KI.Pure
import proofs.«153124_j71159018160768_1_alg».proof.Proof.Alg
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Alg

/-! ## Re-laid values read at coordinates -/

section Relaid
variable {α : Type}

/-- A sum along the rows of an `[a, d]` block from the neutral accumulator, at row `i`: the finite sum of the row. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- A maximum along the rows of an `[a, d]` block, at row `i`: the fold of `max` over the row from the accumulator's value. -/
theorem rowMax_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin d)).fold max (Ideal.ofBits φ acc) (fun k => src (ix2 i k)) :=
  (Ideal.multiReduction_maximumf_single src acc h hφ hacc (ix1 i)).trans
    (congrArg ((Finset.univ : Finset (Fin d)).fold max (Ideal.ofBits φ acc)) (funext fun k => congrArg src (funext fun c => Fin.ext (by
      match c with
      | ⟨0, _⟩ => rfl
      | ⟨1, _⟩ => rfl))))

/-- A sum over the middle axis of an `[a, c, b]` block, at `(i, j)`: the finite sum over the middle coordinate. -/
theorem midSum_apply {φ : FTy} {a c b : ℕ} (src : FVec Ideal ⟨3, ![a, c, b]⟩ φ) (acc : BitVec φ.bits)
    (h : (⟨3, ![a, c, b]⟩ : Shape).Reduces [1] ⟨2, ![a, b]⟩) (hφ : FKind.Formats φ) (hacc : acc = FKind.add.neutral φ hφ)
    (i : Fin a) (j : Fin b) :
    multiReduction .add [1] ⟨2, ![a, b]⟩ src acc h hφ hacc (ix2 i j) = ∑ k : Fin c, src (ix3 i k j) :=
  (Ideal.multiReduction_add_single src acc h hφ hacc (ix2 i j)).trans
    (Finset.sum_congr rfl fun k _ => congrArg src (funext fun e => Fin.ext (by
      match e with
      | ⟨0, _⟩ => rfl
      | ⟨1, _⟩ => rfl
      | ⟨2, _⟩ => rfl)))

/-- A maximum over the middle axis of an `[a, c, b]` block, at `(i, j)`: the fold of `max` over the middle coordinate. -/
theorem midMax_apply {φ : FTy} {a c b : ℕ} (src : FVec Ideal ⟨3, ![a, c, b]⟩ φ) (acc : BitVec φ.bits)
    (h : (⟨3, ![a, c, b]⟩ : Shape).Reduces [1] ⟨2, ![a, b]⟩) (hφ : FKind.Formats φ) (hacc : acc = FKind.maximumf.neutral φ hφ)
    (i : Fin a) (j : Fin b) :
    multiReduction .maximumf [1] ⟨2, ![a, b]⟩ src acc h hφ hacc (ix2 i j)
      = (Finset.univ : Finset (Fin c)).fold max (Ideal.ofBits φ acc) (fun k => src (ix3 i k j)) :=
  (Ideal.multiReduction_maximumf_single src acc h hφ hacc (ix2 i j)).trans
    (congrArg ((Finset.univ : Finset (Fin c)).fold max (Ideal.ofBits φ acc)) (funext fun k => congrArg src (funext fun e => Fin.ext (by
      match e with
      | ⟨0, _⟩ => rfl
      | ⟨1, _⟩ => rfl
      | ⟨2, _⟩ => rfl))))

/-- A sum over the last axis of an `[a, c, b]` block, at `(i, k)`: the finite sum over the last coordinate. -/
theorem lastSum_apply {φ : FTy} {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (k : Fin c) :
    multiReduction .add [2] ⟨2, ![a, c]⟩ src acc h hφ hacc (ix2 i k) = ∑ j : Fin b, src (ix3 i k j) :=
  (Ideal.multiReduction_add_single src acc h hφ hacc (ix2 i k)).trans
    (Finset.sum_congr rfl fun j _ => congrArg src (funext fun e => Fin.ext (by
      match e with
      | ⟨0, _⟩ => rfl
      | ⟨1, _⟩ => rfl
      | ⟨2, _⟩ => rfl)))

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

/-- An `[a]` vector cast to the column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Relaid

/-! ## Region 0 -/

theorem zero0_apply (r : Fin 128) : zero0 (F := Ideal) (ix1 r) = cZero := rfl

theorem upd0_apply (x y : Vec Ideal S128x4096 .f32) (a : Vec Ideal S128 .f32) (r : Fin 128) :
    upd0 x y a (ix1 r) = a (ix1 r) + ∑ q : Fin 4096, bern (x (ix2 r q)) (y (ix2 r q)) := by
  unfold upd0 k0_pay2
  refine (congrArg₂ (fun u v : EReal => u + v) (congrFun (shapeCast_self a shapeCasts_S128_S128) (ix1 r))
    (rowSum_apply _ _ reduces_S128x4096_S128 (.inl rfl) rfl r)).trans ?_
  rfl

/-! ## Region 1 -/

theorem init1_m1 (r : Fin 128) (d : Fin 64) : (init1 (F := Ideal)).m1 (ix2 r d) = cNegInf := by
  show k1_pay9 (F := Ideal) (ix2 r d) = cNegInf
  unfold k1_pay9
  exact congrFun (shapeCast_self _ shapeCasts_S128x64_S128x64) (ix2 r d)
theorem init1_t1 (r : Fin 128) (d : Fin 64) : (init1 (F := Ideal)).t1 (ix2 r d) = cZero := by
  show k1_pay10 (F := Ideal) (ix2 r d) = cZero
  unfold k1_pay10
  exact congrFun (shapeCast_self _ shapeCasts_S128x64_S128x64) (ix2 r d)
theorem init1_m2 (r : Fin 128) : (init1 (F := Ideal)).m2 (ix2 r (0 : Fin 1)) = cNegInf := by
  show k1_pay11 (F := Ideal) (ix2 r (0 : Fin 1)) = cNegInf
  unfold k1_pay11
  exact congrFun (shapeCast_self _ shapeCasts_S128x1_S128x1) (ix2 r (0 : Fin 1))
theorem init1_t2 (r : Fin 128) : (init1 (F := Ideal)).t2 (ix2 r (0 : Fin 1)) = cZero := by
  show k1_pay12 (F := Ideal) (ix2 r (0 : Fin 1)) = cZero
  unfold k1_pay12
  exact congrFun (shapeCast_self _ shapeCasts_S128x1_S128x1) (ix2 r (0 : Fin 1))

/-- The row of Gaussian terms of query row `r`, lane `d`, against the block's 128 keys. -/
abbrev krow (zm zl : Vec Ideal S128x64 .f32) (r : Fin 128) (d : Fin 64) : Fin 128 → EReal :=
  fun r' => llK (zm (ix2 r d)) (zl (ix2 r' d))
/-- The row of their lane sums. -/
abbrev srow (zm zl : Vec Ideal S128x64 .f32) (r : Fin 128) : Fin 128 → EReal :=
  fun r' => ∑ d : Fin 64, llK (zm (ix2 r d)) (zl (ix2 r' d))

/-- The block of Gaussian terms at (query row, key row, lane). -/
theorem pay13_apply (zm zl : Vec Ideal S128x64 .f32) (a b : Fin 128) (d : Fin 64) :
    k1_pay13 zm zl (ix3 a b d) = llK (zm (ix2 a d)) (zl (ix2 b d)) := by
  unfold k1_pay13
  rw [subf_apply, mulf_apply, broadcastTo_1cb_acb_apply, broadcastTo_1cb_acb_apply, broadcastTo_a1b_acb_apply,
    shapeCast_ab_1ab_apply, shapeCast_ab_1ab_apply, mulf_apply, shapeCast_ab_a1b_apply]
  rfl

/-- The running maximum's step at (row, lane): the old maximum against the block's row maximum. -/
theorem pay14_apply (zm zl m : Vec Ideal S128x64 .f32) (a : Fin 128) (d : Fin 64) :
    k1_pay14 zm zl m (ix2 a d) = stepM (m (ix2 a d)) (krow zm zl a d) := by
  unfold k1_pay14
  exact congrArg (max (m (ix2 a d)))
    ((midMax_apply (k1_pay13 zm zl) 0xFF800000#32 reduces_S128x128x64_S128x64 (.inl rfl) rfl a d).trans
      (congrArg ((Finset.univ : Finset (Fin 128)).fold max cNegInf) (funext fun k => pay13_apply zm zl a k d)))

/-- The old sum rescaled to the new maximum, at (row, lane). -/
theorem pay15_apply (zm zl m m' t : Vec Ideal S128x64 .f32) (a : Fin 128) (d : Fin 64) :
    k1_pay15 zm zl m m' t (ix2 a d) = t (ix2 a d) * Ideal.exp (m' (ix2 a d) - k1_pay14 zm zl m (ix2 a d)) := rfl

/-- The block's contribution to the sum at (row, lane): the exponentials against the new maximum, summed over the keys. -/
theorem pay16_apply (zm zl m : Vec Ideal S128x64 .f32) (a : Fin 128) (d : Fin 64) :
    k1_pay16 zm zl m (ix2 a d)
      = ∑ b : Fin 128, Ideal.exp (k1_pay13 zm zl (ix3 a b d) - k1_pay14 zm zl m (ix2 a d)) := by
  unfold k1_pay16
  refine (midSum_apply _ 0x00000000#32 reduces_S128x128x64_S128x64 (.inl rfl) rfl a d).trans ?_
  refine Finset.sum_congr rfl fun b _ => ?_
  exact congrArg (fun u : EReal => Ideal.exp (k1_pay13 zm zl (ix3 a b d) - u))
    ((broadcastTo_a1b_acb_apply _ broadcasts_S128x1x64_S128x128x64 a b d).trans
      (shapeCast_ab_a1b_apply _ shapeCasts_S128x64_S128x1x64 a 0 d))

theorem step1_m1 (zm zl : Vec Ideal S128x64 .f32) (s : St Ideal) (r : Fin 128) (d : Fin 64) :
    (step1 zm zl s).m1 (ix2 r d) = stepM (s.m1 (ix2 r d)) (krow zm zl r d) := by
  show k1_pay2 (k1_pay14 zm zl s.m1) (ix2 r d) = _
  unfold k1_pay2
  exact (congrFun (shapeCast_self _ shapeCasts_S128x64_S128x64) (ix2 r d)).trans (pay14_apply zm zl s.m1 r d)
theorem step1_t1 (zm zl : Vec Ideal S128x64 .f32) (s : St Ideal) (r : Fin 128) (d : Fin 64) :
    (step1 zm zl s).t1 (ix2 r d) = stepT (s.m1 (ix2 r d)) (s.t1 (ix2 r d)) (krow zm zl r d) := by
  show k1_pay1 (k1_pay15 zm zl s.m1 s.m1 s.t1) (k1_pay16 zm zl s.m1) (ix2 r d) = _
  unfold k1_pay1
  refine (congrFun (shapeCast_self _ shapeCasts_S128x64_S128x64) (ix2 r d)).trans ?_
  refine (congrArg₂ (fun u v : EReal => u + v) (pay15_apply zm zl s.m1 s.m1 s.t1 r d) (pay16_apply zm zl s.m1 r d)).trans ?_
  have h14 := pay14_apply zm zl s.m1 r d
  exact congrArg₂ (fun (M' : EReal) (row : Fin 128 → EReal) =>
      s.t1 (ix2 r d) * Ideal.exp (s.m1 (ix2 r d) - M') + ∑ b : Fin 128, Ideal.exp (row b - M'))
    h14 (funext fun b => pay13_apply zm zl r b d)

/-- The block's lane sums at (query row, key row). -/
theorem pay3_apply (v : FVec Ideal S128x128x64 .f32) (a b : Fin 128) :
    k1_pay3 v (ix2 a b) = ∑ d : Fin 64, v (ix3 a b d) := by
  unfold k1_pay3
  exact lastSum_apply v 0x00000000#32 reduces_S128x128x64_S128x128 (.inl rfl) rfl a b

/-- The per-row running maximum's step: the old maximum against the maximum of the row's lane sums. -/
theorem pay4_apply (v : FVec Ideal S128x128x64 .f32) (m : Vec Ideal S128x1 .f32) (a : Fin 128) :
    k1_pay4 v m (ix2 a (0 : Fin 1))
      = max (m (ix2 a (0 : Fin 1))) ((Finset.univ : Finset (Fin 128)).fold max cNegInf (fun b => ∑ d : Fin 64, v (ix3 a b d))) := by
  unfold k1_pay4
  exact congrArg (max (m (ix2 a (0 : Fin 1))))
    ((shapeCast_a_a1_apply _ shapeCasts_S128_S128x1 a 0).trans
      ((rowMax_apply (k1_pay3 v) 0xFF800000#32 reduces_S128x128_S128 (.inl rfl) rfl a).trans
        (congrArg ((Finset.univ : Finset (Fin 128)).fold max cNegInf) (funext fun b => pay3_apply v a b))))

/-- With the block of Gaussian terms, that step is the scalar one on the row of lane sums. -/
theorem pay4_stepM (zm zl : Vec Ideal S128x64 .f32) (m : Vec Ideal S128x1 .f32) (r : Fin 128) :
    k1_pay4 (k1_pay13 zm zl) m (ix2 r (0 : Fin 1)) = stepM (m (ix2 r (0 : Fin 1))) (srow zm zl r) :=
  (pay4_apply (k1_pay13 zm zl) m r).trans
    (congrArg (fun row : Fin 128 → EReal => max (m (ix2 r (0 : Fin 1))) ((Finset.univ : Finset (Fin 128)).fold max cNegInf row))
      (funext fun b => Finset.sum_congr rfl fun d _ => pay13_apply zm zl r b d))

/-- The per-row rescaled sum's step. -/
theorem pay5_apply (v : FVec Ideal S128x128x64 .f32) (m m' t : Vec Ideal S128x1 .f32) (a : Fin 128) :
    k1_pay5 v m m' t (ix2 a (0 : Fin 1))
      = t (ix2 a (0 : Fin 1)) * Ideal.exp (m' (ix2 a (0 : Fin 1)) - k1_pay4 v m (ix2 a (0 : Fin 1)))
        + ∑ b : Fin 128, Ideal.exp ((∑ d : Fin 64, v (ix3 a b d)) - k1_pay4 v m (ix2 a (0 : Fin 1))) := by
  unfold k1_pay5
  refine (congrFun (shapeCast_self _ shapeCasts_S128x1_S128x1) (ix2 a (0 : Fin 1))).trans ?_
  refine congrArg (fun u : EReal => t (ix2 a (0 : Fin 1)) * Ideal.exp (m' (ix2 a (0 : Fin 1)) - k1_pay4 v m (ix2 a (0 : Fin 1))) + u) ?_
  refine (shapeCast_a_a1_apply _ shapeCasts_S128_S128x1 a 0).trans ?_
  refine (rowSum_apply _ 0x00000000#32 reduces_S128x128_S128 (.inl rfl) rfl a).trans ?_
  refine Finset.sum_congr rfl fun b _ => ?_
  exact congrArg₂ (fun u w : EReal => Ideal.exp (u - w)) (pay3_apply v a b)
    (broadcastTo_a1_ab_apply _ broadcasts_S128x1_S128x128 a b)

theorem step1_m2 (zm zl : Vec Ideal S128x64 .f32) (s : St Ideal) (r : Fin 128) :
    (step1 zm zl s).m2 (ix2 r (0 : Fin 1)) = stepM (s.m2 (ix2 r (0 : Fin 1))) (srow zm zl r) := by
  show k1_pay6 (k1_pay13 zm zl) s.m2 (ix2 r (0 : Fin 1)) = _
  unfold k1_pay6
  exact (congrFun (shapeCast_self _ shapeCasts_S128x1_S128x1) (ix2 r (0 : Fin 1))).trans (pay4_stepM zm zl s.m2 r)
theorem step1_t2 (zm zl : Vec Ideal S128x64 .f32) (s : St Ideal) (r : Fin 128) :
    (step1 zm zl s).t2 (ix2 r (0 : Fin 1)) = stepT (s.m2 (ix2 r (0 : Fin 1))) (s.t2 (ix2 r (0 : Fin 1))) (srow zm zl r) := by
  show k1_pay5 (k1_pay13 zm zl) s.m2 s.m2 s.t2 (ix2 r (0 : Fin 1)) = _
  refine (pay5_apply (k1_pay13 zm zl) s.m2 s.m2 s.t2 r).trans ?_
  exact congrArg₂ (fun (M' : EReal) (row : Fin 128 → EReal) =>
      s.t2 (ix2 r (0 : Fin 1)) * Ideal.exp (s.m2 (ix2 r (0 : Fin 1)) - M') + ∑ b : Fin 128, Ideal.exp (row b - M'))
    (pay4_stepM zm zl s.m2 r) (funext fun b => Finset.sum_congr rfl fun d _ => pay13_apply zm zl r b d)

theorem out1_4_apply (s : St Ideal) (r : Fin 128) : out1_4 s (ix1 r) = s.m2 (ix2 r (0 : Fin 1)) := by
  show k1_pay7 s.m2 (ix1 r) = _
  unfold k1_pay7
  exact shapeCast_a1_a_apply _ shapeCasts_S128x1_S128 r
theorem out1_5_apply (s : St Ideal) (r : Fin 128) : out1_5 s (ix1 r) = s.t2 (ix2 r (0 : Fin 1)) := by
  show k1_pay8 s.t2 (ix1 r) = _
  unfold k1_pay8
  exact shapeCast_a1_a_apply _ shapeCasts_S128x1_S128 r

end Cert.KernelIdeal.Hand

end
-- ==== Proof.KI.Fold.lean ====
/-
  The carried buffers at the end of a row block, as the scalar specification: after the third pixel block the
  output block holds each row's sum  rowSumK ; after the eighth key block the four scratch buffers hold  m1K, t1K
  per (row, lane) and  m2K, t2K  per row. By induction along the blocks, the windows' blocks read off the arrays
  (block (i, p) of a [1024, 12288] array starts at row 128·i, column 4096·p; block i of a [1024, 64] array at row 128·i).
-/
import proofs.«153124_j71159018160768_1_alg».proof.Proof.KI.Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Alg

section
variable (V : (c : Dev nD) → (b : Ref sig .tc) → Buf (Elt Ideal) ((c : Thread nD τ).loc b))

/-- The four arrays the regions stage, as functions of their coordinates. -/
def tgA (c : Dev nD) : Fin 1024 → Fin 12288 → EReal := fun i q => (V c main_arg0 : S1024x12288.Idx → EReal) (ix2 i q)
def xmA (c : Dev nD) : Fin 1024 → Fin 12288 → EReal := fun i q => (V c main_arg1 : S1024x12288.Idx → EReal) (ix2 i q)
def zmA (c : Dev nD) : Fin 1024 → Fin 64 → EReal := fun i d => (V c main_arg3 : S1024x64.Idx → EReal) (ix2 i d)
def zlA (c : Dev nD) : Fin 1024 → Fin 64 → EReal := fun i d => (V c main_arg4 : S1024x64.Idx → EReal) (ix2 i d)

/-- Row `r` of row block `i`. -/
def rowOf (i : Fin 8) (r : Fin 128) : Fin 1024 := ⟨128 * i.val + r.val, by have := i.isLt; have := r.isLt; omega⟩

/-! ## The windows' blocks read off the arrays -/

/-- The printed index maps over the first grid: both input windows sit at block (t / 3, t % 3). -/
theorem idx_facts0 : ∀ t : Fin cfg0.N, win0_0.index t (0 : Fin 2) = t.val / 3 ∧ win0_0.index t (1 : Fin 2) = t.val % 3
    ∧ win0_1.index t (0 : Fin 2) = t.val / 3 ∧ win0_1.index t (1 : Fin 2) = t.val % 3 :=
  (by decide +kernel : ∀ t : Fin grid0.N, _)

/-- Over the second grid: the query window sits at block (t / 8, 0), the key window at block (t % 8, 0). -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, _)

theorem tg0_apply (c : Dev nD) (t : Fin cfg0.N) (r : Fin 128) (q : Fin 4096) (i : Fin 1024) (p : Fin 12288)
    (hi : i.val = 128 * (t.val / 3) + r.val) (hp : p.val = 4096 * (t.val % 3) + q.val) :
    tg0 V c t (ix2 r q) = tgA V c i p := by
  obtain ⟨e0, e1, -, -⟩ := idx_facts0 t
  unfold tgA tg0 iblk0
  rw [View.read_apply]
  show V c main_arg0 _ = V c main_arg0 _
  congr 1
  funext a
  apply Fin.ext
  match a with
  | ⟨0, _⟩ => show win0_0.index t (0 : Fin 2) * 128 + 1 * r.val = i.val; omega
  | ⟨1, _⟩ => show win0_0.index t (1 : Fin 2) * 4096 + 1 * q.val = p.val; omega

theorem xm0_apply (c : Dev nD) (t : Fin cfg0.N) (r : Fin 128) (q : Fin 4096) (i : Fin 1024) (p : Fin 12288)
    (hi : i.val = 128 * (t.val / 3) + r.val) (hp : p.val = 4096 * (t.val % 3) + q.val) :
    xm0 V c t (ix2 r q) = xmA V c i p := by
  obtain ⟨-, -, e0, e1⟩ := idx_facts0 t
  unfold xmA xm0 iblk0
  rw [View.read_apply]
  show V c main_arg1 _ = V c main_arg1 _
  congr 1
  funext a
  apply Fin.ext
  match a with
  | ⟨0, _⟩ => show win0_1.index t (0 : Fin 2) * 128 + 1 * r.val = i.val; omega
  | ⟨1, _⟩ => show win0_1.index t (1 : Fin 2) * 4096 + 1 * q.val = p.val; omega

theorem zm1_apply (c : Dev nD) (t : Fin cfg1.N) (r : Fin 128) (d : Fin 64) (i : Fin 1024)
    (hi : i.val = 128 * (t.val / 8) + r.val) :
    zm1 V c t (ix2 r d) = zmA V c i d := by
  obtain ⟨e0, e1, -, -⟩ := idx_facts1 t
  unfold zmA zm1 iblk1
  rw [View.read_apply]
  show V c main_arg3 _ = V c main_arg3 _
  congr 1
  funext a
  apply Fin.ext
  match a with
  | ⟨0, _⟩ => show win1_0.index t (0 : Fin 2) * 128 + 1 * r.val = i.val; omega
  | ⟨1, _⟩ => show win1_0.index t (1 : Fin 2) * 64 + 1 * d.val = d.val; omega

theorem zl1_apply (c : Dev nD) (t : Fin cfg1.N) (r : Fin 128) (d : Fin 64) (i : Fin 1024)
    (hi : i.val = 128 * (t.val % 8) + r.val) :
    zl1 V c t (ix2 r d) = zlA V c i d := by
  obtain ⟨-, -, e0, e1⟩ := idx_facts1 t
  unfold zlA zl1 iblk1
  rw [View.read_apply]
  show V c main_arg4 _ = V c main_arg4 _
  congr 1
  funext a
  apply Fin.ext
  match a with
  | ⟨0, _⟩ => show win1_1.index t (0 : Fin 2) * 128 + 1 * r.val = i.val; omega
  | ⟨1, _⟩ => show win1_1.index t (1 : Fin 2) * 64 + 1 * d.val = d.val; omega

/-! ## Region 0: three pixel blocks -/

/-- One block's lane sum over the window's blocks is the specification's block sum. -/
theorem blk_sum (c : Dev nD) (i : Fin 8) (r : Fin 128) (p : ℕ) (hp : p < 3) (t : Fin cfg0.N) (ht : t.val = 3 * i.val + p) :
    (∑ q : Fin 4096, bern (tg0 V c t (ix2 r q)) (xm0 V c t (ix2 r q))) = blkSum (tgA V c) (xmA V c) (rowOf i r) p := by
  unfold blkSum
  refine Finset.sum_congr rfl fun q _ => ?_
  have hi : (rowOf i r).val = 128 * (t.val / 3) + r.val := by
    show 128 * i.val + r.val = _
    omega
  have hq : (pidx p q).val = 4096 * (t.val % 3) + q.val := by
    show (4096 * p + q.val) % 12288 = _
    have := q.isLt
    omega
  exact congrArg₂ bern (tg0_apply V c t r q _ _ hi hq) (xm0_apply V c t r q _ _ hi hq)

theorem acc0_block (c : Dev nD) (i : Fin 8) (r : Fin 128) (n : ℕ) (hn : n = 3 * i.val) (h2 : n + 1 + 1 < cfg0.N) :
    acc0 V c (n + 1 + 1) h2 (ix1 r) = rowSumK (tgA V c) (xmA V c) (rowOf i r) := by
  have h1 : n + 1 < cfg0.N := Nat.lt_of_succ_lt h2
  have h0 : n < cfg0.N := Nat.lt_of_succ_lt h1
  have s2 : acc0 V c (n + 1 + 1) h2 = upd0 (tg0 V c ⟨n + 1 + 1, h2⟩) (xm0 V c ⟨n + 1 + 1, h2⟩) (acc0 V c (n + 1) h1) :=
    acc0_next V c ⟨n + 1 + 1, h2⟩ (by show ¬ (n + 1 + 1) % 3 = 0; omega)
  have s1 : acc0 V c (n + 1) h1 = upd0 (tg0 V c ⟨n + 1, h1⟩) (xm0 V c ⟨n + 1, h1⟩) (acc0 V c n h0) :=
    acc0_next V c ⟨n + 1, h1⟩ (by show ¬ (n + 1) % 3 = 0; omega)
  have s0 : acc0 V c n h0 = upd0 (tg0 V c ⟨n, h0⟩) (xm0 V c ⟨n, h0⟩) zero0 :=
    acc0_first V c ⟨n, h0⟩ (by show n % 3 = 0; omega)
  have b0 := blk_sum V c i r 0 (by decide) ⟨n, h0⟩ (by show n = _; omega)
  have b1 := blk_sum V c i r 1 (by decide) ⟨n + 1, h1⟩ (by show n + 1 = _; omega)
  have b2 := blk_sum V c i r 2 (by decide) ⟨n + 1 + 1, h2⟩ (by show n + 1 + 1 = _; omega)
  unfold rowSumK
  refine (congrFun s2 (ix1 r)).trans ?_
  refine (upd0_apply (tg0 V c ⟨n + 1 + 1, h2⟩) (xm0 V c ⟨n + 1 + 1, h2⟩) (acc0 V c (n + 1) h1) r).trans ?_
  refine congrArg₂ (· + ·) ?_ b2
  refine (congrFun s1 (ix1 r)).trans ?_
  refine (upd0_apply (tg0 V c ⟨n + 1, h1⟩) (xm0 V c ⟨n + 1, h1⟩) (acc0 V c n h0) r).trans ?_
  refine congrArg₂ (· + ·) ?_ b1
  refine (congrFun s0 (ix1 r)).trans ?_
  refine (upd0_apply (tg0 V c ⟨n, h0⟩) (xm0 V c ⟨n, h0⟩) zero0 r).trans ?_
  exact congrArg₂ (· + ·) (zero0_apply r) b0

theorem acc0_last (c : Dev nD) (i : Fin 8) (r : Fin 128) (h : 3 * i.val + 2 < cfg0.N) :
    acc0 V c (3 * i.val + 2) h (ix1 r) = rowSumK (tgA V c) (xmA V c) (rowOf i r) :=
  acc0_block V c i r (3 * i.val) rfl h

/-! ## Region 1: eight key blocks -/

/-- The carried state at row `r` is the scalar sweep's after `k` key blocks. -/
def Swept (s : St Ideal) (zm zl : Fin 1024 → Fin 64 → EReal) (i : Fin 1024) (r : Fin 128) (k : ℕ) : Prop :=
  (∀ d : Fin 64, s.m1 (ix2 r d) = (onl (rows1 zm zl i d) k).1 ∧ s.t1 (ix2 r d) = (onl (rows1 zm zl i d) k).2)
    ∧ s.m2 (ix2 r (0 : Fin 1)) = (onl (rows2 zm zl i) k).1 ∧ s.t2 (ix2 r (0 : Fin 1)) = (onl (rows2 zm zl i) k).2

theorem swept_init (zm zl : Fin 1024 → Fin 64 → EReal) (i : Fin 1024) (r : Fin 128) : Swept init1 zm zl i r 0 :=
  ⟨fun d => ⟨init1_m1 r d, init1_t1 r d⟩, init1_m2 r, init1_t2 r⟩

theorem swept_step (zmB zlB : Vec Ideal S128x64 .f32) (s : St Ideal) (zm zl : Fin 1024 → Fin 64 → EReal) (i : Fin 1024)
    (r : Fin 128) (k : ℕ) (hs : Swept s zm zl i r k)
    (hk : ∀ d : Fin 64, krow zmB zlB r d = rows1 zm zl i d k) (hr : srow zmB zlB r = rows2 zm zl i k) :
    Swept (step1 zmB zlB s) zm zl i r (k + 1) := by
  refine ⟨fun d => ⟨?_, ?_⟩, ?_, ?_⟩
  · refine (step1_m1 zmB zlB s r d).trans ?_
    rw [(hs.1 d).1, hk d]
    rfl
  · refine (step1_t1 zmB zlB s r d).trans ?_
    rw [(hs.1 d).1, (hs.1 d).2, hk d]
    rfl
  · refine (step1_m2 zmB zlB s r).trans ?_
    rw [hs.2.1, hr]
    rfl
  · refine (step1_t2 zmB zlB s r).trans ?_
    rw [hs.2.1, hs.2.2, hr]
    rfl

/-- The rows the step sees at point 8·i + j are the specification's rows of key block j. -/
theorem krow_eq (c : Dev nD) (i : Fin 8) (r : Fin 128) (j : ℕ) (hj : j < 8) (t : Fin cfg1.N) (ht : t.val = 8 * i.val + j) (d : Fin 64) :
    krow (zm1 V c t) (zl1 V c t) r d = rows1 (zmA V c) (zlA V c) (rowOf i r) d j := by
  funext r'
  have hi : (rowOf i r).val = 128 * (t.val / 8) + r.val := by
    show 128 * i.val + r.val = _
    omega
  have hq : (jidx j r').val = 128 * (t.val % 8) + r'.val := by
    show (128 * j + r'.val) % 1024 = _
    have := r'.isLt
    omega
  exact congrArg₂ llK (zm1_apply V c t r d _ hi) (zl1_apply V c t r' d _ hq)

theorem srow_eq (c : Dev nD) (i : Fin 8) (r : Fin 128) (j : ℕ) (hj : j < 8) (t : Fin cfg1.N) (ht : t.val = 8 * i.val + j) :
    srow (zm1 V c t) (zl1 V c t) r = rows2 (zmA V c) (zlA V c) (rowOf i r) j := by
  funext r'
  exact Finset.sum_congr rfl fun d _ => congrFun (krow_eq V c i r j hj t ht d) r'

theorem st1_block (c : Dev nD) (i : Fin 8) (r : Fin 128) : ∀ (j : ℕ) (hj : j < 8) (n : ℕ) (hn : n = 8 * i.val + j) (h : n < cfg1.N),
    Swept (st1 V c n h) (zmA V c) (zlA V c) (rowOf i r) r (j + 1)
  | 0, hj, n, hn, h => by
    have s0 : st1 V c n h = step1 (zm1 V c ⟨n, h⟩) (zl1 V c ⟨n, h⟩) init1 :=
      st1_first V c ⟨n, h⟩ (by show n % 8 = 0; omega)
    rw [s0]
    exact swept_step (zm1 V c ⟨n, h⟩) (zl1 V c ⟨n, h⟩) init1 (zmA V c) (zlA V c) (rowOf i r) r 0 (swept_init _ _ _ r)
      (fun d => krow_eq V c i r 0 hj ⟨n, h⟩ hn d) (srow_eq V c i r 0 hj ⟨n, h⟩ hn)
  | j + 1, hj, n, hn, h => by
    obtain ⟨n', rfl⟩ : ∃ n', n = n' + 1 := ⟨8 * i.val + j, by omega⟩
    have h' : n' < cfg1.N := Nat.lt_of_succ_lt h
    have ih := st1_block c i r j (by omega) n' (by omega) h'
    have s1 : st1 V c (n' + 1) h = step1 (zm1 V c ⟨n' + 1, h⟩) (zl1 V c ⟨n' + 1, h⟩) (st1 V c n' h') :=
      st1_next V c ⟨n' + 1, h⟩ (by show ¬ (n' + 1) % 8 = 0; omega)
    rw [s1]
    exact swept_step (zm1 V c ⟨n' + 1, h⟩) (zl1 V c ⟨n' + 1, h⟩) (st1 V c n' h') (zmA V c) (zlA V c) (rowOf i r) r (j + 1) ih
      (fun d => krow_eq V c i r (j + 1) hj ⟨n' + 1, h⟩ hn d) (srow_eq V c i r (j + 1) hj ⟨n' + 1, h⟩ hn)

theorem st1_last_m1 (c : Dev nD) (i : Fin 8) (r : Fin 128) (d : Fin 64) (h : 8 * i.val + 7 < cfg1.N) :
    (st1 V c (8 * i.val + 7) h).m1 (ix2 r d) = m1K (zmA V c) (zlA V c) (rowOf i r) d :=
  ((st1_block V c i r 7 (by decide) _ rfl h).1 d).1
theorem st1_last_t1 (c : Dev nD) (i : Fin 8) (r : Fin 128) (d : Fin 64) (h : 8 * i.val + 7 < cfg1.N) :
    (st1 V c (8 * i.val + 7) h).t1 (ix2 r d) = t1K (zmA V c) (zlA V c) (rowOf i r) d :=
  ((st1_block V c i r 7 (by decide) _ rfl h).1 d).2
theorem st1_last_m2 (c : Dev nD) (i : Fin 8) (r : Fin 128) (h : 8 * i.val + 7 < cfg1.N) :
    (st1 V c (8 * i.val + 7) h).m2 (ix2 r (0 : Fin 1)) = m2K (zmA V c) (zlA V c) (rowOf i r) :=
  (st1_block V c i r 7 (by decide) _ rfl h).2.1
theorem st1_last_t2 (c : Dev nD) (i : Fin 8) (r : Fin 128) (h : 8 * i.val + 7 < cfg1.N) :
    (st1 V c (8 * i.val + 7) h).t2 (ix2 r (0 : Fin 1)) = t2K (zmA V c) (zlA V c) (rowOf i r) :=
  (st1_block V c i r 7 (by decide) _ rfl h).2.2

end

end Cert.KernelIdeal.Hand

end
-- ==== Proof.KI.Arr.lean ====
/-
  The output arrays after the runs, row block by row block: the write-backs of an output window are at the last
  point of each row block and their blocks are pairwise disjoint (block i of the array: rows 128·i … 128·i+127),
  so under row block i the array holds what that point wrote back: the accumulated row sums, respectively the
  four scratch buffers copied out.
-/
import proofs.«153124_j71159018160768_1_alg».proof.Proof.KI.Dat0
import proofs.«153124_j71159018160768_1_alg».proof.Proof.KI.Dat1
import proofs.«153124_j71159018160768_1_alg».proof.Proof.KI.Fold
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Alg

/-! ## Region 0 -/

section
variable (V : (c : Dev nD) → (b : Ref sig .tc) → Buf (Elt Ideal) ((c : Thread nD τ).loc b))

/-- Region 0's output window moves with the row block: its block index at point t is t / 3. -/
theorem idx0_2 : ∀ t : Fin cfg0.N, win0_2.index t (0 : Fin 1) = t.val / 3 :=
  (by decide +kernel : ∀ t : Fin grid0.N, win0_2.index t (0 : Fin 1) = t.val / 3)

/-- Two distinct write-back points of region 0 are in different row blocks, so their blocks share no index. -/
theorem disj0_2 : ∀ t t' : Fin cfg0.N, (cfg0.win 2).flush t = true → (cfg0.win 2).flush t' = true → t ≠ t' →
    Disjoint ((cfg0.win 2).blk t).view.set ((cfg0.win 2).blk t').view.set := by
  intro t t' hf hf' hne
  refine (cfg0.win 2).disjoint_blk fun hh => hne ?_
  have h0 : win0_2.index t (0 : Fin 1) = win0_2.index t' (0 : Fin 1) := congrFun hh (0 : Fin 1)
  have e := idx0_2 t
  have e' := idx0_2 t'
  have m := (flush0_2 t).mp hf
  have m' := (flush0_2 t').mp hf'
  apply Fin.ext
  omega

/-- Row r of the block written back at the last point of row block i is row 128·i + r of the array. -/
theorem emb0_2 (i : Fin 8) (r : Fin 128) (h : 3 * i.val + 2 < cfg0.N) :
    ((cfg0.win 2).blk ⟨3 * i.val + 2, h⟩).view.emb (ix1 r) = (ix1 (rowOf i r) : S1024.Idx) := by
  funext a; apply Fin.ext
  match a with
  | ⟨0, _⟩ =>
    show win0_2.index ⟨3 * i.val + 2, h⟩ (0 : Fin 1) * 128 + 1 * r.val = 128 * i.val + r.val
    rw [idx0_2]
    show (3 * i.val + 2) / 3 * 128 + 1 * r.val = 128 * i.val + r.val
    omega

theorem arrAt0_2 (c : Dev nD) (i : Fin 8) (r : Fin 128) (h : 3 * i.val + 2 < cfg0.N) :
    ((dat0 V c).arrAt 2 cfg0.N : S1024.Idx → EReal) (ix1 (rowOf i r)) = acc0 V c (3 * i.val + 2) h (ix1 r) := by
  have hf : (cfg0.win 2).flush ⟨3 * i.val + 2, h⟩ = true :=
    (flush0_2 _).mpr (show (3 * i.val + 2) % 3 = 2 by omega)
  have key := (dat0 V c).arrAt_emb_eq_flushed 2 disj0_2 ⟨3 * i.val + 2, h⟩ hf (ix1 r)
  rw [cast_eq] at key
  refine (congrArg ((dat0 V c).arrAt 2 cfg0.N) (emb0_2 i r h)).symm.trans (key.trans ?_)
  exact congrFun (after0_2 V c ⟨3 * i.val + 2, h⟩) (ix1 r)

/-! ## Region 1 -/

/-- Region 1's output window 2 moves with the query block: its block index at point t is t / 8 on the rows and 0 on the lanes. -/
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- Two distinct write-back points of window 2 are in different query blocks, so their blocks share no index. -/
theorem disj1_2 : ∀ t t' : Fin cfg1.N, (cfg1.win 2).flush t = true → (cfg1.win 2).flush t' = true → t ≠ t' →
    Disjoint ((cfg1.win 2).blk t).view.set ((cfg1.win 2).blk t').view.set := by
  intro t t' hf hf' hne
  refine (cfg1.win 2).disjoint_blk fun hh => hne ?_
  have h0 : win1_2.index t (0 : Fin 2) = win1_2.index t' (0 : Fin 2) := congrFun hh (0 : Fin 2)
  have e := (idx1_2 t).1
  have e' := (idx1_2 t').1
  have m := (flush1_2 t).mp hf
  have m' := (flush1_2 t').mp hf'
  apply Fin.ext
  omega

/-- Element (r, d) of window 2's block written back at the last point of query block i is element (128·i + r, d) of the array. -/
theorem emb1_2 (i : Fin 8) (r : Fin 128) (d : Fin 64) (h : 8 * i.val + 7 < cfg1.N) :
    ((cfg1.win 2).blk ⟨8 * i.val + 7, h⟩).view.emb (ix2 r d) = (ix2 (rowOf i r) d : S1024x64.Idx) := by
  funext a; apply Fin.ext
  match a with
  | ⟨0, _⟩ =>
    show win1_2.index ⟨8 * i.val + 7, h⟩ (0 : Fin 2) * 128 + 1 * r.val = 128 * i.val + r.val
    rw [(idx1_2 _).1]
    show (8 * i.val + 7) / 8 * 128 + 1 * r.val = 128 * i.val + r.val
    omega
  | ⟨1, _⟩ =>
    show win1_2.index ⟨8 * i.val + 7, h⟩ (1 : Fin 2) * 64 + 1 * d.val = d.val
    rw [(idx1_2 _).2]
    omega

theorem arrAt1_2 (c : Dev nD) (i : Fin 8) (r : Fin 128) (d : Fin 64) (h : 8 * i.val + 7 < cfg1.N) :
    ((dat1 V c).arrAt 2 cfg1.N : S1024x64.Idx → EReal) (ix2 (rowOf i r) d) = (st1 V c (8 * i.val + 7) h).m1 (ix2 r d) := by
  have hf : (cfg1.win 2).flush ⟨8 * i.val + 7, h⟩ = true :=
    (flush1_2 _).mpr (show (8 * i.val + 7) % 8 = 7 by omega)
  have key := (dat1 V c).arrAt_emb_eq_flushed 2 disj1_2 ⟨8 * i.val + 7, h⟩ hf (ix2 r d)
  rw [cast_eq] at key
  refine (congrArg ((dat1 V c).arrAt 2 cfg1.N) (emb1_2 i r d h)).symm.trans (key.trans ?_)
  exact (congrFun (after1_2 V c ⟨8 * i.val + 7, h⟩) (ix2 r d)).trans rfl

/-- Region 1's output window 3 moves with the query block: its block index at point t is t / 8 on the rows and 0 on the lanes. -/
theorem idx1_3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

/-- Two distinct write-back points of window 3 are in different query blocks, so their blocks share no index. -/
theorem disj1_3 : ∀ t t' : Fin cfg1.N, (cfg1.win 3).flush t = true → (cfg1.win 3).flush t' = true → t ≠ t' →
    Disjoint ((cfg1.win 3).blk t).view.set ((cfg1.win 3).blk t').view.set := by
  intro t t' hf hf' hne
  refine (cfg1.win 3).disjoint_blk fun hh => hne ?_
  have h0 : win1_3.index t (0 : Fin 2) = win1_3.index t' (0 : Fin 2) := congrFun hh (0 : Fin 2)
  have e := (idx1_3 t).1
  have e' := (idx1_3 t').1
  have m := (flush1_3 t).mp hf
  have m' := (flush1_3 t').mp hf'
  apply Fin.ext
  omega

/-- Element (r, d) of window 3's block written back at the last point of query block i is element (128·i + r, d) of the array. -/
theorem emb1_3 (i : Fin 8) (r : Fin 128) (d : Fin 64) (h : 8 * i.val + 7 < cfg1.N) :
    ((cfg1.win 3).blk ⟨8 * i.val + 7, h⟩).view.emb (ix2 r d) = (ix2 (rowOf i r) d : S1024x64.Idx) := by
  funext a; apply Fin.ext
  match a with
  | ⟨0, _⟩ =>
    show win1_3.index ⟨8 * i.val + 7, h⟩ (0 : Fin 2) * 128 + 1 * r.val = 128 * i.val + r.val
    rw [(idx1_3 _).1]
    show (8 * i.val + 7) / 8 * 128 + 1 * r.val = 128 * i.val + r.val
    omega
  | ⟨1, _⟩ =>
    show win1_3.index ⟨8 * i.val + 7, h⟩ (1 : Fin 2) * 64 + 1 * d.val = d.val
    rw [(idx1_3 _).2]
    omega

theorem arrAt1_3 (c : Dev nD) (i : Fin 8) (r : Fin 128) (d : Fin 64) (h : 8 * i.val + 7 < cfg1.N) :
    ((dat1 V c).arrAt 3 cfg1.N : S1024x64.Idx → EReal) (ix2 (rowOf i r) d) = (st1 V c (8 * i.val + 7) h).t1 (ix2 r d) := by
  have hf : (cfg1.win 3).flush ⟨8 * i.val + 7, h⟩ = true :=
    (flush1_3 _).mpr (show (8 * i.val + 7) % 8 = 7 by omega)
  have key := (dat1 V c).arrAt_emb_eq_flushed 3 disj1_3 ⟨8 * i.val + 7, h⟩ hf (ix2 r d)
  rw [cast_eq] at key
  refine (congrArg ((dat1 V c).arrAt 3 cfg1.N) (emb1_3 i r d h)).symm.trans (key.trans ?_)
  exact (congrFun (after1_3 V c ⟨8 * i.val + 7, h⟩) (ix2 r d)).trans rfl

/-- Region 1's output window 4 moves with the query block: its block index at point t is t / 8. -/
theorem idx1_4 : ∀ t : Fin cfg1.N, win1_4.index t (0 : Fin 1) = t.val / 8 :=
  (by decide +kernel : ∀ t : Fin grid1.N, win1_4.index t (0 : Fin 1) = t.val / 8)

/-- Two distinct write-back points of window 4 are in different query blocks, so their blocks share no index. -/
theorem disj1_4 : ∀ t t' : Fin cfg1.N, (cfg1.win 4).flush t = true → (cfg1.win 4).flush t' = true → t ≠ t' →
    Disjoint ((cfg1.win 4).blk t).view.set ((cfg1.win 4).blk t').view.set := by
  intro t t' hf hf' hne
  refine (cfg1.win 4).disjoint_blk fun hh => hne ?_
  have h0 : win1_4.index t (0 : Fin 1) = win1_4.index t' (0 : Fin 1) := congrFun hh (0 : Fin 1)
  have e := idx1_4 t
  have e' := idx1_4 t'
  have m := (flush1_4 t).mp hf
  have m' := (flush1_4 t').mp hf'
  apply Fin.ext
  omega

/-- Row r of window 4's block written back at the last point of query block i is row 128·i + r of the array. -/
theorem emb1_4 (i : Fin 8) (r : Fin 128) (h : 8 * i.val + 7 < cfg1.N) :
    ((cfg1.win 4).blk ⟨8 * i.val + 7, h⟩).view.emb (ix1 r) = (ix1 (rowOf i r) : S1024.Idx) := by
  funext a; apply Fin.ext
  match a with
  | ⟨0, _⟩ =>
    show win1_4.index ⟨8 * i.val + 7, h⟩ (0 : Fin 1) * 128 + 1 * r.val = 128 * i.val + r.val
    rw [idx1_4]
    show (8 * i.val + 7) / 8 * 128 + 1 * r.val = 128 * i.val + r.val
    omega

theorem arrAt1_4 (c : Dev nD) (i : Fin 8) (r : Fin 128) (h : 8 * i.val + 7 < cfg1.N) :
    ((dat1 V c).arrAt 4 cfg1.N : S1024.Idx → EReal) (ix1 (rowOf i r)) = (st1 V c (8 * i.val + 7) h).m2 (ix2 r (0 : Fin 1)) := by
  have hf : (cfg1.win 4).flush ⟨8 * i.val + 7, h⟩ = true :=
    (flush1_4 _).mpr (show (8 * i.val + 7) % 8 = 7 by omega)
  have key := (dat1 V c).arrAt_emb_eq_flushed 4 disj1_4 ⟨8 * i.val + 7, h⟩ hf (ix1 r)
  rw [cast_eq] at key
  refine (congrArg ((dat1 V c).arrAt 4 cfg1.N) (emb1_4 i r h)).symm.trans (key.trans ?_)
  exact (congrFun (after1_4 V c ⟨8 * i.val + 7, h⟩) (ix1 r)).trans (out1_4_apply _ r)

/-- Region 1's output window 5 moves with the query block: its block index at point t is t / 8. -/
theorem idx1_5 : ∀ t : Fin cfg1.N, win1_5.index t (0 : Fin 1) = t.val / 8 :=
  (by decide +kernel : ∀ t : Fin grid1.N, win1_5.index t (0 : Fin 1) = t.val / 8)

/-- Two distinct write-back points of window 5 are in different query blocks, so their blocks share no index. -/
theorem disj1_5 : ∀ t t' : Fin cfg1.N, (cfg1.win 5).flush t = true → (cfg1.win 5).flush t' = true → t ≠ t' →
    Disjoint ((cfg1.win 5).blk t).view.set ((cfg1.win 5).blk t').view.set := by
  intro t t' hf hf' hne
  refine (cfg1.win 5).disjoint_blk fun hh => hne ?_
  have h0 : win1_5.index t (0 : Fin 1) = win1_5.index t' (0 : Fin 1) := congrFun hh (0 : Fin 1)
  have e := idx1_5 t
  have e' := idx1_5 t'
  have m := (flush1_5 t).mp hf
  have m' := (flush1_5 t').mp hf'
  apply Fin.ext
  omega

/-- Row r of window 5's block written back at the last point of query block i is row 128·i + r of the array. -/
theorem emb1_5 (i : Fin 8) (r : Fin 128) (h : 8 * i.val + 7 < cfg1.N) :
    ((cfg1.win 5).blk ⟨8 * i.val + 7, h⟩).view.emb (ix1 r) = (ix1 (rowOf i r) : S1024.Idx) := by
  funext a; apply Fin.ext
  match a with
  | ⟨0, _⟩ =>
    show win1_5.index ⟨8 * i.val + 7, h⟩ (0 : Fin 1) * 128 + 1 * r.val = 128 * i.val + r.val
    rw [idx1_5]
    show (8 * i.val + 7) / 8 * 128 + 1 * r.val = 128 * i.val + r.val
    omega

theorem arrAt1_5 (c : Dev nD) (i : Fin 8) (r : Fin 128) (h : 8 * i.val + 7 < cfg1.N) :
    ((dat1 V c).arrAt 5 cfg1.N : S1024.Idx → EReal) (ix1 (rowOf i r)) = (st1 V c (8 * i.val + 7) h).t2 (ix2 r (0 : Fin 1)) := by
  have hf : (cfg1.win 5).flush ⟨8 * i.val + 7, h⟩ = true :=
    (flush1_5 _).mpr (show (8 * i.val + 7) % 8 = 7 by omega)
  have key := (dat1 V c).arrAt_emb_eq_flushed 5 disj1_5 ⟨8 * i.val + 7, h⟩ hf (ix1 r)
  rw [cast_eq] at key
  refine (congrArg ((dat1 V c).arrAt 5 cfg1.N) (emb1_5 i r h)).symm.trans (key.trans ?_)
  exact (congrFun (after1_5 V c ⟨8 * i.val + 7, h⟩) (ix1 r)).trans (out1_5_apply _ r)

end

end Cert.KernelIdeal.Hand

end
-- ==== Proof.KI.Tail.lean ====
/-
  The kernel program's two host stretches read at an index, from ANY valuation of the buffers they start from:
  the first leaves the mean of region 0's row sums (log p(x|z)) and log p(z) per row; the second combines the four
  arrays region 1 leaves with those into the result. In the scalar forms of the specification.
-/
import proofs.«153124_j71159018160768_1_alg».proof.Proof.Gen.KernelIdeal.Launch
import proofs.«153124_j71159018160768_1_alg».proof.Proof.Alg
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Alg
open scoped BigOperators

/-! ## Sums and broadcasts of the program's shapes, read by coordinates -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of a vector of 1024 into a scalar: the initial value plus the sum over the coordinate. -/
theorem reduceAdd_vec (y : FVec Ideal S1024 .f32) (c : FVec Ideal S_ .f32) (k : S_.Idx) :
    Host.reduceAdd y c reducesTo_S1024_S_d0 h_S_ k = c (Shape.Idx.first h_S_) + ∑ i : Fin 1024, y (ix1 i) := by
  simp only [Host.reduceAdd, Ideal.hostReduceAdd_def]
  rw [Ideal.hostReduceAdd_total reducesTo_S1024_S_d0 (fun b => b.elim0) y _ k, sum_idx1]

/-- The host's sum of a 1024 × 64 array into a scalar: the initial value plus the double sum over the coordinates. -/
theorem reduceAdd_all (y : FVec Ideal S1024x64 .f32) (c : FVec Ideal S_ .f32) (k : S_.Idx) :
    Host.reduceAdd y c reducesTo_S1024x64_S_d0_1 h_S_ k = c (Shape.Idx.first h_S_) + ∑ i : Fin 1024, ∑ d : Fin 64, y (ix2 i d) := by
  simp only [Host.reduceAdd, Ideal.hostReduceAdd_def]
  rw [Ideal.hostReduceAdd_total reducesTo_S1024x64_S_d0_1 (fun b => b.elim0) y _ k, sum_idx2]

/-- The host's sum of a 1024 × 64 array along its rows: at row i the initial value plus the sum over d. -/
theorem reduceAdd_row (y : FVec Ideal S1024x64 .f32) (c : FVec Ideal S_ .f32) (i : Fin 1024) :
    Host.reduceAdd y c reducesTo_S1024x64_S1024_d1 h_S_ (ix1 i) = c (Shape.Idx.first h_S_) + ∑ d : Fin 64, y (ix2 i d) := by
  simp only [Host.reduceAdd, Ideal.hostReduceAdd_def]
  rw [Ideal.hostReduceAdd_single reducesTo_S1024x64_S1024_d1 (by decide)]
  refine congrArg (_ + ·) (Finset.sum_congr rfl fun d _ => ?_)
  exact congrArg y (funext fun a => Fin.ext (by match a with | ⟨0, _⟩ => rfl | ⟨1, _⟩ => rfl))

/-- A scalar broadcast to a vector of 1024 reads the scalar everywhere. -/
theorem bcast_vec (dims : Fin S_.rank → Fin S1024.rank) (h : S_.BroadcastsInDim S1024 dims) (v : FVec Ideal S_ .f32) (j : S1024.Idx) :
    broadcastInDim S1024 dims h v j = v ix0 :=
  broadcastInDim_apply dims h v j ix0 (fun a => a.elim0)

/-- A scalar broadcast to a 1024 × 64 array reads the scalar everywhere. -/
theorem bcast_mat (dims : Fin S_.rank → Fin S1024x64.rank) (h : S_.BroadcastsInDim S1024x64 dims) (v : FVec Ideal S_ .f32) (j : S1024x64.Idx) :
    broadcastInDim S1024x64 dims h v j = v ix0 :=
  broadcastInDim_apply dims h v j ix0 (fun a => a.elim0)

/-- The host's elementwise operations at an index, at the ideal values. -/
theorem hdivf_at {s : Shape} {φ : FTy} (a b : FVec Ideal s φ) (i : s.Idx) : Host.divf a b i = Ideal.div (a i) (b i) := rfl
theorem hexp_at {s : Shape} {φ : FTy} (a : FVec Ideal s φ) (i : s.Idx) : Host.exp a i = Ideal.exp (a i) := rfl
theorem hlog_at {s : Shape} {φ : FTy} (a : FVec Ideal s φ) (i : s.Idx) : Host.log a i = Ideal.log (a i) := rfl
theorem hnegf_at {s : Shape} {φ : FTy} (a : FVec Ideal s φ) (i : s.Idx) : Host.negf a i = -(a i) := rfl

/-! ## The buffers a stretch starts from, at their literal types -/

section
variable (W : Valuation τ sig (Elt Ideal))

abbrev rowSums : FVec Ideal S1024 .f32 := W (Proc.devRef .tc main_v0)
abbrev lpxBuf : FVec Ideal S_ .f32 := W (Proc.devRef .tc main_v2)
abbrev lpzBuf : FVec Ideal S1024 .f32 := W (Proc.devRef .tc main_v13)
abbrev zmBuf : FVec Ideal S1024x64 .f32 := W (Proc.devRef .tc main_arg3)
abbrev zlBuf : FVec Ideal S1024x64 .f32 := W (Proc.devRef .tc main_arg4)
abbrev m1Buf : FVec Ideal S1024x64 .f32 := W (Proc.devRef .tc main_v14_0)
abbrev t1Buf : FVec Ideal S1024x64 .f32 := W (Proc.devRef .tc main_v14_1)
abbrev m2Buf : FVec Ideal S1024 .f32 := W (Proc.devRef .tc main_v14_2)
abbrev t2Buf : FVec Ideal S1024 .f32 := W (Proc.devRef .tc main_v14_3)

end

/-! ## The first stretch: the mean of the row sums, and log p(z) -/

/-- The mean of a vector of 1024, as the program computes it: the sum from zero, divided by 1024. -/
def meanT (v0 : FVec Ideal S1024 .f32) : FVec Ideal S_ .f32 :=
  Host.divf (Host.reduceAdd v0 (constant (F := Ideal) S_ .f32 0x00000000#32) reducesTo_S1024_S_d0 h_S_)
    (constant (F := Ideal) S_ .f32 0x44800000#32)

theorem meanT_at (v0 : FVec Ideal S1024 .f32) (k : S_.Idx) :
    meanT v0 k = Ideal.div (cZero + ∑ i : Fin 1024, v0 (ix1 i)) c1024 := by
  unfold meanT
  rw [hdivf_at, reduceAdd_vec]
  rfl

/-- The Gaussian term at every (i, d), mean and log-variance of the same row, as the program computes it. -/
def llT (a3 a4 : FVec Ideal S1024x64 .f32) : FVec Ideal S1024x64 .f32 :=
  mulf (broadcastInDim S1024x64 ![] bcast_S_S1024x64 (constant (F := Ideal) S_ .f32 0xBF000000#32))
    (addf (addf a4 (Host.divf (mulf a3 a3) (addf (Host.exp a4)
        (broadcastInDim S1024x64 ![] bcast_S_S1024x64 (constant (F := Ideal) S_ .f32 0x33D6BF95#32)))))
      (broadcastInDim S1024x64 ![] bcast_S_S1024x64 (constant (F := Ideal) S_ .f32 0x3FEB3F8E#32)))

theorem llT_at (a3 a4 : FVec Ideal S1024x64 .f32) (j : S1024x64.Idx) : llT a3 a4 j = llR (a3 j) (a4 j) := by
  unfold llT
  simp only [mulf_apply, addf_apply, hdivf_at, hexp_at, bcast_mat, constant_apply]
  rfl

/-- log p(z) per row, as the program computes it: the row sum of the Gaussian terms, from zero. -/
def lpzT (a3 a4 : FVec Ideal S1024x64 .f32) : FVec Ideal S1024 .f32 :=
  Host.reduceAdd (llT a3 a4) (constant (F := Ideal) S_ .f32 0x00000000#32) reducesTo_S1024x64_S1024_d1 h_S_

theorem lpzT_at (a3 a4 : FVec Ideal S1024x64 .f32) (i : Fin 1024) :
    lpzT a3 a4 (ix1 i) = lpz (fun i d => a3 (ix2 i d)) (fun i d => a4 (ix2 i d)) i := by
  unfold lpzT
  rw [reduceAdd_row]
  simp only [llT_at]
  rfl

section
variable (W : Valuation τ sig (Elt Ideal))

theorem after1_v2_eq :
    (StableHlo.after hostOps1 W (Proc.devRef .tc main_v2) : FVec Ideal S_ .f32) = meanT (rowSums W) := by
  after_results
  rfl

theorem after1_v13_eq :
    (StableHlo.after hostOps1 W (Proc.devRef .tc main_v13) : FVec Ideal S1024 .f32) = lpzT (zmBuf W) (zlBuf W) := by
  after_results
  rfl

/-- (1) After the first stretch `main_v2` holds the mean of the row sums the stretch started from. -/
theorem after1_v2 :
    (StableHlo.after hostOps1 W (Proc.devRef .tc main_v2) : FVec Ideal S_ .f32) ix0
      = Ideal.div (cZero + ∑ i : Fin 1024, rowSums W (ix1 i)) c1024 := by
  rw [after1_v2_eq, meanT_at]

/-- (2) After the first stretch `main_v13` holds log p(z) per row, of the two latent arguments the stretch started from. -/
theorem after1_v13 (i : Fin 1024) :
    (StableHlo.after hostOps1 W (Proc.devRef .tc main_v13) : FVec Ideal S1024 .f32) (ix1 i)
      = lpz (fun i d => zmBuf W (ix2 i d)) (fun i d => zlBuf W (ix2 i d)) i := by
  rw [after1_v13_eq, lpzT_at]

end

/-! ## The second stretch: the result from region 1's four arrays, log p(x|z) and log p(z) -/

/-- log q(z) per row from the running maximum m₂ and the rescaled sum t₂: (log Σ t₂ + m₂) − log(N·M). -/
def lqzT (m2 t2 : FVec Ideal S1024 .f32) : FVec Ideal S1024 .f32 :=
  subf (addf (broadcastInDim S1024 ![] bcast_S_S1024
        (Host.log (Host.reduceAdd t2 (constant (F := Ideal) S_ .f32 0x00000000#32) reducesTo_S1024_S_d0 h_S_))) m2)
    (broadcastInDim S1024 ![] bcast_S_S1024 (constant (F := Ideal) S_ .f32 0x41A3899D#32))

theorem lqzT_at (m2 t2 : FVec Ideal S1024 .f32) (i : Fin 1024) :
    lqzT m2 t2 (ix1 i) = (Ideal.log (cZero + ∑ i' : Fin 1024, t2 (ix1 i')) + m2 (ix1 i)) - cLogNM := by
  unfold lqzT
  simp only [subf_apply, addf_apply, bcast_vec, hlog_at, reduceAdd_vec, constant_apply]

/-- The product-of-marginals term per row from m₁ and t₁: 64·(log Σ t₁ − log(N·M)) + Σ_d m₁. -/
def lqpT (m1 t1 : FVec Ideal S1024x64 .f32) : FVec Ideal S1024 .f32 :=
  addf (broadcastInDim S1024 ![] bcast_S_S1024 (mulf (constant (F := Ideal) S_ .f32 0x42800000#32)
      (subf (Host.log (Host.reduceAdd t1 (constant (F := Ideal) S_ .f32 0x00000000#32) reducesTo_S1024x64_S_d0_1 h_S_))
        (constant (F := Ideal) S_ .f32 0x41A3899D#32))))
    (Host.reduceAdd m1 (constant (F := Ideal) S_ .f32 0x00000000#32) reducesTo_S1024x64_S1024_d1 h_S_)

theorem lqpT_at (m1 t1 : FVec Ideal S1024x64 .f32) (i : Fin 1024) :
    lqpT m1 t1 (ix1 i)
      = c64 * (Ideal.log (cZero + ∑ i' : Fin 1024, ∑ d : Fin 64, t1 (ix2 i' d)) - cLogNM) + (cZero + ∑ d : Fin 64, m1 (ix2 i d)) := by
  unfold lqpT
  simp only [addf_apply, bcast_vec, mulf_apply, subf_apply, hlog_at, reduceAdd_all, reduceAdd_row, constant_apply]

/-- The last lines: minus the mean over the rows of  lpx − (lpz − lqz) − 6·(lqz − lqp) − (lqp − lpz). -/
def tailT (lpx : FVec Ideal S_ .f32) (lpz lqz lqp : FVec Ideal S1024 .f32) : FVec Ideal S_ .f32 :=
  Host.negf (Host.divf (Host.reduceAdd
      (subf (subf (subf (broadcastInDim S1024 ![] bcast_S_S1024 lpx) (subf lpz lqz))
          (mulf (broadcastInDim S1024 ![] bcast_S_S1024 (constant (F := Ideal) S_ .f32 0x40C00000#32)) (subf lqz lqp)))
        (subf lqp lpz))
      (constant (F := Ideal) S_ .f32 0x00000000#32) reducesTo_S1024_S_d0 h_S_)
    (constant (F := Ideal) S_ .f32 0x44800000#32))

theorem tailT_at (lpx : FVec Ideal S_ .f32) (lpz lqz lqp : FVec Ideal S1024 .f32) (k : S_.Idx) :
    tailT lpx lpz lqz lqp k = tail (lpx ix0) (fun i => lpz (ix1 i)) (fun i => lqz (ix1 i)) (fun i => lqp (ix1 i)) := by
  unfold tailT
  simp only [hnegf_at, hdivf_at, reduceAdd_vec, subf_apply, mulf_apply, bcast_vec, constant_apply]
  rfl

section
variable (W : Valuation τ sig (Elt Ideal))

theorem after2_v39_eq :
    (StableHlo.after hostOps2 W (Proc.devRef .tc main_v39) : FVec Ideal S_ .f32)
      = tailT (lpxBuf W) (lpzBuf W) (lqzT (m2Buf W) (t2Buf W)) (lqpT (m1Buf W) (t1Buf W)) := by
  after_results_simp
  rfl

/-- (3) After the second stretch `main_v39` holds the last lines' value of the buffers the stretch started from. -/
theorem after2_v39 :
    (StableHlo.after hostOps2 W (Proc.devRef .tc main_v39) : FVec Ideal S_ .f32) ix0
      = tail (lpxBuf W ix0) (fun i => lpzBuf W (ix1 i))
          (fun i => (Ideal.log (cZero + ∑ i' : Fin 1024, t2Buf W (ix1 i')) + m2Buf W (ix1 i)) - cLogNM)
          (fun i => c64 * (Ideal.log (cZero + ∑ i' : Fin 1024, ∑ d : Fin 64, t1Buf W (ix2 i' d)) - cLogNM)
            + (cZero + ∑ d : Fin 64, m1Buf W (ix2 i d))) := by
  rw [after2_v39_eq, tailT_at]
  simp only [lqzT_at, lqpT_at]

end

end Cert.KernelIdeal.Hand

end
-- ==== Proof.KI.Value.lean ====
/-
  The kernel program's result is the specification's `KerOut` of the argument arrays: region 0's array holds the
  row sums, the first host stretch their mean and log p(z); region 1's four arrays hold the online maxima and
  rescaled sums; the second host stretch combines them. The arguments are never written, so every buffer a later
  item reads of them is the launch memory's.
-/
import proofs.«153124_j71159018160768_1_alg».proof.Proof.KI.Run
import proofs.«153124_j71159018160768_1_alg».proof.Proof.KI.Arr
import proofs.«153124_j71159018160768_1_alg».proof.Proof.KI.Tail
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Alg

variable (m : (ℓ : Loc nD τ sig) → Buf (Elt Ideal) ℓ)

/-- The four staged argument arrays of the launch memory, by coordinates. -/
def tgM (c : Dev nD) : Fin 1024 → Fin 12288 → EReal := fun i q => (m ((c.tc : Thread nD τ).loc main_arg0) : S1024x12288.Idx → EReal) (ix2 i q)
def xmM (c : Dev nD) : Fin 1024 → Fin 12288 → EReal := fun i q => (m ((c.tc : Thread nD τ).loc main_arg1) : S1024x12288.Idx → EReal) (ix2 i q)
def zmM (c : Dev nD) : Fin 1024 → Fin 64 → EReal := fun i d => (m ((c.tc : Thread nD τ).loc main_arg3) : S1024x64.Idx → EReal) (ix2 i d)
def zlM (c : Dev nD) : Fin 1024 → Fin 64 → EReal := fun i d => (m ((c.tc : Thread nD τ).loc main_arg4) : S1024x64.Idx → EReal) (ix2 i d)

theorem tgA_e0 (c : Dev nD) : tgA (Ve0 m) c = tgM m c := rfl
theorem xmA_e0 (c : Dev nD) : xmA (Ve0 m) c = xmM m c := rfl
/-- Region 1 finds the two z arrays as launched: region 0 and the first host stretch write neither. -/
theorem W2_arg3 (c : Dev nD) : W2 m c (Proc.devRef .tc main_arg3) = m ((c : Thread nD τ).loc main_arg3) :=
  (StableHlo.after_of_writes_sub hostOps1 _ hostOps1_writes (by decide)).trans (W1_arg3 m c)
theorem W2_arg4 (c : Dev nD) : W2 m c (Proc.devRef .tc main_arg4) = m ((c : Thread nD τ).loc main_arg4) :=
  (StableHlo.after_of_writes_sub hostOps1 _ hostOps1_writes (by decide)).trans (W1_arg4 m c)
theorem zmA_e1 (c : Dev nD) : zmA (Ve1 m) c = zmM m c := by
  funext i d; unfold zmA zmM; exact congrFun (W2_arg3 m c) _
theorem zlA_e1 (c : Dev nD) : zlA (Ve1 m) c = zlM m c := by
  funext i d; unfold zlA zlM; exact congrFun (W2_arg4 m c) _

/-- Every row is row `i % 128` of row block `i / 128`. -/
theorem rowOf_div_mod (i : Fin 1024) : rowOf ⟨i.val / 128, by have := i.isLt; omega⟩ ⟨i.val % 128, Nat.mod_lt _ (by decide)⟩ = i :=
  Fin.ext (by simp only [rowOf]; omega)

/-! ## The arrays the regions leave -/

theorem arr_v0 (c : Dev nD) (i : Fin 1024) :
    (W1 m c (Proc.devRef .tc main_v0) : S1024.Idx → EReal) (ix1 i) = rowSumK (tgM m c) (xmM m c) i := by
  have hN : cfg0.N = 24 := N_0
  have hi := i.isLt
  rw [show W1 m c (Proc.devRef .tc main_v0) = (dat0 (Ve0 m) c).arrAt 2 cfg0.N from W1_arr m c 2]
  conv_lhs => rw [← rowOf_div_mod i]
  rw [arrAt0_2 (Ve0 m) c _ _ (by omega), acc0_last (Ve0 m) c _ _ (by omega), tgA_e0, xmA_e0, rowOf_div_mod]

theorem arr_v14_0 (c : Dev nD) (i : Fin 1024) (d : Fin 64) :
    (W3 m c (Proc.devRef .tc main_v14_0) : S1024x64.Idx → EReal) (ix2 i d) = m1K (zmM m c) (zlM m c) i d := by
  have hN : cfg1.N = 64 := N_1
  have hi := i.isLt
  rw [show W3 m c (Proc.devRef .tc main_v14_0) = (dat1 (Ve1 m) c).arrAt 2 cfg1.N from W3_arr m c 2]
  conv_lhs => rw [← rowOf_div_mod i]
  rw [arrAt1_2 (Ve1 m) c _ _ d (by omega), st1_last_m1 (Ve1 m) c _ _ d (by omega), zmA_e1, zlA_e1, rowOf_div_mod]
theorem arr_v14_1 (c : Dev nD) (i : Fin 1024) (d : Fin 64) :
    (W3 m c (Proc.devRef .tc main_v14_1) : S1024x64.Idx → EReal) (ix2 i d) = t1K (zmM m c) (zlM m c) i d := by
  have hN : cfg1.N = 64 := N_1
  have hi := i.isLt
  rw [show W3 m c (Proc.devRef .tc main_v14_1) = (dat1 (Ve1 m) c).arrAt 3 cfg1.N from W3_arr m c 3]
  conv_lhs => rw [← rowOf_div_mod i]
  rw [arrAt1_3 (Ve1 m) c _ _ d (by omega), st1_last_t1 (Ve1 m) c _ _ d (by omega), zmA_e1, zlA_e1, rowOf_div_mod]
theorem arr_v14_2 (c : Dev nD) (i : Fin 1024) :
    (W3 m c (Proc.devRef .tc main_v14_2) : S1024.Idx → EReal) (ix1 i) = m2K (zmM m c) (zlM m c) i := by
  have hN : cfg1.N = 64 := N_1
  have hi := i.isLt
  rw [show W3 m c (Proc.devRef .tc main_v14_2) = (dat1 (Ve1 m) c).arrAt 4 cfg1.N from W3_arr m c 4]
  conv_lhs => rw [← rowOf_div_mod i]
  rw [arrAt1_4 (Ve1 m) c _ _ (by omega), st1_last_m2 (Ve1 m) c _ _ (by omega), zmA_e1, zlA_e1, rowOf_div_mod]
theorem arr_v14_3 (c : Dev nD) (i : Fin 1024) :
    (W3 m c (Proc.devRef .tc main_v14_3) : S1024.Idx → EReal) (ix1 i) = t2K (zmM m c) (zlM m c) i := by
  have hN : cfg1.N = 64 := N_1
  have hi := i.isLt
  rw [show W3 m c (Proc.devRef .tc main_v14_3) = (dat1 (Ve1 m) c).arrAt 5 cfg1.N from W3_arr m c 5]
  conv_lhs => rw [← rowOf_div_mod i]
  rw [arrAt1_5 (Ve1 m) c _ _ (by omega), st1_last_t2 (Ve1 m) c _ _ (by omega), zmA_e1, zlA_e1, rowOf_div_mod]

/-! ## The host stretches' results -/

/-- Region 1 and the second stretch's start find the first stretch's two results as it left them. -/
theorem W3_v2 (c : Dev nD) : W3 m c (Proc.devRef .tc main_v2) = W2 m c (Proc.devRef .tc main_v2) := W3_of_ne m c main_v2 (by decide)
theorem W3_v13 (c : Dev nD) : W3 m c (Proc.devRef .tc main_v13) = W2 m c (Proc.devRef .tc main_v13) := W3_of_ne m c main_v13 (by decide)

theorem lpx_value (c : Dev nD) : (W3 m c (Proc.devRef .tc main_v2) : FVec Ideal S_ .f32) ix0 = lpxK (tgM m c) (xmM m c) := by
  rw [W3_v2]
  show (StableHlo.after hostOps1 (W1 m c) (Proc.devRef .tc main_v2) : FVec Ideal S_ .f32) ix0 = _
  refine (after1_v2 (W1 m c)).trans ?_
  unfold lpxK
  exact congrArg (fun s => Ideal.div (cZero + s) c1024) (Finset.sum_congr rfl fun i _ => arr_v0 m c i)

theorem lpz_value (c : Dev nD) (i : Fin 1024) :
    (W3 m c (Proc.devRef .tc main_v13) : FVec Ideal S1024 .f32) (ix1 i) = lpz (zmM m c) (zlM m c) i := by
  rw [W3_v13]
  show (StableHlo.after hostOps1 (W1 m c) (Proc.devRef .tc main_v13) : FVec Ideal S1024 .f32) (ix1 i) = _
  refine (after1_v13 (W1 m c) i).trans ?_
  have e3 : (fun (i : Fin 1024) (d : Fin 64) => zmBuf (W1 m c) (ix2 i d)) = zmM m c := by
    funext i d; unfold zmM; exact congrFun (W1_arg3 m c) _
  have e4 : (fun (i : Fin 1024) (d : Fin 64) => zlBuf (W1 m c) (ix2 i d)) = zlM m c := by
    funext i d; unfold zlM; exact congrFun (W1_arg4 m c) _
  exact congrFun (congr (congrArg lpz e3) e4) i

/-- THE KERNEL PROGRAM'S RESULT. -/
theorem out_value (c : Dev nD) :
    (W4 m c (Proc.devRef .tc main_v39) : FVec Ideal S_ .f32) ix0 = KerOut (tgM m c) (xmM m c) (zmM m c) (zlM m c) := by
  show (StableHlo.after hostOps2 (W3 m c) (Proc.devRef .tc main_v39) : FVec Ideal S_ .f32) ix0 = _
  refine (after2_v39 (W3 m c)).trans ?_
  have e1 : lpxBuf (W3 m c) ix0 = lpxK (tgM m c) (xmM m c) := lpx_value m c
  have e2 : (fun i : Fin 1024 => lpzBuf (W3 m c) (ix1 i)) = lpz (zmM m c) (zlM m c) := funext fun i => lpz_value m c i
  have e3 : (fun i : Fin 1024 => (Ideal.log (cZero + ∑ i' : Fin 1024, t2Buf (W3 m c) (ix1 i')) + m2Buf (W3 m c) (ix1 i)) - cLogNM)
      = lqzK (zmM m c) (zlM m c) := funext fun i => by
    unfold lqzK
    exact congrArg₂ (fun s x => (Ideal.log (cZero + s) + x) - cLogNM)
      (Finset.sum_congr rfl fun i' _ => arr_v14_3 m c i') (arr_v14_2 m c i)
  have e4 : (fun i : Fin 1024 => c64 * (Ideal.log (cZero + ∑ i' : Fin 1024, ∑ d : Fin 64, t1Buf (W3 m c) (ix2 i' d)) - cLogNM)
        + (cZero + ∑ d : Fin 64, m1Buf (W3 m c) (ix2 i d)))
      = lqpK (zmM m c) (zlM m c) := funext fun i => by
    unfold lqpK
    exact congrArg₂ (fun s x => c64 * (Ideal.log (cZero + s) - cLogNM) + (cZero + x))
      (Finset.sum_congr rfl fun i' _ => Finset.sum_congr rfl fun d _ => arr_v14_1 m c i' d)
      (Finset.sum_congr rfl fun d _ => arr_v14_0 m c i d)
  unfold KerOut
  exact congr (congr (congr (congrArg tail e1) e2) e3) e4

end Cert.KernelIdeal.Hand

end
-- ==== Proof.RefValue.lean ====
/-
  The reference's result, read off its run one operation at a time, is the scalar formula `Cert.Alg.RefOut` of the
  argument arrays.
-/
import proofs.«153124_j71159018160768_1_alg».proof.Proof.Gen.ReferenceIdeal.Run
import proofs.«153124_j71159018160768_1_alg».proof.Proof.Gen.ReferenceIdeal.Read
import proofs.«153124_j71159018160768_1_alg».proof.Proof.Alg
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open scoped BigOperators

/-! ## Sums over index sets of rank one and three, by coordinates -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two maxima along the key axis, as folds over that axis's coordinate -/

/-- A maximum over the middle axis of a 1024 × 1024 × 64 array, at (i, d): the fold of max over j of the array at (i, j, d). -/
theorem reduce_max_mid (y : (⟨S1024x1024x64, .f32⟩ : BufTy).Contents (Elt Ideal)) (c : (⟨S_, .f32⟩ : BufTy).Contents (Elt Ideal))
    (i : Fin 1024) (d : Fin 64) :
    Host.reduce (FloatOps.maximumf (F := Ideal) (φ := .f32)) y c reducesTo_S1024x1024x64_S1024x64_d1 h_S_ (ix2 i d)
      = (Finset.univ : Finset (Fin 1024)).fold max (c (Shape.Idx.first h_S_)) (fun j => y (ix3 i j d)) := by
  have h : S1024x1024x64.Reduces [1] S1024x64 := by decide
  rw [Host.reduce_eq_fold_single (FloatOps.maximumf (F := Ideal) (φ := .f32)) y c reducesTo_S1024x1024x64_S1024x64_d1 h h_S_ (ix2 i d)]
  have hl : (y ∘ h.lift (ix2 i d)) = fun j : Fin 1024 => y (ix3 i j d) := by
    funext k
    exact congrArg y (funext fun a => Fin.ext (by match a with | ⟨0, _⟩ => rfl | ⟨1, _⟩ => rfl | ⟨2, _⟩ => rfl))
  rw [hl]
  rfl

/-- A maximum over the last axis of a 1024 × 1024 array, at i: the fold of max over j of the array at (i, j). -/
theorem reduce_max_last (y : (⟨S1024x1024, .f32⟩ : BufTy).Contents (Elt Ideal)) (c : (⟨S_, .f32⟩ : BufTy).Contents (Elt Ideal))
    (i : Fin 1024) :
    Host.reduce (FloatOps.maximumf (F := Ideal) (φ := .f32)) y c reducesTo_S1024x1024_S1024_d1 h_S_ (ix1 i)
      = (Finset.univ : Finset (Fin 1024)).fold max (c (Shape.Idx.first h_S_)) (fun j => y (ix2 i j)) := by
  have h : S1024x1024.Reduces [1] S1024 := by decide
  rw [Host.reduce_eq_fold_single (FloatOps.maximumf (F := Ideal) (φ := .f32)) y c reducesTo_S1024x1024_S1024_d1 h h_S_ (ix1 i)]
  have hl : (y ∘ h.lift (ix1 i)) = fun j : Fin 1024 => y (ix2 i j) := by
    funext k
    exact congrArg y (funext fun a => Fin.ext (by match a with | ⟨0, _⟩ => rfl | ⟨1, _⟩ => rfl))
  rw [hl]
  rfl

/-! ## Where each layout operation reads its operand, by coordinates -/

theorem idx13 (i : Fin 1024) (q : Fin 12288) : idx_main_v13 (ix1 i) q = ix2 i q := by
  funext a; apply Fin.ext; match a with | ⟨0, _⟩ => rfl | ⟨1, _⟩ => rfl
theorem idx26 (i : Fin 1024) (d : Fin 64) : idx_main_v26 (ix1 i) d = ix2 i d := by
  funext a; apply Fin.ext; match a with | ⟨0, _⟩ => rfl | ⟨1, _⟩ => rfl
theorem idx27 (i : Fin 1024) (z : Fin 1) (d : Fin 64) : idx_main_v27 (ix3 i z d) = ix2 i d := by
  funext a; apply Fin.ext; match a with | ⟨0, _⟩ => rfl | ⟨1, _⟩ => rfl
theorem idx28 (z : Fin 1) (j : Fin 1024) (d : Fin 64) : idx_main_v28 (ix3 z j d) = ix2 j d := by
  funext a; apply Fin.ext; match a with | ⟨0, _⟩ => rfl | ⟨1, _⟩ => rfl
theorem idx33 (i j : Fin 1024) (d : Fin 64) : idx_main_v33 (ix3 i j d) = ix3 i (0 : Fin 1) d := by
  funext a; apply Fin.ext; match a with | ⟨0, _⟩ => rfl | ⟨1, _⟩ => rfl | ⟨2, _⟩ => rfl
theorem idx34 (i j : Fin 1024) (d : Fin 64) : idx_main_v34 (ix3 i j d) = ix3 (0 : Fin 1) j d := by
  funext a; apply Fin.ext; match a with | ⟨0, _⟩ => rfl | ⟨1, _⟩ => rfl | ⟨2, _⟩ => rfl
theorem idx36 (i j : Fin 1024) (d : Fin 64) : idx_main_v36 (ix3 i j d) = ix3 (0 : Fin 1) j d := by
  funext a; apply Fin.ext; match a with | ⟨0, _⟩ => rfl | ⟨1, _⟩ => rfl | ⟨2, _⟩ => rfl
theorem idx43 (i : Fin 1024) (z : Fin 1) (d : Fin 64) : idx_main_v43 (ix3 i z d) = ix2 i d := by
  funext a; apply Fin.ext; match a with | ⟨0, _⟩ => rfl | ⟨1, _⟩ => rfl
theorem idx44 (i j : Fin 1024) (d : Fin 64) : idx_main_v44 (ix3 i j d) = ix3 i (0 : Fin 1) d := by
  funext a; apply Fin.ext; match a with | ⟨0, _⟩ => rfl | ⟨1, _⟩ => rfl | ⟨2, _⟩ => rfl
/-- The reshape 1024 × 1 × 64 → 1024 × 64 reads (i, d) at (i, 0, d): (64 i + d) / 64 = i and (64 i + d) % 64 = d. -/
theorem idx51 (i : Fin 1024) (d : Fin 64) : idx_main_v51 (ix2 i d) = ix3 i (0 : Fin 1) d := by
  have hi := i.isLt
  have hd := d.isLt
  funext a; apply Fin.ext
  match a with
  | ⟨0, _⟩ => show (i.val * 64 + d.val) / 64 = i.val; omega
  | ⟨1, _⟩ => rfl
  | ⟨2, _⟩ => show (i.val * 64 + d.val) % 64 = d.val; omega
theorem idx54 (i : Fin 1024) (d : Fin 64) : idx_main_v54 (ix1 i) d = ix2 i d := by
  funext a; apply Fin.ext; match a with | ⟨0, _⟩ => rfl | ⟨1, _⟩ => rfl
theorem idx55 (i j : Fin 1024) (d : Fin 64) : idx_main_v55 (ix2 i j) d = ix3 i j d := by
  funext a; apply Fin.ext; match a with | ⟨0, _⟩ => rfl | ⟨1, _⟩ => rfl | ⟨2, _⟩ => rfl
theorem idx57 (i : Fin 1024) (z : Fin 1) : idx_main_v57 (ix2 i z) = ix1 i := by
  funext a; apply Fin.ext; match a with | ⟨0, _⟩ => rfl
theorem idx58 (i j : Fin 1024) : idx_main_v58 (ix2 i j) = ix2 i (0 : Fin 1) := by
  funext a; apply Fin.ext; match a with | ⟨0, _⟩ => rfl | ⟨1, _⟩ => rfl
/-- The reshape 1024 × 1 → 1024 reads i at (i, 0). -/
theorem idx65 (i : Fin 1024) : idx_main_v65 (ix1 i) = ix2 i (0 : Fin 1) := by
  funext a; apply Fin.ext
  match a with
  | ⟨0, _⟩ => show i.val / 1 = i.val; exact Nat.div_one _
  | ⟨1, _⟩ => rfl

section
variable (x0 x1 : (⟨S1024x12288, .f32⟩ : BufTy).Contents (Elt Ideal)) (x3 x4 : (⟨S1024x64, .f32⟩ : BufTy).Contents (Elt Ideal))

/-- The four arguments the program reads, by coordinates. -/
abbrev tg : Fin 1024 → Fin 12288 → EReal := fun i q => x0 (ix2 i q)
abbrev xm : Fin 1024 → Fin 12288 → EReal := fun i q => x1 (ix2 i q)
abbrev zm : Fin 1024 → Fin 64 → EReal := fun i d => x3 (ix2 i d)
abbrev zl : Fin 1024 → Fin 64 → EReal := fun i d => x4 (ix2 i d)

/-! ## The Bernoulli part: log p(x) -/

/-- The Bernoulli term at one pixel. -/
theorem v12_at (j : S1024x12288.Idx) : val_main_v12 (F := Ideal) x0 x1 j = Cert.Alg.bern (x0 j) (x1 j) := by
  simp only [val_main_v12_apply, val_main_v3_apply, val_main_v2_apply, val_main_v1_apply, val_main_v0_apply, val_main_cst_apply,
    val_main_v11_apply, val_main_v5_apply, val_main_v4_apply, val_main_cst_0_apply, val_main_v10_apply, val_main_v9_apply,
    val_main_v7_apply, val_main_v6_apply, val_main_cst_1_apply, val_main_v8_apply, val_main_cst_2_apply,
    Ideal.addf_def, Ideal.mulf_def, Ideal.subf_def, Ideal.hostUnary_log_def, Ideal.ofBits_def]
  rfl

/-- A row's sum over the pixels, from zero. -/
theorem v13_at (i : Fin 1024) :
    val_main_v13 (F := Ideal) x0 x1 (ix1 i) = Cert.Alg.cZero + ∑ q : Fin 12288, Cert.Alg.bern (tg x0 i q) (xm x1 i q) := by
  rw [val_main_v13_apply, val_main_cst_3_apply, Ideal.ofBits_def]
  refine congrArg (_ + ·) (Finset.sum_congr rfl fun q _ => ?_)
  rw [v12_at, idx13]

/-- The mean over the rows. -/
theorem v15_at (k : S_.Idx) : val_main_v15 (F := Ideal) x0 x1 k = Cert.Alg.lpxR (tg x0) (xm x1) := by
  rw [val_main_v15_apply, val_main_v14_apply, val_main_cst_4_apply, val_main_cst_5_apply, Ideal.ofBits_def, Ideal.ofBits_def,
    Ideal.hostDivf_def, sum_idx1]
  simp only [v13_at]
  rfl

/-! ## The Gaussian term, and log p(z) -/

/-- The Gaussian term at (i, d), mean and log-variance of the same row. -/
theorem v25_at (j : S1024x64.Idx) : val_main_v25 (F := Ideal) x3 x4 j = Cert.Alg.llR (x3 j) (x4 j) := by
  simp only [val_main_v25_apply, val_main_v24_apply, val_main_cst_8_apply, val_main_v23_apply, val_main_v21_apply,
    val_main_v20_apply, val_main_v16_apply, val_main_v19_apply, val_main_v17_apply, val_main_v18_apply, val_main_cst_6_apply,
    val_main_v22_apply, val_main_cst_7_apply,
    Ideal.addf_def, Ideal.mulf_def, Ideal.hostDivf_def, Ideal.hostUnary_exp_def, Ideal.ofBits_def]
  rfl

/-- log p(z) of row i. -/
theorem v26_at (i : Fin 1024) : val_main_v26 (F := Ideal) x3 x4 (ix1 i) = Cert.Alg.lpz (zm x3) (zl x4) i := by
  rw [val_main_v26_apply, val_main_cst_9_apply, Ideal.ofBits_def]
  refine congrArg (_ + ·) (Finset.sum_congr rfl fun d _ => ?_)
  rw [v25_at, idx26]

/-- The pairwise Gaussian term at (i, j, d): mean of row i under the log-variance of row j. -/
theorem v41_at (i j : Fin 1024) (d : Fin 64) :
    val_main_v41 (F := Ideal) x3 x4 (ix3 i j d) = Cert.Alg.llR (zm x3 i d) (zl x4 j d) := by
  simp only [val_main_v41_apply, val_main_v40_apply, val_main_cst_12_apply, val_main_v39_apply, val_main_v37_apply,
    val_main_v36_apply, val_main_v28_apply, val_main_v35_apply, val_main_v33_apply, val_main_v29_apply, val_main_v27_apply,
    val_main_v34_apply, val_main_v32_apply, val_main_v30_apply, val_main_v31_apply, val_main_cst_10_apply, val_main_v38_apply,
    val_main_cst_11_apply, idx33, idx34, idx36, idx27, idx28,
    Ideal.addf_def, Ideal.mulf_def, Ideal.hostDivf_def, Ideal.hostUnary_exp_def, Ideal.ofBits_def]
  rfl

/-! ## The first log-sum-exp: the maximum over the keys per (i, d), the sum over everything -/

/-- m₁(i, d). -/
theorem v42_at (i : Fin 1024) (d : Fin 64) : val_main_v42 (F := Ideal) x3 x4 (ix2 i d) = Cert.Alg.m1R (zm x3) (zl x4) i d := by
  unfold val_main_v42
  rw [reduce_max_mid, val_main_cst_13_apply, Ideal.ofBits_def]
  simp only [v41_at]
  rfl

theorem v43_at (i : Fin 1024) (z : Fin 1) (d : Fin 64) :
    val_main_v43 (F := Ideal) x3 x4 (ix3 i z d) = Cert.Alg.m1R (zm x3) (zl x4) i d := by
  rw [val_main_v43_apply, idx43, v42_at]

theorem v44_at (i j : Fin 1024) (d : Fin 64) :
    val_main_v44 (F := Ideal) x3 x4 (ix3 i j d) = Cert.Alg.m1R (zm x3) (zl x4) i d := by
  rw [val_main_v44_apply, idx44, v43_at]

theorem v46_at (i j : Fin 1024) (d : Fin 64) :
    val_main_v46 (F := Ideal) x3 x4 (ix3 i j d)
      = Ideal.exp (Cert.Alg.llR (zm x3 i d) (zl x4 j d) - Cert.Alg.m1R (zm x3) (zl x4) i d) := by
  rw [val_main_v46_apply, val_main_v45_apply, v41_at, v44_at, Ideal.subf_def, Ideal.hostUnary_exp_def]

/-- Σ₁. -/
theorem v47_at (k : S_.Idx) : val_main_v47 (F := Ideal) x3 x4 k = Cert.Alg.sum1R (zm x3) (zl x4) := by
  rw [val_main_v47_apply, val_main_cst_14_apply, Ideal.ofBits_def, sum_idx3]
  simp only [v46_at]
  rfl

theorem v53_at (i : Fin 1024) (d : Fin 64) :
    val_main_v53 (F := Ideal) x3 x4 (ix2 i d)
      = (Ideal.log (Cert.Alg.sum1R (zm x3) (zl x4)) + Cert.Alg.m1R (zm x3) (zl x4) i d) - Cert.Alg.cLogNM := by
  rw [val_main_v53_apply, val_main_v51_apply, idx51, val_main_v50_apply, val_main_v49_apply, val_main_v48_apply, v47_at, v43_at,
    val_main_v52_apply, val_main_cst_15_apply, Ideal.ofBits_def, Ideal.addf_def, Ideal.subf_def, Ideal.hostUnary_log_def]

/-- log q(z) as a product of marginals, row i. -/
theorem v54_at (i : Fin 1024) : val_main_v54 (F := Ideal) x3 x4 (ix1 i) = Cert.Alg.lqpR (zm x3) (zl x4) i := by
  rw [val_main_v54_apply, val_main_cst_16_apply, Ideal.ofBits_def]
  refine congrArg (_ + ·) (Finset.sum_congr rfl fun d _ => ?_)
  rw [idx54, v53_at]

/-! ## The second log-sum-exp: over S(i, j) = Σ_d ℓ(i, j, d) -/

/-- S(i, j). -/
theorem v55_at (i j : Fin 1024) : val_main_v55 (F := Ideal) x3 x4 (ix2 i j) = Cert.Alg.sR (zm x3) (zl x4) i j := by
  rw [val_main_v55_apply, val_main_cst_17_apply, Ideal.ofBits_def]
  refine congrArg (_ + ·) (Finset.sum_congr rfl fun d _ => ?_)
  rw [idx55, v41_at]

/-- m₂(i). -/
theorem v56_at (i : Fin 1024) : val_main_v56 (F := Ideal) x3 x4 (ix1 i) = Cert.Alg.m2R (zm x3) (zl x4) i := by
  unfold val_main_v56
  rw [reduce_max_last, val_main_cst_18_apply, Ideal.ofBits_def]
  simp only [v55_at]
  rfl

theorem v57_at (i : Fin 1024) (z : Fin 1) : val_main_v57 (F := Ideal) x3 x4 (ix2 i z) = Cert.Alg.m2R (zm x3) (zl x4) i := by
  rw [val_main_v57_apply, idx57, v56_at]

theorem v60_at (i j : Fin 1024) :
    val_main_v60 (F := Ideal) x3 x4 (ix2 i j) = Ideal.exp (Cert.Alg.sR (zm x3) (zl x4) i j - Cert.Alg.m2R (zm x3) (zl x4) i) := by
  rw [val_main_v60_apply, val_main_v59_apply, v55_at, val_main_v58_apply, idx58, v57_at, Ideal.subf_def, Ideal.hostUnary_exp_def]

/-- Σ₂. -/
theorem v61_at (k : S_.Idx) : val_main_v61 (F := Ideal) x3 x4 k = Cert.Alg.sum2R (zm x3) (zl x4) := by
  rw [val_main_v61_apply, val_main_cst_19_apply, Ideal.ofBits_def, sum_idx2]
  simp only [v60_at]
  rfl

/-- log q(z), row i. -/
theorem v67_at (i : Fin 1024) : val_main_v67 (F := Ideal) x3 x4 (ix1 i) = Cert.Alg.lqzR (zm x3) (zl x4) i := by
  rw [val_main_v67_apply, val_main_v65_apply, idx65, val_main_v64_apply, val_main_v63_apply, val_main_v62_apply, v61_at, v57_at,
    val_main_v66_apply, val_main_cst_20_apply, Ideal.ofBits_def, Ideal.addf_def, Ideal.subf_def, Ideal.hostUnary_log_def]
  rfl

/-! ## The last lines -/

/-- The summand of the final mean, row i. -/
theorem v76_at (i : Fin 1024) :
    val_main_v76 (F := Ideal) x0 x1 x3 x4 (ix1 i)
      = ((Cert.Alg.lpxR (tg x0) (xm x1) - (Cert.Alg.lpz (zm x3) (zl x4) i - Cert.Alg.lqzR (zm x3) (zl x4) i))
          - Cert.Alg.c6 * (Cert.Alg.lqzR (zm x3) (zl x4) i - Cert.Alg.lqpR (zm x3) (zl x4) i))
          - (Cert.Alg.lqpR (zm x3) (zl x4) i - Cert.Alg.lpz (zm x3) (zl x4) i) := by
  simp only [val_main_v76_apply, val_main_v75_apply, val_main_v72_apply, val_main_v71_apply, v15_at, val_main_v68_apply, v26_at,
    v67_at, val_main_v74_apply, val_main_v73_apply, val_main_cst_21_apply, val_main_v69_apply, v54_at, val_main_v70_apply,
    Ideal.subf_def, Ideal.mulf_def, Ideal.ofBits_def]

end

/-- THE REFERENCE'S RESULT is the scalar formula of its four arguments read by coordinates. -/
theorem ref_out (x0 x1 : (⟨S1024x12288, .f32⟩ : BufTy).Contents (Elt Ideal)) (x3 x4 : (⟨S1024x64, .f32⟩ : BufTy).Contents (Elt Ideal)) :
    Cert.ReferenceIdeal.Read.val_main_v79 (F := Ideal) x0 x1 x3 x4 ix0
      = Cert.Alg.RefOut (fun i q => x0 (ix2 i q)) (fun i q => x1 (ix2 i q)) (fun i d => x3 (ix2 i d)) (fun i d => x4 (ix2 i d)) := by
  rw [val_main_v79_apply, val_main_v78_apply, val_main_v77_apply, val_main_cst_22_apply, val_main_cst_23_apply, Ideal.ofBits_def,
    Ideal.ofBits_def, Ideal.hostDivf_def, Ideal.hostNegf_def, Ideal.negf_def, sum_idx1]
  simp only [v76_at]
  rfl

end Cert.ReferenceIdeal.RefValue

end
-- ==== Proof.AlgLit.lean ====
/-
  The literals of both programs as extended reals: each word evaluated once.
-/
import proofs.«153124_j71159018160768_1_alg».proof.Proof.Alg

noncomputable section

namespace Cert.Alg

open Idealize.ShloMosaic

/-- The tolerance ε as a real. -/
def tolR : ℝ := 14073749 * (2 ^ 47)⁻¹
/-- ½·log 2π as the word spells it. -/
def hlpR : ℝ := 15417230 * (2 ^ 24)⁻¹
/-- log(N·M) as the word spells it. -/
def lnmR : ℝ := 10717597 * (2 ^ 19)⁻¹

theorem cZero_eq : cZero = 0 := by simp [Ideal.ofBits, Ideal.ieee]
theorem cNegInf_eq : cNegInf = ⊥ := by simp [Ideal.ofBits, Ideal.ieee]
theorem cOne_eq : cOne = ((1 : ℝ) : EReal) := by simp [Ideal.ofBits, Ideal.ieee, -EReal.coe_mul]; norm_num
theorem cHalf_eq : cHalf = ((1 / 2 : ℝ) : EReal) := by simp [Ideal.ofBits, Ideal.ieee, -EReal.coe_mul]; norm_num
theorem cNegHalf_eq : cNegHalf = ((-(1 / 2) : ℝ) : EReal) := by simp [Ideal.ofBits, Ideal.ieee, -EReal.coe_mul]; norm_num
theorem c64_eq : c64 = ((64 : ℝ) : EReal) := by simp [Ideal.ofBits, Ideal.ieee, -EReal.coe_mul]; norm_num
theorem c6_eq : c6 = ((6 : ℝ) : EReal) := by simp [Ideal.ofBits, Ideal.ieee, -EReal.coe_mul]; norm_num
theorem c1024_eq : c1024 = ((1024 : ℝ) : EReal) := by simp [Ideal.ofBits, Ideal.ieee, -EReal.coe_mul]; norm_num
theorem cTol_eq : cTol = (tolR : EReal) := by simp [Ideal.ofBits, Ideal.ieee, -EReal.coe_mul, tolR]
theorem cHalfLog2Pi_eq : cHalfLog2Pi = (hlpR : EReal) := by simp [Ideal.ofBits, Ideal.ieee, -EReal.coe_mul, hlpR]
theorem cLog2Pi_eq : cLog2Pi = ((2 * hlpR : ℝ) : EReal) := by
  simp [Ideal.ofBits, Ideal.ieee, -EReal.coe_mul, hlpR]; norm_num
theorem cLogNM_eq : cLogNM = (lnmR : EReal) := by simp [Ideal.ofBits, Ideal.ieee, -EReal.coe_mul, lnmR]

theorem tolR_pos : 0 < tolR := by unfold tolR; positivity

end Cert.Alg

end
-- ==== Proof.AlgLL.lean ====
/-
  The Gaussian term: both spellings are one real-valued function of real arguments.
-/
import proofs.«153124_j71159018160768_1_alg».proof.Proof.AlgLit

noncomputable section

namespace Cert.Alg

open Idealize.ShloMosaic

/-- The Gaussian log-likelihood term over the reals. -/
def LR (mu lv : ℝ) : ℝ := -(1 / 2) * ((lv + (mu * mu) * (1 / (Real.exp lv + tolR))) + 2 * hlpR)

theorem exp_add_tol_ne (lv : ℝ) : Real.exp lv + tolR ≠ 0 := (add_pos (Real.exp_pos lv) tolR_pos).ne'

theorem llR_coe (mu lv : ℝ) : llR (mu : EReal) (lv : EReal) = (LR mu lv : EReal) := by
  unfold llR LR
  rw [cNegHalf_eq, cTol_eq, cLog2Pi_eq, Ideal.exp_coe, ← EReal.coe_add, Ideal.div_coe (exp_add_tol_ne lv)]
  norm_cast

theorem llK_coe (mu lv : ℝ) : llK (mu : EReal) (lv : EReal) = (LR mu lv : EReal) := by
  unfold llK LR
  rw [cNegHalf_eq, cHalf_eq, cOne_eq, cTol_eq, cHalfLog2Pi_eq, Ideal.exp_coe, ← EReal.coe_add,
    Ideal.div_coe (exp_add_tol_ne lv)]
  norm_cast
  ring

theorem llK_eq_llR (mu lv : ℝ) : llK (mu : EReal) (lv : EReal) = llR (mu : EReal) (lv : EReal) := by
  rw [llK_coe, llR_coe]

end Cert.Alg

end
-- ==== Proof.AlgOnl.lean ====
/-
  The online log-sum-exp: after k ≥ 1 blocks of real rows the running maximum is the maximum of all rows seen,
  and the running sum is Σ exp(row − that maximum), a positive real.
-/
import proofs.«153124_j71159018160768_1_alg».proof.Proof.AlgLit
import Mathlib.Order.Monotone.Basic
import Mathlib.Data.Finset.Lattice.Fold
import Mathlib.Analysis.SpecialFunctions.Exp

noncomputable section

namespace Cert.Alg

open Idealize.ShloMosaic

/-- The coercion ℝ → EReal commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion commutes with the maximum of two reals. -/
theorem coe_max_real (a b : ℝ) : ((max a b : ℝ) : EReal) = max (a : EReal) (b : EReal) :=
  EReal.coe_strictMono.monotone.map_max

/-- A maximum folded from −∞ is the supremum. -/
theorem fold_max_eq_sup {ι : Type*} (s : Finset ι) (f : ι → EReal) : s.fold max cNegInf f = s.sup f := by
  rw [cNegInf_eq]; rfl

/-- Over a nonempty index the supremum of reals is a real. -/
theorem sup_coe_real {n : ℕ} (hn : 0 < n) (g : Fin n → ℝ) :
    ∃ m : ℝ, (Finset.univ.sup fun r => (g r : EReal)) = (m : EReal) := by
  haveI : Nonempty (Fin n) := ⟨⟨0, hn⟩⟩
  obtain ⟨i, -, hi⟩ := Finset.exists_mem_eq_sup Finset.univ Finset.univ_nonempty (fun r => (g r : EReal))
  exact ⟨g i, hi⟩

theorem onl_zero {n : ℕ} (rows : ℕ → Fin n → EReal) : onl rows 0 = (cNegInf, cZero) := rfl

theorem onl_succ {n : ℕ} (rows : ℕ → Fin n → EReal) (k : ℕ) :
    onl rows (k + 1) = (stepM (onl rows k).1 (rows k), stepT (onl rows k).1 (onl rows k).2 (rows k)) := rfl

/-- The exponentials of one real row, shifted by a real, sum to a real. -/
theorem sum_exp_coe {n : ℕ} (g : Fin n → ℝ) (M : ℝ) :
    ∑ r, Ideal.exp ((g r : EReal) - (M : EReal)) = ((∑ r, Real.exp (g r - M) : ℝ) : EReal) := by
  rw [coe_finset_sum]
  refine Finset.sum_congr rfl fun r _ => ?_
  rw [← EReal.coe_sub, Ideal.exp_coe]

/-- THE ONLINE LEMMA, the sums: after k+1 blocks the state is (M, Σ_{b ≤ k} Σ_r exp(row − M)) for a real M. -/
theorem onl_spec {n : ℕ} (hn : 0 < n) (f : ℕ → Fin n → ℝ) (k : ℕ) :
    ∃ M : ℝ, (onl (fun b r => (f b r : EReal)) (k + 1)).1 = (M : EReal) ∧
      (onl (fun b r => (f b r : EReal)) (k + 1)).2
        = ((∑ b ∈ Finset.range (k + 1), ∑ r, Real.exp (f b r - M) : ℝ) : EReal) := by
  induction k with
  | zero =>
    obtain ⟨m, hm⟩ := sup_coe_real hn (f 0)
    have hM : stepM cNegInf (fun r => (f 0 r : EReal)) = (m : EReal) := by
      rw [stepM, fold_max_eq_sup, hm, cNegInf_eq]; exact max_eq_right bot_le
    refine ⟨m, ?_, ?_⟩
    · rw [onl_succ, onl_zero]; exact hM
    · rw [onl_succ, onl_zero]
      show stepT cNegInf cZero (fun r => (f 0 r : EReal)) = _
      rw [stepT, hM, cZero_eq, zero_mul, zero_add, zero_add, Finset.sum_range_one, sum_exp_coe]
  | succ k ih =>
    obtain ⟨M, hM, hT⟩ := ih
    obtain ⟨m, hm⟩ := sup_coe_real hn (f (k + 1))
    have hM' : stepM (M : EReal) (fun r => (f (k + 1) r : EReal)) = ((max M m : ℝ) : EReal) := by
      rw [stepM, fold_max_eq_sup, hm, coe_max_real]
    refine ⟨max M m, ?_, ?_⟩
    · rw [onl_succ, hM]; exact hM'
    · rw [onl_succ, hM, hT]
      show stepT (M : EReal) _ (fun r => (f (k + 1) r : EReal)) = _
      rw [stepT, hM', ← EReal.coe_sub, Ideal.exp_coe, ← EReal.coe_mul, sum_exp_coe, ← EReal.coe_add]
      congr 1
      rw [Finset.sum_range_succ _ (k + 1), Finset.sum_mul]
      congr 1
      refine Finset.sum_congr rfl fun b _ => ?_
      rw [Finset.sum_mul]
      refine Finset.sum_congr rfl fun r _ => ?_
      rw [← Real.exp_add]
      congr 1
      ring

/-- THE ONLINE LEMMA, the maximum: the running maximum is the supremum of all rows seen. -/
theorem onl_fst_eq_sup {n : ℕ} (rows : ℕ → Fin n → EReal) (k : ℕ) :
    (onl rows k).1 = (Finset.range k).sup (fun b => Finset.univ.sup (rows b)) := by
  induction k with
  | zero => rw [onl_zero, Finset.range_zero, Finset.sup_empty]; exact cNegInf_eq
  | succ k ih =>
    rw [onl_succ]
    show stepM (onl rows k).1 (rows k) = _
    rw [stepM, fold_max_eq_sup, ih, Finset.range_add_one, Finset.sup_insert]
    exact max_comm _ _

end Cert.Alg

end
-- ==== Proof.AlgIdx.lean ====
/-
  Re-indexing: the 8 key blocks of 128 enumerate the 1024 keys once each, the 3 pixel blocks of 4096 the 12288
  pixels once each; sums and suprema over blocks-then-lanes are sums and suprema over the whole index.
-/
import proofs.«153124_j71159018160768_1_alg».proof.Proof.AlgLit
import Mathlib.Data.Finset.Lattice.Fold
import Mathlib.Data.Fintype.BigOperators
import Mathlib.Algebra.BigOperators.Fin

noncomputable section

namespace Cert.Alg

open Idealize.ShloMosaic

theorem jidx_bij : Function.Bijective (fun p : Fin 8 × Fin 128 => jidx p.1.val p.2) := by
  rw [Fintype.bijective_iff_injective_and_card]
  refine ⟨?_, by simp⟩
  rintro ⟨a, r⟩ ⟨a', r'⟩ h
  have h' := congrArg Fin.val h
  simp only [jidx] at h'
  have h1 := a.isLt
  have h2 := r.isLt
  have h3 := a'.isLt
  have h4 := r'.isLt
  have ha : a.val = a'.val := by omega
  have hr : r.val = r'.val := by omega
  exact Prod.ext (Fin.ext ha) (Fin.ext hr)

theorem pidx_bij : Function.Bijective (fun p : Fin 3 × Fin 4096 => pidx p.1.val p.2) := by
  rw [Fintype.bijective_iff_injective_and_card]
  refine ⟨?_, by simp⟩
  rintro ⟨a, r⟩ ⟨a', r'⟩ h
  have h' := congrArg Fin.val h
  simp only [pidx] at h'
  have h1 := a.isLt
  have h2 := r.isLt
  have h3 := a'.isLt
  have h4 := r'.isLt
  have ha : a.val = a'.val := by omega
  have hr : r.val = r'.val := by omega
  exact Prod.ext (Fin.ext ha) (Fin.ext hr)

/-- Summing block by block is summing over all keys. -/
theorem sum_jidx {M : Type*} [AddCommMonoid M] (F : Fin 1024 → M) :
    ∑ b ∈ Finset.range 8, ∑ r : Fin 128, F (jidx b r) = ∑ j, F j :=
  calc ∑ b ∈ Finset.range 8, ∑ r : Fin 128, F (jidx b r)
      = ∑ b : Fin 8, ∑ r : Fin 128, F (jidx b.val r) := Finset.sum_range (fun b => ∑ r : Fin 128, F (jidx b r))
    _ = ∑ p : Fin 8 × Fin 128, F (jidx p.1.val p.2) :=
        (Fintype.sum_prod_type' (fun (b : Fin 8) (r : Fin 128) => F (jidx b.val r))).symm
    _ = ∑ j, F j := Fintype.sum_bijective _ jidx_bij _ _ (fun _ => rfl)

/-- Summing block by block is summing over all pixels. -/
theorem sum_pidx {M : Type*} [AddCommMonoid M] (F : Fin 12288 → M) :
    ∑ b ∈ Finset.range 3, ∑ q : Fin 4096, F (pidx b q) = ∑ j, F j :=
  calc ∑ b ∈ Finset.range 3, ∑ q : Fin 4096, F (pidx b q)
      = ∑ b : Fin 3, ∑ q : Fin 4096, F (pidx b.val q) := Finset.sum_range (fun b => ∑ q : Fin 4096, F (pidx b q))
    _ = ∑ p : Fin 3 × Fin 4096, F (pidx p.1.val p.2) :=
        (Fintype.sum_prod_type' (fun (b : Fin 3) (q : Fin 4096) => F (pidx b.val q))).symm
    _ = ∑ j, F j := Fintype.sum_bijective _ pidx_bij _ _ (fun _ => rfl)

/-- The supremum block by block is the supremum over all keys. -/
theorem sup_jidx (g : Fin 1024 → EReal) :
    (Finset.range 8).sup (fun b => Finset.univ.sup (fun r : Fin 128 => g (jidx b r))) = Finset.univ.sup g := by
  apply le_antisymm
  · exact Finset.sup_le fun b _ => Finset.sup_le fun r _ => Finset.le_sup (Finset.mem_univ _)
  · refine Finset.sup_le fun j _ => ?_
    obtain ⟨⟨a, r⟩, rfl⟩ := jidx_bij.2 j
    exact le_trans (Finset.le_sup (f := fun r : Fin 128 => g (jidx a.val r)) (Finset.mem_univ r))
      (Finset.le_sup (f := fun b => Finset.univ.sup (fun r : Fin 128 => g (jidx b r))) (Finset.mem_range.2 a.isLt))

end Cert.Alg

end
-- ==== Proof.AlgProof.lean ====
/-
  The law that joins the two programs: for real z_mean and z_log_var the kernel's result and the reference's are
  one extended real.  The online sweep's state after all 8 blocks is (max, Σ exp(· − max)) over all 1024 keys;
  the rest is regrouping of finite sums.
-/
import proofs.«153124_j71159018160768_1_alg».proof.Proof.AlgLL
import proofs.«153124_j71159018160768_1_alg».proof.Proof.AlgOnl
import proofs.«153124_j71159018160768_1_alg».proof.Proof.AlgIdx
import Mathlib.Analysis.SpecialFunctions.Log.Basic

noncomputable section

namespace Cert.Alg

open Idealize.ShloMosaic

/-- The online sweep over the 8 key blocks of a real family indexed by the 1024 keys. -/
theorem onl8 (g : Fin 1024 → ℝ) :
    ∃ M : ℝ, (onl (fun k (r : Fin 128) => (g (jidx k r) : EReal)) 8).1 = (M : EReal)
      ∧ Finset.univ.fold max cNegInf (fun j => (g j : EReal)) = (M : EReal)
      ∧ (onl (fun k (r : Fin 128) => (g (jidx k r) : EReal)) 8).2 = ((∑ j, Real.exp (g j - M) : ℝ) : EReal)
      ∧ 0 < ∑ j, Real.exp (g j - M) := by
  have h := onl_spec (n := 128) (by norm_num) (fun k r => g (jidx k r)) 7
  simp only [show (7 : ℕ) + 1 = 8 from rfl] at h
  obtain ⟨M, hM, hT⟩ := h
  have hsum : ∑ b ∈ Finset.range 8, ∑ r : Fin 128, Real.exp (g (jidx b r) - M) = ∑ j, Real.exp (g j - M) :=
    sum_jidx (fun j => Real.exp (g j - M))
  have hsup : (Finset.range 8).sup (fun b => Finset.univ.sup (fun r : Fin 128 => (g (jidx b r) : EReal)))
      = Finset.univ.sup (fun j => (g j : EReal)) := sup_jidx (fun j => (g j : EReal))
  refine ⟨M, hM, ?_, ?_, ?_⟩
  · rw [fold_max_eq_sup, ← hsup, ← onl_fst_eq_sup]
    exact hM
  · rw [hT, hsum]
  · exact Finset.sum_pos (fun j _ => Real.exp_pos _) Finset.univ_nonempty

/-- Real-valued inputs as extended reals. -/
abbrev E (z : Fin 1024 → Fin 64 → ℝ) : Fin 1024 → Fin 64 → EReal := fun i d => (z i d : EReal)

section
variable (tg xm : Fin 1024 → Fin 12288 → EReal) (zmr zlr : Fin 1024 → Fin 64 → ℝ)

theorem llR_E (i j : Fin 1024) (d : Fin 64) :
    llR (E zmr i d) (E zlr j d) = ((LR (zmr i d) (zlr j d) : ℝ) : EReal) := llR_coe _ _

theorem llK_E (i j : Fin 1024) (d : Fin 64) :
    llK (E zmr i d) (E zlr j d) = ((LR (zmr i d) (zlr j d) : ℝ) : EReal) := llK_coe _ _

theorem rows1_E (i : Fin 1024) (d : Fin 64) :
    rows1 (E zmr) (E zlr) i d = fun k r => ((LR (zmr i d) (zlr (jidx k r) d) : ℝ) : EReal) := by
  funext k r; exact llK_coe _ _

theorem rows2_E (i : Fin 1024) :
    rows2 (E zmr) (E zlr) i = fun k r => ((∑ d, LR (zmr i d) (zlr (jidx k r) d) : ℝ) : EReal) := by
  funext k r
  show ∑ d : Fin 64, llK (E zmr i d) (E zlr (jidx k r) d) = _
  rw [coe_finset_sum]
  exact Finset.sum_congr rfl fun d _ => llK_coe _ _

theorem sR_E (i j : Fin 1024) : sR (E zmr) (E zlr) i j = ((∑ d, LR (zmr i d) (zlr j d) : ℝ) : EReal) := by
  unfold sR
  rw [cZero_eq, zero_add, coe_finset_sum]
  exact Finset.sum_congr rfl fun d _ => llR_coe _ _

/-- Per (i, d): the kernel's and the reference's maximum are one real M, and the kernel's running sum is
    Σ_j exp(ℓ(i,j,d) − M), a positive real. -/
theorem spec1 (i : Fin 1024) (d : Fin 64) :
    ∃ M : ℝ, m1K (E zmr) (E zlr) i d = (M : EReal) ∧ m1R (E zmr) (E zlr) i d = (M : EReal)
      ∧ t1K (E zmr) (E zlr) i d = ((∑ j, Real.exp (LR (zmr i d) (zlr j d) - M) : ℝ) : EReal)
      ∧ 0 < ∑ j, Real.exp (LR (zmr i d) (zlr j d) - M) := by
  obtain ⟨M, hM, hfold, hT, hpos⟩ := onl8 (fun j => LR (zmr i d) (zlr j d))
  have hf : (fun j => llR (E zmr i d) (E zlr j d)) = fun j => ((LR (zmr i d) (zlr j d) : ℝ) : EReal) :=
    funext fun j => llR_coe _ _
  refine ⟨M, ?_, ?_, ?_, hpos⟩
  · unfold m1K; rw [rows1_E]; exact hM
  · unfold m1R; rw [hf]; exact hfold
  · unfold t1K; rw [rows1_E]; exact hT

/-- Per i: the same for the sums over d. -/
theorem spec2 (i : Fin 1024) :
    ∃ M : ℝ, m2K (E zmr) (E zlr) i = (M : EReal) ∧ m2R (E zmr) (E zlr) i = (M : EReal)
      ∧ t2K (E zmr) (E zlr) i = ((∑ j, Real.exp ((∑ d, LR (zmr i d) (zlr j d)) - M) : ℝ) : EReal)
      ∧ 0 < ∑ j, Real.exp ((∑ d, LR (zmr i d) (zlr j d)) - M) := by
  obtain ⟨M, hM, hfold, hT, hpos⟩ := onl8 (fun j => ∑ d, LR (zmr i d) (zlr j d))
  have hf : (fun j => sR (E zmr) (E zlr) i j) = fun j => ((∑ d, LR (zmr i d) (zlr j d) : ℝ) : EReal) :=
    funext fun j => sR_E zmr zlr i j
  refine ⟨M, ?_, ?_, ?_, hpos⟩
  · unfold m2K; rw [rows2_E]; exact hM
  · unfold m2R; rw [hf]; exact hfold
  · unfold t2K; rw [rows2_E]; exact hT

/-- The Bernoulli part: three blocks of 4096 are the 12288 pixels. -/
theorem rowSumK_eq (i : Fin 1024) :
    rowSumK tg xm i = cZero + ∑ q : Fin 12288, bern (tg i q) (xm i q) := by
  unfold rowSumK blkSum
  rw [← sum_pidx (fun q => bern (tg i q) (xm i q)), Finset.sum_range_succ, Finset.sum_range_succ,
    Finset.sum_range_one]
  simp only [add_assoc]

theorem lpxK_eq_lpxR : lpxK tg xm = lpxR tg xm := by
  unfold lpxK lpxR
  congr 2
  exact Finset.sum_congr rfl fun i _ => rowSumK_eq tg xm i

theorem KerOut_eq_RefOut_real : KerOut tg xm (E zmr) (E zlr) = RefOut tg xm (E zmr) (E zlr) := by
  choose M1 hm1K hm1R ht1K hpos1 using spec1 zmr zlr
  choose M2 hm2K hm2R ht2K hpos2 using spec2 zmr zlr
  -- log q(z): the two sums are one extended real, term by term
  have hsum2 : (cZero + ∑ i', t2K (E zmr) (E zlr) i') = sum2R (E zmr) (E zlr) := by
    unfold sum2R
    congr 1
    refine Finset.sum_congr rfl fun i _ => ?_
    rw [ht2K, coe_finset_sum]
    refine Finset.sum_congr rfl fun j _ => ?_
    rw [sR_E, hm2R, ← EReal.coe_sub, Ideal.exp_coe]
  have hlqz : lqzK (E zmr) (E zlr) = lqzR (E zmr) (E zlr) := by
    funext i
    unfold lqzK lqzR
    rw [hsum2, hm2K, hm2R]
  -- log ∏ q(z_d): both sums are one positive real
  have hS1pos : 0 < ∑ i, ∑ j, ∑ d, Real.exp (LR (zmr i d) (zlr j d) - M1 i d) := by
    refine Finset.sum_pos (fun i _ => Finset.sum_pos (fun j _ => Finset.sum_pos (fun d _ => Real.exp_pos _) ?_) ?_) ?_
    all_goals exact Finset.univ_nonempty
  have hsum1R : sum1R (E zmr) (E zlr)
      = ((∑ i, ∑ j, ∑ d, Real.exp (LR (zmr i d) (zlr j d) - M1 i d) : ℝ) : EReal) := by
    unfold sum1R
    rw [cZero_eq, zero_add, coe_finset_sum]
    refine Finset.sum_congr rfl fun i _ => ?_
    rw [coe_finset_sum]
    refine Finset.sum_congr rfl fun j _ => ?_
    rw [coe_finset_sum]
    refine Finset.sum_congr rfl fun d _ => ?_
    rw [llR_E, hm1R, ← EReal.coe_sub, Ideal.exp_coe]
  have hsum1K : (cZero + ∑ i', ∑ d, t1K (E zmr) (E zlr) i' d)
      = ((∑ i, ∑ j, ∑ d, Real.exp (LR (zmr i d) (zlr j d) - M1 i d) : ℝ) : EReal) := by
    rw [cZero_eq, zero_add, coe_finset_sum]
    refine Finset.sum_congr rfl fun i _ => ?_
    rw [Finset.sum_comm, coe_finset_sum]
    refine Finset.sum_congr rfl fun d _ => ?_
    rw [ht1K]
  have hlog : Ideal.log ((∑ i, ∑ j, ∑ d, Real.exp (LR (zmr i d) (zlr j d) - M1 i d) : ℝ) : EReal)
      = ((Real.log (∑ i, ∑ j, ∑ d, Real.exp (LR (zmr i d) (zlr j d) - M1 i d)) : ℝ) : EReal) := by
    rw [Ideal.log_coe, if_neg (not_le.2 hS1pos)]
  have hlqp : lqpK (E zmr) (E zlr) = lqpR (E zmr) (E zlr) := by
    funext i
    unfold lqpK lqpR
    rw [hsum1K, hsum1R, hlog, c64_eq, cLogNM_eq, cZero_eq, zero_add, zero_add]
    have h1 : ∀ d, m1K (E zmr) (E zlr) i d = ((M1 i d : ℝ) : EReal) := fun d => hm1K i d
    have h2 : ∀ d, m1R (E zmr) (E zlr) i d = ((M1 i d : ℝ) : EReal) := fun d => hm1R i d
    simp only [h1, h2]
    rw [← coe_finset_sum, ← EReal.coe_sub, ← EReal.coe_mul, ← EReal.coe_add]
    have h3 : ∀ d, (((Real.log (∑ i, ∑ j, ∑ d, Real.exp (LR (zmr i d) (zlr j d) - M1 i d)) : ℝ) : EReal)
          + ((M1 i d : ℝ) : EReal)) - (lnmR : EReal)
        = (((Real.log (∑ i, ∑ j, ∑ d, Real.exp (LR (zmr i d) (zlr j d) - M1 i d)) + M1 i d) - lnmR : ℝ) : EReal) :=
      fun d => by rw [← EReal.coe_add, ← EReal.coe_sub]
    simp only [h3]
    rw [← coe_finset_sum]
    congr 1
    rw [Finset.sum_sub_distrib, Finset.sum_add_distrib, Finset.sum_const, Finset.sum_const, Finset.card_univ,
      Fintype.card_fin]
    simp only [nsmul_eq_mul]
    push_cast
    ring
  unfold KerOut RefOut
  rw [lpxK_eq_lpxR, hlqz, hlqp]

end

section
variable (tg xm : Fin 1024 → Fin 12288 → EReal) (zm zl : Fin 1024 → Fin 64 → EReal)

/-- THE LAW: for real z_mean and z_log_var the two results are one extended real. (tg and xm are unconstrained:
    the Bernoulli part only regroups a finite sum.) -/
theorem KerOut_eq_RefOut (hzm : ∀ i d, ∃ r : ℝ, zm i d = (r : EReal)) (hzl : ∀ i d, ∃ r : ℝ, zl i d = (r : EReal)) :
    KerOut tg xm zm zl = RefOut tg xm zm zl := by
  choose zmr hzmr using hzm
  choose zlr hzlr using hzl
  obtain rfl : zm = E zmr := funext fun i => funext fun d => hzmr i d
  obtain rfl : zl = E zlr := funext fun i => funext fun d => hzlr i d
  exact KerOut_eq_RefOut_real tg xm zmr zlr

end

end Cert.Alg

end
-- ==== Proof.Finite.lean ====
/-
  The precondition read back: five times "every entry has |x| < +∞", and-ed together, is 1; so every entry of
  z_mean and of z_log_var is a real.
-/
import proofs.«153124_j71159018160768_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- |x| < +∞ read back: x is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

theorem real_of_pre [hP : Cert.Pre_finite_inputs.Facts]
    (a0 a1 a2 : FVec Ideal Cert.Pre_finite_inputs.S1024x12288 .f32) (a3 a4 : FVec Ideal Cert.Pre_finite_inputs.S1024x64 .f32)
    (h : Cert.Pre_finite_inputs.fn (F := Ideal) a0 a1 a2 a3 a4 = fun _ => 1#1) :
    (∀ (i : Fin 1024) (d : Fin 64), ∃ r : ℝ, a3 (ix2 i d) = (r : EReal))
      ∧ (∀ (i : Fin 1024) (d : Fin 64), ∃ r : ℝ, a4 (ix2 i d) = (r : EReal)) := by
  have e := congrFun h ix0
  dsimp only [Cert.Pre_finite_inputs.fn, Cert.Pre_finite_inputs.fn_part1] at e
  simp only [andi, IntOp.andi_eq_one] at e
  obtain ⟨⟨-, h3⟩, h4⟩ := e
  have k3 := fun j => Host.reduce_andi_all _ _ _ _ ix0 h3 j
  have k4 := fun j => Host.reduce_andi_all _ _ _ _ ix0 h4 j
  exact ⟨fun i d => real_of_abs_lt_top _ (k3 (ix2 i d)), fun i d => real_of_abs_lt_top _ (k4 (ix2 i d))⟩

end Cert.Finite

end
-- ==== Proof.lean ====
/-
  A Beta-TCVAE loss: a Bernoulli reconstruction term summed over 12288 pixels, the Gaussian log-density of the
  code under its own posterior, and two log-sum-exp statistics of the 1024 × 1024 × 64 table  ℓ(i,j,d)  of the
  log-density of code i under posterior j, combined into one scalar.

  The kernel program computes the pixel sums in a first pipelined region (three pixel blocks accumulated per row
  block) and the log-sum-exp statistics in a second one, which sweeps the key axis j in eight blocks keeping a
  running maximum and a rescaled running sum in scratch buffers; host code around the regions takes the means and
  the logarithms. The reference computes the whole table at once.

  The frames (both instances of the kernel program): every weakly fair execution runs the two regions and the host
  stretches to the end and no item writes an argument array. The reference's frame is its generated run.
  The value: at the extended reals the kernel program's result is the scalar formula  KerOut  of the argument
  arrays, the reference's is  RefOut ; the precondition makes z_mean and z_log_var real, and for real z's the two
  formulas are one number (the online sweep is the direct log-sum-exp:  exp(a−b)·exp(b−c) = exp(a−c) ; the kernel's
  folded constant ½·log 2π is exactly half the reference's; the pixel sum only regroups).
  Nothing was rewritten by the idealization, so that conjunct is trivial.
-/
import proofs.«153124_j71159018160768_1_alg».proof.Defs
import proofs.«153124_j71159018160768_1_alg».proof.Proof.Gen.Kernel
import proofs.«153124_j71159018160768_1_alg».proof.Proof.Gen.KernelIdeal
import proofs.«153124_j71159018160768_1_alg».proof.Proof.Gen.ReferenceIdeal
import proofs.«153124_j71159018160768_1_alg».proof.Proof.Gen.Pre_finite_inputs
import proofs.«153124_j71159018160768_1_alg».proof.Proof.K.Run
import proofs.«153124_j71159018160768_1_alg».proof.Proof.KI.Value
import proofs.«153124_j71159018160768_1_alg».proof.Proof.RefValue
import proofs.«153124_j71159018160768_1_alg».proof.Proof.AlgProof
import proofs.«153124_j71159018160768_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end and leaves its arguments as launched. -/
theorem frame_k : Cert.frame_Kernel := fun m ρ _ => Cert.Kernel.Hand.frame (F := Bits) m ρ

/-- The same at the extended reals. -/
theorem frame_ki : Cert.frame_KernelIdeal := fun m ρ _ => Cert.KernelIdeal.Hand.frame (F := Ideal) m ρ

/-- The reference is host code only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at one extended real: the kernel program at  KerOut  of its arguments, the reference at
    RefOut  of the same arrays, and for real z's these agree. -/
theorem algebraic : Cert.algebraic_KernelIdeal_ReferenceIdeal := by
  intro m ρ m' ρ' hpre hagree
  refine ⟨fun c => Cert.KernelIdeal.Hand.W4 m c (Proc.devRef .tc Cert.KernelIdeal.main_v39), ?_, ?_⟩
  · -- the kernel program's run: every unscoped buffer ends at the last valuation
    exact (θ_run Cert.KernelIdeal.defs _ _).mono (fun _ h c =>
      ⟨h c _ (Cert.KernelIdeal.Hand.mem_uc Cert.KernelIdeal.main_v39 (by decide)),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c),
       (h c _ (Cert.KernelIdeal.Hand.mem_uc Cert.KernelIdeal.main_arg3 (by decide))).trans (Cert.KernelIdeal.Hand.W4_main_arg3 m c),
       (h c _ (Cert.KernelIdeal.Hand.mem_uc Cert.KernelIdeal.main_arg4 (by decide))).trans (Cert.KernelIdeal.Hand.W4_main_arg4 m c)⟩)
      (Cert.KernelIdeal.Hand.run_all (F := Ideal) m ρ)
  · -- the reference's run, its result the same number
    refine (θ_run Cert.ReferenceIdeal.defs _ _).mono (fun _ h c => ⟨(h c).1.trans ?_, (h c).2⟩)
      (Cert.ReferenceIdeal.Value.run (F := Ideal) m' ρ')
    obtain ⟨hzm, hzl⟩ := Cert.Finite.real_of_pre _ _ _ _ _ (hpre c)
    rw [Cert.ReferenceIdeal.Read.val_main_v79_eq, (hagree c).1, (hagree c).2.1, (hagree c).2.2.2.1, (hagree c).2.2.2.2]
    funext j
    rw [eq_ix0 j, Cert.ReferenceIdeal.RefValue.ref_out]
    refine Eq.trans ?_ (Cert.KernelIdeal.Hand.out_value m c).symm
    exact (Cert.Alg.KerOut_eq_RefOut _ _ _ _ hzm hzl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
